-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S2x16x4096x128 : Shape := ⟨4, ![2, 16, 4096, 128]⟩
abbrev S4096 : Shape := ⟨1, ![4096]⟩
abbrev S_ : Shape := ⟨0, ![]⟩

class Facts : Prop where
  bcast_S_S2x16x4096x128 : S_.BroadcastsInDim S2x16x4096x128 (![] : Fin 0 → Fin S2x16x4096x128.rank)
  reducesTo_S2x16x4096x128_S_d0_1_2_3 : S2x16x4096x128.ReducesTo [0, 1, 2, 3] S_
  h_S_ : 0 < S_.numel
  bitsLt_bf16_f32 : FTy.bits .bf16 < FTy.bits .f32
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2x16x4096x128 .f32) (main_arg1 : FVec F S4096 .bf16) (main_arg2 : IVec S4096 32) : IVec S_ 1 :=
  let main_v0 : FVec F S2x16x4096x128 .f32 := Host.absf main_arg0
  let main_cst : FVec F S_ .f32 := constant S_ .f32 0x7F800000#32
  let main_v1 : FVec F S2x16x4096x128 .f32 := broadcastInDim S2x16x4096x128 ![] bcast_S_S2x16x4096x128 main_cst
  let main_v2 : IVec S2x16x4096x128 1 := cmpf .olt main_v0 main_v1
  let main_c : IVec S_ 1 := constantI S_ 1 1#1
  let main_v3 : IVec S_ 1 := (fun x v => Host.reduce IntOp.andi x v reducesTo_S2x16x4096x128_S_d0_1_2_3 h_S_) main_v2 main_c
  let main_v4 : FVec F S4096 .f32 := (extf .f32 · bitsLt_bf16_f32) main_arg1
  let main_v5 : FVec F S4096 .f32 := Host.absf main_v4
  let main_cst_0 : FVec F S_ .f32 := constant S_ .f32 0x7F800000#32
  let main_v6 : FVec F S4096 .f32 := broadcastInDim S4096 ![] bcast_S_S4096 main_cst_0
  let main_v7 : IVec S4096 1 := cmpf .olt main_v5 main_v6
  let main_c_1 : IVec S_ 1 := constantI S_ 1 1#1
  let main_v8 : IVec S_ 1 := (fun x v => Host.reduce IntOp.andi x v reducesTo_S4096_S_d0 h_S_) main_v7 main_c_1
  let main_v9 : IVec S_ 1 := andi main_v3 main_v8
  let main_c_2 : IVec S_ 32 := constantI S_ 32 1#32
  let main_v10 : IVec S4096 32 := broadcastInDim S4096 ![] bcast_S_S4096 main_c_2
  let main_v11 : IVec S4096 1 := cmpi .sge main_arg2 main_v10
  let main_c_3 : IVec S_ 32 := constantI S_ 32 1#32
  let main_v12 : IVec S4096 32 := broadcastInDim S4096 ![] bcast_S_S4096 main_c_3
  let main_v13 : IVec S4096 1 := cmpi .sle main_arg2 main_v12
  let main_v14 : IVec S4096 1 := andi main_v11 main_v13
  let main_c_4 : IVec S_ 1 := constantI S_ 1 1#1
  let main_v15 : IVec S_ 1 := (fun x v => Host.reduce IntOp.andi x v reducesTo_S4096_S_d0 h_S_) main_v14 main_c_4
  let main_v16 : IVec S_ 1 := andi main_v9 main_v15
  main_v16
-- ==== Kernel.lean ====
abbrev S2x16x4096x128 : Shape := ⟨4, ![2, 16, 4096, 128]⟩
abbrev S4096 : Shape := ⟨1, ![4096]⟩
abbrev S_ : Shape := ⟨0, ![]⟩
abbrev S2048 : Shape := ⟨1, ![2048]⟩
abbrev S16 : Shape := ⟨1, ![16]⟩
abbrev S16x128 : Shape := ⟨2, ![16, 128]⟩
abbrev S1x4x4096x128 : Shape := ⟨4, ![1, 4, 4096, 128]⟩
abbrev S4x128 : Shape := ⟨2, ![4, 128]⟩
abbrev S1x4x1x128 : Shape := ⟨4, ![1, 4, 1, 128]⟩

abbrev nBuf : Table → Nat
  | .hbm => 9
  | .local .tc .vmem => 5
  | .local .scVector .vmem => 3
  | _ => 0

abbrev bufTy : (tb : Table) → Fin (nBuf tb) → BufTy
  | .hbm, ⟨0, _⟩ => ⟨S2x16x4096x128, .f32⟩
  | .hbm, ⟨1, _⟩ => ⟨S4096, .bf16⟩
  | .hbm, ⟨2, _⟩ => ⟨S4096, .i32⟩
  | .hbm, ⟨3, _⟩ => ⟨S_, .f32⟩
  | .hbm, ⟨4, _⟩ => ⟨S2048, .f32⟩
  | .hbm, ⟨5, _⟩ => ⟨S4096, .f32⟩
  | .hbm, ⟨6, _⟩ => ⟨S2048, .f32⟩
  | .hbm, ⟨7, _⟩ => ⟨S16x128, .f32⟩
  | .hbm, ⟨8, _⟩ => ⟨S2x16x4096x128, .f32⟩
  | .local .tc .vmem, ⟨0, _⟩ => ⟨S1x4x4096x128, .f32⟩
  | .local .tc .vmem, ⟨1, _⟩ => ⟨S1x4x4096x128, .f32⟩
  | .local .tc .vmem, ⟨2, _⟩ => ⟨S16x128, .f32⟩
  | .local .tc .vmem, ⟨3, _⟩ => ⟨S1x4x4096x128, .f32⟩
  | .local .tc .vmem, ⟨4, _⟩ => ⟨S1x4x4096x128, .f32⟩
  | .local .scVector .vmem, ⟨0, _⟩ => ⟨S4096, .i32⟩
  | .local .scVector .vmem, ⟨1, _⟩ => ⟨S4096, .f32⟩
  | .local .scVector .vmem, ⟨2, _⟩ => ⟨S2048, .f32⟩
  | _, _ => ⟨S2x16x4096x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v1_scv : Ref sig .scVector := ⟨.hbm, 5, rfl⟩
abbrev main_arg2_scv : Ref sig .scVector := ⟨.hbm, 2, rfl⟩
abbrev main_v0_scv : Ref sig .scVector := ⟨.hbm, 4, rfl⟩
abbrev main_v2_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_3 : BitVec 32 := 0#32
  let c32_i32 : BitVec 32 := 32#32
  let v5 : BitVec 32 := Scalar.addi c0_i32_3 c32_i32
  let c1_i32 : BitVec 32 := 1#32
  ⟨c0_i32_3, v5, c1_i32⟩
def k0_off1 (k0_t1 : Fin k0_t1_loop.trips) : Fin 1 → Nat :=
  let c0_i32_3 : BitVec 32 := 0#32
  let c1_i32 : BitVec 32 := 1#32
  let arg12 : BitVec 32 := Scf.iv c0_i32_3 c1_i32 k0_t1
  let c128_i32 : BitVec 32 := 128#32
  let v6 : BitVec 32 := Scalar.muli arg12 c128_i32
  let c0_i32_5 : BitVec 32 := 0#32
  let v7 : BitVec 32 := Scalar.addi v6 c0_i32_5
  let v8 : Index := Scalar.indexCast v7
  ![v8.toNat]

def k0_chk1 (i : grid0.Coords) (v9 : IVec S16 32) : Prop :=
  (∀ (k0_h1 : k0_cond1 i = 1#1), ∀ a x, ((![v9] : Fin 1 → IVec S16 32) a x).toNat < S2048.size a)
instance k0_chk1.dec : ∀ (i : grid0.Coords) (v9 : IVec S16 32), Decidable (k0_chk1 i v9) := fun i v9 => decidable_of_iff' _ (Iff.of_eq (k0_chk1.eq_1 i v9))
theorem k0_idx1_inb : ∀ (i : grid0.Coords) (v9 : IVec S16 32) (k0_hw1 : k0_chk1 i v9), ∀ (k0_h1 : k0_cond1 i = 1#1), ∀ a x, ((![v9] : Fin 1 → IVec S16 32) a x).toNat < S2048.size a := fun i v9 k0_hw1 k0_h1 => k0_hw1 k0_h1
def k0_off2 (k0_t1 : Fin k0_t1_loop.trips) : Fin 1 → Nat :=
  let c0_i32_3 : BitVec 32 := 0#32
  let c1_i32 : BitVec 32 := 1#32
  let arg12 : BitVec 32 := Scf.iv c0_i32_3 c1_i32 k0_t1
  let c128_i32 : BitVec 32 := 128#32
  let v6 : BitVec 32 := Scalar.muli arg12 c128_i32
  let c16_i32 : BitVec 32 := 16#32
  let v13 : BitVec 32 := Scalar.addi v6 c16_i32
  let v14 : Index := Scalar.indexCast v13
  ![v14.toNat]

def k0_chk2 (i : grid0.Coords) (v15 : IVec S16 32) : Prop :=
  (∀ (k0_h1 : k0_cond1 i = 1#1), ∀ a x, ((![v15] : Fin 1 → IVec S16 32) a x).toNat < S2048.size a)
instance k0_chk2.dec : ∀ (i : grid0.Coords) (v15 : IVec S16 32), Decidable (k0_chk2 i v15) := fun i v15 => decidable_of_iff' _ (Iff.of_eq (k0_chk2.eq_1 i v15))
theorem k0_idx2_inb : ∀ (i : grid0.Coords) (v15 : IVec S16 32) (k0_hw2 : k0_chk2 i v15), ∀ (k0_h1 : k0_cond1 i = 1#1), ∀ a x, ((![v15] : Fin 1 → IVec S16 32) a x).toNat < S2048.size a := fun i v15 k0_hw2 k0_h1 => k0_hw2 k0_h1
def k0_off3 (k0_t1 : Fin k0_t1_loop.trips) : Fin 1 → Nat :=
  let c0_i32_3 : BitVec 32 := 0#32
  let c1_i32 : BitVec 32 := 1#32
  let arg12 : BitVec 32 := Scf.iv c0_i32_3 c1_i32 k0_t1
  let c128_i32 : BitVec 32 := 128#32
  let v6 : BitVec 32 := Scalar.muli arg12 c128_i32
  let c32_i32_8 : BitVec 32 := 32#32
  let v19 : BitVec 32 := Scalar.addi v6 c32_i32_8
  let v20 : Index := Scalar.indexCast v19
  ![v20.toNat]

def k0_chk3 (i : grid0.Coords) (v21 : IVec S16 32) : Prop :=
  (∀ (k0_h1 : k0_cond1 i = 1#1), ∀ a x, ((![v21] : Fin 1 → IVec S16 32) a x).toNat < S2048.size a)
instance k0_chk3.dec : ∀ (i : grid0.Coords) (v21 : IVec S16 32), Decidable (k0_chk3 i v21) := fun i v21 => decidable_of_iff' _ (Iff.of_eq (k0_chk3.eq_1 i v21))
theorem k0_idx3_inb : ∀ (i : grid0.Coords) (v21 : IVec S16 32) (k0_hw3 : k0_chk3 i v21), ∀ (k0_h1 : k0_cond1 i = 1#1), ∀ a x, ((![v21] : Fin 1 → IVec S16 32) a x).toNat < S2048.size a := fun i v21 k0_hw3 k0_h1 => k0_hw3 k0_h1
def k0_off4 (k0_t1 : Fin k0_t1_loop.trips) : Fin 1 → Nat :=
  let c0_i32_3 : BitVec 32 := 0#32
  let c1_i32 : BitVec 32 := 1#32
  let arg12 : BitVec 32 := Scf.iv c0_i32_3 c1_i32 k0_t1
  let c128_i32 : BitVec 32 := 128#32
  let v6 : BitVec 32 := Scalar.muli arg12 c128_i32
  let c48_i32 : BitVec 32 := 48#32
  let v25 : BitVec 32 := Scalar.addi v6 c48_i32
  let v26 : Index := Scalar.indexCast v25
  ![v26.toNat]

def k0_chk4 (i : grid0.Coords) (v27 : IVec S16 32) : Prop :=
  (∀ (k0_h1 : k0_cond1 i = 1#1), ∀ a x, ((![v27] : Fin 1 → IVec S16 32) a x).toNat < S2048.size a)
instance k0_chk4.dec : ∀ (i : grid0.Coords) (v27 : IVec S16 32), Decidable (k0_chk4 i v27) := fun i v27 => decidable_of_iff' _ (Iff.of_eq (k0_chk4.eq_1 i v27))
theorem k0_idx4_inb : ∀ (i : grid0.Coords) (v27 : IVec S16 32) (k0_hw4 : k0_chk4 i v27), ∀ (k0_h1 : k0_cond1 i = 1#1), ∀ a x, ((![v27] : Fin 1 → IVec S16 32) a x).toNat < S2048.size a := fun i v27 k0_hw4 k0_h1 => k0_hw4 k0_h1
def k0_off5 (k0_t1 : Fin k0_t1_loop.trips) : Fin 1 → Nat :=
  let c0_i32_3 : BitVec 32 := 0#32
  let c1_i32 : BitVec 32 := 1#32
  let arg12 : BitVec 32 := Scf.iv c0_i32_3 c1_i32 k0_t1
  let c128_i32 : BitVec 32 := 128#32
  let v6 : BitVec 32 := Scalar.muli arg12 c128_i32
  let c64_i32 : BitVec 32 := 64#32
  let v31 : BitVec 32 := Scalar.addi v6 c64_i32
  let v32 : Index := Scalar.indexCast v31
  ![v32.toNat]

def k0_chk5 (i : grid0.Coords) (v33 : IVec S16 32) : Prop :=
  (∀ (k0_h1 : k0_cond1 i = 1#1), ∀ a x, ((![v33] : Fin 1 → IVec S16 32) a x).toNat < S2048.size a)
instance k0_chk5.dec : ∀ (i : grid0.Coords) (v33 : IVec S16 32), Decidable (k0_chk5 i v33) := fun i v33 => decidable_of_iff' _ (Iff.of_eq (k0_chk5.eq_1 i v33))
theorem k0_idx5_inb : ∀ (i : grid0.Coords) (v33 : IVec S16 32) (k0_hw5 : k0_chk5 i v33), ∀ (k0_h1 : k0_cond1 i = 1#1), ∀ a x, ((![v33] : Fin 1 → IVec S16 32) a x).toNat < S2048.size a := fun i v33 k0_hw5 k0_h1 => k0_hw5 k0_h1
def k0_off6 (k0_t1 : Fin k0_t1_loop.trips) : Fin 1 → Nat :=
  let c0_i32_3 : BitVec 32 := 0#32
  let c1_i32 : BitVec 32 := 1#32
  let arg12 : BitVec 32 := Scf.iv c0_i32_3 c1_i32 k0_t1
  let c128_i32 : BitVec 32 := 128#32
  let v6 : BitVec 32 := Scalar.muli arg12 c128_i32
  let c80_i32 : BitVec 32 := 80#32
  let v37 : BitVec 32 := Scalar.addi v6 c80_i32
  let v38 : Index := Scalar.indexCast v37
  ![v38.toNat]

def k0_chk6 (i : grid0.Coords) (v39 : IVec S16 32) : Prop :=
  (∀ (k0_h1 : k0_cond1 i = 1#1), ∀ a x, ((![v39] : Fin 1 → IVec S16 32) a x).toNat < S2048.size a)
instance k0_chk6.dec : ∀ (i : grid0.Coords) (v39 : IVec S16 32), Decidable (k0_chk6 i v39) := fun i v39 => decidable_of_iff' _ (Iff.of_eq (k0_chk6.eq_1 i v39))
theorem k0_idx6_inb : ∀ (i : grid0.Coords) (v39 : IVec S16 32) (k0_hw6 : k0_chk6 i v39), ∀ (k0_h1 : k0_cond1 i = 1#1), ∀ a x, ((![v39] : Fin 1 → IVec S16 32) a x).toNat < S2048.size a := fun i v39 k0_hw6 k0_h1 => k0_hw6 k0_h1
def k0_off7 (k0_t1 : Fin k0_t1_loop.trips) : Fin 1 → Nat :=
  let c0_i32_3 : BitVec 32 := 0#32
  let c1_i32 : BitVec 32 := 1#32
  let arg12 : BitVec 32 := Scf.iv c0_i32_3 c1_i32 k0_t1
  let c128_i32 : BitVec 32 := 128#32
  let v6 : BitVec 32 := Scalar.muli arg12 c128_i32
  let c96_i32 : BitVec 32 := 96#32
  let v43 : BitVec 32 := Scalar.addi v6 c96_i32
  let v44 : Index := Scalar.indexCast v43
  ![v44.toNat]

def k0_chk7 (i : grid0.Coords) (v45 : IVec S16 32) : Prop :=
  (∀ (k0_h1 : k0_cond1 i = 1#1), ∀ a x, ((![v45] : Fin 1 → IVec S16 32) a x).toNat < S2048.size a)
instance k0_chk7.dec : ∀ (i : grid0.Coords) (v45 : IVec S16 32), Decidable (k0_chk7 i v45) := fun i v45 => decidable_of_iff' _ (Iff.of_eq (k0_chk7.eq_1 i v45))
theorem k0_idx7_inb : ∀ (i : grid0.Coords) (v45 : IVec S16 32) (k0_hw7 : k0_chk7 i v45), ∀ (k0_h1 : k0_cond1 i = 1#1), ∀ a x, ((![v45] : Fin 1 → IVec S16 32) a x).toNat < S2048.size a := fun i v45 k0_hw7 k0_h1 => k0_hw7 k0_h1
def k0_off8 (k0_t1 : Fin k0_t1_loop.trips) : Fin 1 → Nat :=
  let c0_i32_3 : BitVec 32 := 0#32
  let c1_i32 : BitVec 32 := 1#32
  let arg12 : BitVec 32 := Scf.iv c0_i32_3 c1_i32 k0_t1
  let c128_i32 : BitVec 32 := 128#32
  let v6 : BitVec 32 := Scalar.muli arg12 c128_i32
  let c112_i32 : BitVec 32 := 112#32
  let v49 : BitVec 32 := Scalar.addi v6 c112_i32
  let v50 : Index := Scalar.indexCast v49
  ![v50.toNat]

def k0_chk8 (i : grid0.Coords) (v51 : IVec S16 32) : Prop :=
  (∀ (k0_h1 : k0_cond1 i = 1#1), ∀ a x, ((![v51] : Fin 1 → IVec S16 32) a x).toNat < S2048.size a)
instance k0_chk8.dec : ∀ (i : grid0.Coords) (v51 : IVec S16 32), Decidable (k0_chk8 i v51) := fun i v51 => decidable_of_iff' _ (Iff.of_eq (k0_chk8.eq_1 i v51))
theorem k0_idx8_inb : ∀ (i : grid0.Coords) (v51 : IVec S16 32) (k0_hw8 : k0_chk8 i v51), ∀ (k0_h1 : k0_cond1 i = 1#1), ∀ a x, ((![v51] : Fin 1 → IVec S16 32) a x).toNat < S2048.size a := fun i v51 k0_hw8 k0_h1 => k0_hw8 k0_h1
abbrev grid1 : Pipeline.Grid := ⟨2, ![2, 4], ![false, false]⟩

def k1_off1 (i : grid1.Coords) : Fin 2 → Nat :=
  let arg1 : BitVec 32 := BitVec.ofNat 32 (i 1).val
  let c4_i32 : BitVec 32 := 4#32
  let v0 : BitVec 32 := Scalar.muli arg1 c4_i32
  let v1 : Index := Scalar.indexCast v0
  let c0 : Index := 0#32
  ![v1.toNat, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x4x4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x4x4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S2048 : S_.BroadcastsInDim S2048 (![] : Fin 0 → Fin S2048.rank)
  bitsLt_bf16_f32 : FTy.bits .bf16 < FTy.bits .f32
  h_S16 : 0 < S16.numel
  h_S2048 : 0 < S2048.numel
  shapeCasts_S2048_S16x128 : S2048.ShapeCasts S16x128
  h_S4x128 : 0 < S4x128.numel
  shapeCasts_S4x128_S4x128 : S4x128.ShapeCasts S4x128
  shapeCasts_S4x128_S1x4x1x128 : S4x128.ShapeCasts S1x4x1x128
  inb_S1x4x4096x128_S1x4x4096x128_0_0_0_0 : ∀ a, (![0, 0, 0, 0] : Fin 4 → Nat) a + S1x4x4096x128.size a ≤ S1x4x4096x128.size a
  h_S1x4x4096x128 : 0 < S1x4x4096x128.numel
  broadcasts_S1x4x1x128_S1x4x4096x128 : S1x4x1x128.Broadcasts S1x4x4096x128
  hcc0_scratch3 : 0 + S_.numel ≤ 9
  hcc0_scratch4 : 1 + S_.numel ≤ 9
  hcc0_scratch5 : 2 + S_.numel ≤ 9
  hcc0_scoped0 : 3 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : ∀ i : grid0.Coords, ∀ (k0_h1 : k0_cond1 i = 1#1), k0_t1_loop.OK
  k0_off1_inb : ∀ (i : grid0.Coords) (k0_t1 : Fin k0_t1_loop.trips), ∀ (k0_h1 : k0_cond1 i = 1#1), ∀ a, (k0_off1 k0_t1) a + S16.size a ≤ S4096.size a
  k0_off2_inb : ∀ (i : grid0.Coords) (k0_t1 : Fin k0_t1_loop.trips), ∀ (k0_h1 : k0_cond1 i = 1#1), ∀ a, (k0_off2 k0_t1) a + S16.size a ≤ S4096.size a
  k0_off3_inb : ∀ (i : grid0.Coords) (k0_t1 : Fin k0_t1_loop.trips), ∀ (k0_h1 : k0_cond1 i = 1#1), ∀ a, (k0_off3 k0_t1) a + S16.size a ≤ S4096.size a
  k0_off4_inb : ∀ (i : grid0.Coords) (k0_t1 : Fin k0_t1_loop.trips), ∀ (k0_h1 : k0_cond1 i = 1#1), ∀ a, (k0_off4 k0_t1) a + S16.size a ≤ S4096.size a
  k0_off5_inb : ∀ (i : grid0.Coords) (k0_t1 : Fin k0_t1_loop.trips), ∀ (k0_h1 : k0_cond1 i = 1#1), ∀ a, (k0_off5 k0_t1) a + S16.size a ≤ S4096.size a
  k0_off6_inb : ∀ (i : grid0.Coords) (k0_t1 : Fin k0_t1_loop.trips), ∀ (k0_h1 : k0_cond1 i = 1#1), ∀ a, (k0_off6 k0_t1) a + S16.size a ≤ S4096.size a
  k0_off7_inb : ∀ (i : grid0.Coords) (k0_t1 : Fin k0_t1_loop.trips), ∀ (k0_h1 : k0_cond1 i = 1#1), ∀ a, (k0_off7 k0_t1) a + S16.size a ≤ S4096.size a
  k0_off8_inb : ∀ (i : grid0.Coords) (k0_t1 : Fin k0_t1_loop.trips), ∀ (k0_h1 : k0_cond1 i = 1#1), ∀ a, (k0_off8 k0_t1) a + S16.size a ≤ S4096.size a
  hrank1 : 0 < grid1.rank
  k1_off1_inb : ∀ i : grid1.Coords, ∀ a, (k1_off1 i) a + S4x128.size a ≤ S16x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4x4096x128.size a ≤ S2x16x4096x128.size a
  hwx1_0 : ∀ i : grid1.Coords, EltTy.bits .f32 = 32 ∨ (Rect.block (s := S2x16x4096x128) S1x4x4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x128.size a
  hwx1_1 : ∀ i : grid1.Coords, EltTy.bits .f32 = 32 ∨ (Rect.block (s := S16x128) S16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4x4096x128.size a ≤ S2x16x4096x128.size a
  hwx1_2 : ∀ i : grid1.Coords, EltTy.bits .f32 = 32 ∨ (Rect.block (s := S2x16x4096x128) S1x4x4096x128.size (cc1_transform_2 i) (hinb1_2 i)).WholeWords (EltTy.packing .f32)

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scoped0 : DmaSems sig S_ := SemArray.consecutive 3 S_ hcc0_scoped0

abbrev win1_0 : Pipeline.Window sig grid1 :=
  Pipeline.Window.ofSpec (Memref.whole main_arg0) S1x4x4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S16x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x4x4096x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x16x4096x128 : Shape := ⟨4, ![2, 16, 4096, 128]⟩
abbrev S4096 : Shape := ⟨1, ![4096]⟩
abbrev S2x4096x16x128 : Shape := ⟨4, ![2, 4096, 16, 128]⟩
abbrev S2x4096x2048 : Shape := ⟨3, ![2, 4096, 2048]⟩
abbrev S_ : Shape := ⟨0, ![]⟩
abbrev S4096x1 : Shape := ⟨2, ![4096, 1]⟩
abbrev S2x4096x4096 : Shape := ⟨3, ![2, 4096, 4096]⟩
abbrev S1x1x4096 : Shape := ⟨3, ![1, 1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S2x16x4096x128, .f32⟩
  | .hbm, ⟨1, _⟩ => ⟨S4096, .bf16⟩
  | .hbm, ⟨2, _⟩ => ⟨S4096, .i32⟩
  | .hbm, ⟨3, _⟩ => ⟨S2x4096x16x128, .f32⟩
  | .hbm, ⟨4, _⟩ => ⟨S2x4096x2048, .f32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S2x4096x4096, .f32⟩
  | .hbm, ⟨14, _⟩ => ⟨S4096, .f32⟩
  | .hbm, ⟨15, _⟩ => ⟨S1x1x4096, .f32⟩
  | .hbm, ⟨16, _⟩ => ⟨S2x4096x4096, .f32⟩
  | .hbm, ⟨17, _⟩ => ⟨S2x4096x4096, .f32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096x1, .i32⟩
  | .hbm, ⟨26, _⟩ => ⟨S2x4096x2048, .f32⟩
  | .hbm, ⟨27, _⟩ => ⟨S2x4096x16x128, .f32⟩
  | .hbm, ⟨28, _⟩ => ⟨S2x16x4096x128, .f32⟩
  | _, _ => ⟨S2x16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  transposes_S2x16x4096x128_S2x4096x16x128_0_2_1_3 : S2x16x4096x128.Transposes [0, 2, 1, 3] S2x4096x16x128
  shapeCasts_S2x4096x16x128_S2x4096x2048 : S2x4096x16x128.ShapeCasts S2x4096x2048
  bcast_S_S4096 : S_.BroadcastsInDim S4096 (![] : Fin 0 → Fin S4096.rank)
  bcast_S4096_S4096x1_0 : S4096.BroadcastsInDim S4096x1 (![0] : Fin 1 → Fin S4096x1.rank)
  bitsLt_bf16_f32 : FTy.bits .bf16 < FTy.bits .f32
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  shapeCasts_S2x4096x2048_S2x4096x16x128 : S2x4096x2048.ShapeCasts S2x4096x16x128
  transposes_S2x4096x16x128_S2x16x4096x128_0_2_1_3 : S2x4096x16x128.Transposes [0, 2, 1, 3] S2x16x4096x128
  gather_S2x4096x2048_S4096x1_S2x4096x4096_01_2_n_n_2_1_240961_wf : GatherDims.WF S2x4096x2048 S4096x1 S2x4096x4096 [0, 1] [2] [] [2] [] 1 ![2, 4096, 1]
  scatter_S2x4096x2048_S4096x1_S2x4096x4096_01_2_2_1_wf : ScatterDims.WF S2x4096x2048 S4096x1 S2x4096x4096 [0, 1] [2] [2] 1

variable [Facts₀]

def gather_S2x4096x2048_S4096x1_S2x4096x4096_01_2_n_n_2_1_240961 : GatherDims S2x4096x2048 S4096x1 S2x4096x4096 where
  offsetDims := [0, 1]
  collapsedSliceDims := [2]
  operandBatchingDims := []
  startIndicesBatchingDims := []
  startIndexMap := [2]
  indexVectorDim := 1
  sliceSizes := ![2, 4096, 1]
  wf := gather_S2x4096x2048_S4096x1_S2x4096x4096_01_2_n_n_2_1_240961_wf
def scatter_S2x4096x2048_S4096x1_S2x4096x4096_01_2_2_1 : ScatterDims S2x4096x2048 S4096x1 S2x4096x4096 where
  updateWindowDims := [0, 1]
  insertedWindowDims := [2]
  scatterDimsToOperandDims := [2]
  indexVectorDim := 1
  wf := scatter_S2x4096x2048_S4096x1_S2x4096x4096_01_2_2_1_wf

class Facts : Prop extends Facts₀ where

variable [Facts]
-- ==== Proof.Spec.lean ====
/-
  The function both programs compute, stated without either program.

  Every index of the scatter is 1 (the precondition), so all 4096 values of `smooth` land on slot 1 of a table of
  2048 ones, one after the other in ascending order: the slot ends holding the LAST of them, `smooth[4095]`, and every
  other slot keeps its 1. The table read as 16 heads of 128 lanes scales `x[b, h, s, d]` by its entry `(h, d)`.
-/
import Idealize.ShloMosaic.Lib.ValueIdx

noncomputable section

namespace Cert.Spec

open Idealize.ShloMosaic Idealize.ShloMosaic.ValueIdx

variable {F : FTy → Type} [FloatOps F]

abbrev SX : Shape := ⟨4, ![2, 16, 4096, 128]⟩
abbrev S4k : Shape := ⟨1, ![4096]⟩
abbrev S2k : Shape := ⟨1, ![2048]⟩
abbrev SHD : Shape := ⟨2, ![16, 128]⟩

/-- The last position of the scattered vector. -/
abbrev lastPos : S4k.Idx := ix1 (⟨4095, by decide⟩ : Fin 4096)

/-- The table after the scatter when every index is 1: slot 1 holds the last value scattered, every other slot its
    fill. -/
def table (fill : FVec F S2k .f32) (sm : FVec F S4k .f32) : FVec F S2k .f32 :=
  fun j => if (j 0).val = 1 then sm lastPos else fill j

/-- Slot `128 h + d` of the flat table, for head `h` and lane `d`. -/
abbrev flatPos (h : Fin 16) (d : Fin 128) : S2k.Idx := ix1 (⟨128 * h.val + d.val, by omega⟩ : Fin 2048)

/-- The flat table as 16 heads of 128 lanes (row-major). -/
def heads (t : FVec F S2k .f32) : FVec F SHD .f32 := fun j => t (flatPos (j 0) (j 1))

/-- `x[b, h, s, d]` scaled by entry `(h, d)` of the table. -/
def scaled (x : FVec F SX .f32) (t2 : FVec F SHD .f32) : FVec F SX .f32 :=
  fun i => FloatOps.mulf (x i) (t2 (ix2 (n0 := 16) (n1 := 128) (i 1) (i 3)))

/-- The kernel's result as one function of `x`, the fill and the scattered values. -/
def result (x : FVec F SX .f32) (fill : FVec F S2k .f32) (sm : FVec F S4k .f32) : FVec F SX .f32 :=
  scaled x (heads (table fill sm))

end Cert.Spec

end
-- ==== Proof.KernelCommon.lean ====
/-
  The kernel program as the SparseCore launch theorem sees it, and what the one SparseCore call carries.

  @main fills a table of 2048 ones and widens `smooth` to f32 on the host, hands both with the index array to the
  SparseCores, reshapes the table they leave to 16 heads of 128 lanes, and scales `x` by it in a TensorCore region.
  Of the 32 tiles only tile 0 of SparseCore 0 works: the call hands that one tile the three operands and the result
  array whole, and every other tile and the other SparseCore nothing. The result array comes back holding
  `Spec.table` of the ones and the widened `smooth`.
-/
import proofs.«213798_g80290118632062_cont_sun_m_155_14_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«213798_g80290118632062_cont_sun_m_155_14_alg».proof.Proof.Gen.Kernel
import proofs.«213798_g80290118632062_cont_sun_m_155_14_alg».proof.Proof.Gen.Kernel.Skeleton
import proofs.«213798_g80290118632062_cont_sun_m_155_14_alg».proof.Proof.Gen.Kernel.Launch
import proofs.«213798_g80290118632062_cont_sun_m_155_14_alg».proof.Proof.Gen.Kernel.Points
import proofs.«213798_g80290118632062_cont_sun_m_155_14_alg».proof.Proof.Spec

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore region's staging rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The launch memory, the arrays and their contents at the call -/

variable (m : (ℓ : Loc nD τ sig) → Buf (Elt F) ℓ) (ρ : Dev nD → PrngReg)

abbrev xLoc (d : Dev nD) : Loc nD τ sig := (SparseCore.T d).loc main_arg0
abbrev sbLoc (d : Dev nD) : Loc nD τ sig := (SparseCore.T d).loc main_arg1
abbrev iLoc (d : Dev nD) : Loc nD τ sig := (SparseCore.T d).loc main_arg2
abbrev cLoc (d : Dev nD) : Loc nD τ sig := (SparseCore.T d).loc main_cst
abbrev fillLoc (d : Dev nD) : Loc nD τ sig := (SparseCore.T d).loc main_v0
abbrev smLoc (d : Dev nD) : Loc nD τ sig := (SparseCore.T d).loc main_v1
abbrev tLoc (d : Dev nD) : Loc nD τ sig := (SparseCore.T d).loc main_v2
abbrev hLoc (d : Dev nD) : Loc nD τ sig := (SparseCore.T d).loc main_v3
abbrev oLoc (d : Dev nD) : Loc nD τ sig := (SparseCore.T d).loc main_v4

variable [FloatOps F]

/-- The scalar one the host writes, the table's fill it broadcasts, and `smooth` widened: @main's three host results
    before the call. -/
def oneV : Vec F S_ .f32 := constant S_ .f32 0x3F800000#32
def fillV : Vec F S2048 .f32 := broadcastInDim S2048 ![] bcast_S_S2048 (oneV (F := F))
def smV (d : Dev nD) : Vec F S4096 .f32 := extf .f32 (m (sbLoc d)) bitsLt_bf16_f32
/-- What the SparseCore call leaves in its result array. -/
def tblV (d : Dev nD) : Vec F S2048 .f32 := Cert.Spec.table (fillV (F := F)) (smV m d)

abbrev idxPts (d : Dev nD) : sProp 𝕄 := iLoc d ↦{fullShare} m (iLoc d)
abbrev smPts (d : Dev nD) : sProp 𝕄 := smLoc d ↦{fullShare} smV m d
abbrev fillPts (d : Dev nD) : sProp 𝕄 := fillLoc d ↦{fullShare} (fillV (F := F))
abbrev tPts (d : Dev nD) (f : Buf (Elt F) (tLoc d)) : sProp 𝕄 := tLoc d ↦{fullShare} f

/-- What the proofs ask of the launch memory: every word of the index array is 1 (the precondition says so). -/
def PreOK : Prop := ∀ (d : Dev nD) (j : S4096.Idx), m (iLoc d) j = 1#32

/-- The call's operands and result array, as handed over; -/
def opsIn (d : Dev nD) : sProp 𝕄 := iprop(smPts m d ∗ idxPts m d ∗ fillPts d ∗ ∃ f, tPts d f)
/-- and as they come back: the result array at the table. -/
def opsOut (d : Dev nD) : sProp 𝕄 := iprop(smPts m d ∗ idxPts m d ∗ fillPts d ∗ tPts d (tblV m d))

/-- SparseCore number `c` is handed the operands if it is SparseCore 0, else nothing; -/
def forCore (d : Dev nD) (c : ℕ) : sProp 𝕄 := if c = 0 then opsIn m d else iprop(emp)
def backCore (d : Dev nD) (c : ℕ) : sProp 𝕄 := if c = 0 then opsOut m d else iprop(emp)
/-- and of its tiles, tile 0 alone. -/
def forTile (d : Dev nD) (c i : ℕ) : sProp 𝕄 := if c = 0 ∧ i = 0 then opsIn m d else iprop(emp)
def backTile (d : Dev nD) (c i : ℕ) : sProp 𝕄 := if c = 0 ∧ i = 0 then opsOut m d else iprop(emp)

theorem forTile_zero (d : Dev nD) : forTile m d 0 0 = opsIn m d := if_pos ⟨rfl, rfl⟩
theorem backTile_zero (d : Dev nD) : backTile m d 0 0 = opsOut m d := if_pos ⟨rfl, rfl⟩
theorem forTile_ne (d : Dev nD) {c i : ℕ} (h : ¬(c = 0 ∧ i = 0)) : forTile m d c i = iprop(emp) := if_neg h
theorem backTile_ne (d : Dev nD) {c i : ℕ} (h : ¬(c = 0 ∧ i = 0)) : backTile m d c i = iprop(emp) := if_neg h
theorem forCore_zero (d : Dev nD) : forCore m d 0 = opsIn m d := if_pos rfl
theorem backCore_zero (d : Dev nD) : backCore m d 0 = opsOut m d := if_pos rfl
theorem forCore_one (d : Dev nD) : forCore m d 1 = iprop(emp) := if_neg Nat.one_ne_zero
theorem backCore_one (d : Dev nD) : backCore m d 1 = iprop(emp) := if_neg Nat.one_ne_zero

instance forCore_storable (d : Dev nD) (c : ℕ) : BI.Storable (upEmb : UEmb _ 𝕄) (forCore m d c) := by
  unfold forCore opsIn; split <;> infer_instance
instance backCore_storable (d : Dev nD) (c : ℕ) : BI.Storable (upEmb : UEmb _ 𝕄) (backCore m d c) := by
  unfold backCore opsOut; split <;> infer_instance
instance forTile_storable (d : Dev nD) (c i : ℕ) : BI.Storable (upEmb : UEmb _ 𝕄) (forTile m d c i) := by
  unfold forTile opsIn; split <;> infer_instance
instance backTile_storable (d : Dev nD) (c i : ℕ) : BI.Storable (upEmb : UEmb _ 𝕄) (backTile m d c i) := by
  unfold backTile opsOut; split <;> infer_instance

/-- Call 0's payloads; no kernel's proof consumes anything of the launch's. -/
def P : (K (F := F)).Pay (nD := nD) (Val := Elt F) (Name := ℕ) (U := UU) where
  st := fun _ d c => forCore m d c.val
  dn := fun _ d c => backCore m d c.val
  go := fun _ d c i => forTile m d c.val i.val
  td := fun _ d c i => backTile m d c.val i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.Proof.Kernel

end
-- ==== Proof.ScatterOnes.lean ====
/-
  A scatter whose every index is 1.

  The indexed store of a rank-one vector into a rank-one table takes the lanes in ascending order, each writing its value
  at the slot its index word names. When every index word is 1 (and no lane is masked off, nothing added), every lane
  writes slot 1, the later over the earlier: the table keeps every other slot and slot 1 ends at the LAST lane's value.
-/
import Idealize.ShloMosaic.PureOps.ShapeOps

noncomputable section

namespace Cert.ScatterOnes

open Idealize.ShloMosaic

variable {F : FTy → Type} [FloatOps F] {e : EltTy} {ds d : Fin 1 → Nat}

/-- One lane's write at slot 1: lane `k`'s value there, the table elsewhere. -/
def put (vals : Vec F ⟨1, d⟩ e) (g : Vec F ⟨1, ds⟩ e) (k : Fin (d 0)) : Vec F ⟨1, ds⟩ e :=
  fun j => if (j 0).val = 1 then vals (Shape.ofLane k) else g j

/-- Writes at one slot in turn leave the last one's value. -/
theorem foldl_put (vals : Vec F ⟨1, d⟩ e) :
    ∀ (l : List (Fin (d 0))) (hl : l ≠ []) (g : Vec F ⟨1, ds⟩ e), l.foldl (put vals) g = put vals g (l.getLast hl) := by
  intro l
  induction l with
  | nil => intro hl; exact absurd rfl hl
  | cons k l ih =>
    intro hl g
    rw [List.foldl_cons]
    by_cases h : l = []
    · subst h; rfl
    · rw [ih h, List.getLast_cons h]
      funext j
      unfold put
      split <;> rfl

/-- The indexed store at an index vector of ones, unmasked, not adding: slot 1 at the last lane's value. -/
theorem storeIdx_all_one (f : Vec F ⟨1, ds⟩ e) (v : IVec ⟨1, d⟩ 32) (vals : Vec F ⟨1, d⟩ e)
    (h : ∀ a x, ((![v] : Fin 1 → IVec ⟨1, d⟩ 32) a x).toNat < (⟨1, ds⟩ : Shape).size a)
    (hv : ∀ x, v x = 1#32) (hd : 0 < d 0) :
    storeIdx f ![v] vals (fun _ => 1#1) false h
      = fun j => if (j 0).val = 1 then vals (Shape.ofLane ⟨d 0 - 1, Nat.sub_lt hd Nat.one_pos⟩) else f j := by
  unfold storeIdx
  refine (congrArg (fun s => List.foldl s f (List.finRange (d 0))) (a₂ := put vals)
    (funext fun g => funext fun k => funext fun j => ?_)).trans ?_
  · have hone : ((fun _ => 1#1 : IVec ⟨1, d⟩ 1) (Shape.ofLane k)) = 1 := rfl
    simp only [hone, if_true, Bool.false_eq_true, if_false]
    unfold put
    by_cases hj : (j 0).val = 1
    · rw [if_pos hj, if_pos]
      intro a
      obtain rfl : a = 0 := Subsingleton.elim _ _
      show (j 0).val = (v (Shape.ofLane k)).toNat
      rw [hv, hj]; rfl
    · rw [if_neg hj, if_neg]
      intro hall
      apply hj
      have := hall 0
      rw [this]
      show (v (Shape.ofLane k)).toNat = 1
      rw [hv]; rfl
  · have hne : List.finRange (d 0) ≠ [] := by
      intro h0
      have := congrArg List.length h0
      simp at this
      omega
    show List.foldl (put vals) f (List.finRange (d 0)) = _
    rw [foldl_put vals _ hne]
    unfold put
    have hlast : (List.finRange (d 0)).getLast hne = ⟨d 0 - 1, Nat.sub_lt hd Nat.one_pos⟩ := by
      rw [List.getLast_eq_getElem]
      simp
    rw [hlast]

end Cert.ScatterOnes

end
-- ==== Proof.KernelTile.lean ====
/-
  Call 0's task on a vector subcore (the launch theorem's `TileObl` and `VecSplit'`).

  Of the 32 tiles only tile 0 of SparseCore 0 takes the branch. It copies the index array, the widened `smooth` and the
  fill into its three scratches (three transfers, each on its own semaphore, all waited before any read), then runs 32
  trips of eight indexed stores of sixteen lanes into the table scratch, and copies that scratch out to the result
  array. Every index word is 1, so each store rewrites slot 1 alone, to its last lane's value: after trip `t` slot 1
  holds `smooth[128 t + 127]`, after the last `smooth[4095]`; every other slot keeps the fill.
-/
import proofs.«213798_g80290118632062_cont_sun_m_155_14_alg».proof.Proof.KernelCommon
import proofs.«213798_g80290118632062_cont_sun_m_155_14_alg».proof.Proof.ScatterOnes

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

-- the kernel's memrefs, spelt as the body table passes them
local notation "smW" => (Memref.whole Cert.Kernel.main_v1_scv : Memref Cert.Kernel.sig Kind.scVector Space.hbm Cert.Kernel.S4096 EltTy.f32)
local notation "ixW" => (Memref.whole Cert.Kernel.main_arg2_scv : Memref Cert.Kernel.sig Kind.scVector Space.hbm Cert.Kernel.S4096 EltTy.i32)
local notation "flW" => (Memref.whole Cert.Kernel.main_v0_scv : Memref Cert.Kernel.sig Kind.scVector Space.hbm Cert.Kernel.S2048 EltTy.f32)
local notation "tbW" => (Memref.whole Cert.Kernel.main_v2_scv : Memref Cert.Kernel.sig Kind.scVector Space.hbm Cert.Kernel.S2048 EltTy.f32)
local notation "sI" => (Memref.whole Cert.Kernel.cc0_scratch0 : Memref Cert.Kernel.sig Kind.scVector Space.vmem Cert.Kernel.S4096 EltTy.i32)
local notation "sS" => (Memref.whole Cert.Kernel.cc0_scratch1 : Memref Cert.Kernel.sig Kind.scVector Space.vmem Cert.Kernel.S4096 EltTy.f32)
local notation "sT" => (Memref.whole Cert.Kernel.cc0_scratch2 : Memref Cert.Kernel.sig Kind.scVector Space.vmem Cert.Kernel.S2048 EltTy.f32)

variable [FloatOps F]

namespace Tile

section Body

variable (d : Dev nD) (L : grid0.Coords)

abbrev cV (L : grid0.Coords) : Fin τ.nSC := (L 0).castLE hcore0
abbrev jV (L : grid0.Coords) : Fin τ.nSub := (L 1).castLE hsub0

abbrev cellA : GSem nD τ sig := (V d (cV L) (jV L), .dma cc0_scratch3.sem)
abbrev cellB : GSem nD τ sig := (V d (cV L) (jV L), .dma cc0_scratch4.sem)
abbrev cellC : GSem nD τ sig := (V d (cV L) (jV L), .dma cc0_scratch5.sem)
abbrev cellD : GSem nD τ sig := (V d (cV L) (jV L), .dma cc0_scoped0.sem)

omit [FloatOps F] in
theorem ownSems0_V :
    (ownSems0 (V d (cV L) (jV L)) : sProp 𝕄)
      = iprop(semVal (cellA d L) 0 ∗ semVal (cellB d L) 0 ∗ semVal (cellC d L) 0 ∗ semVal (cellD d L) 0
          ∗ bigSep (((((ownCells (V d (cV L) (jV L))).erase (cellA d L)).erase (cellB d L)).erase (cellC d L)).erase (cellD d L))
              fun g => semVal g 0) := by
  unfold SparseCore.Cfg.ownSems0
  rw [SparseCore.bigSep_erase' ((mem_ownCells (g := cellA d L)).mpr ⟨rfl, by
      show (SemLoc.dma cc0_scratch3.sem : SemLoc sig).isScoped .scVector = true; decide⟩),
    SparseCore.bigSep_erase' (Finset.mem_erase.mpr ⟨by simp [cellA, cellB]; decide, (mem_ownCells (g := cellB d L)).mpr ⟨rfl, by
      show (SemLoc.dma cc0_scratch4.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d L)).mpr ⟨rfl, by show (SemLoc.dma cc0_scratch5.sem : SemLoc sig).isScoped .scVector = true; decide⟩⟩⟩),
    SparseCore.bigSep_erase' (Finset.mem_erase.mpr ⟨by simp [cellC, cellD]; decide, Finset.mem_erase.mpr ⟨by simp [cellB, cellD]; decide,
      Finset.mem_erase.mpr ⟨by simp [cellA, cellD]; decide,
      (mem_ownCells (g := cellD d L)).mpr ⟨rfl, by show (SemLoc.dma cc0_scoped0.sem : SemLoc sig).isScoped .scVector = true; decide⟩⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
/-- The arrays as the tile's memrefs address them are the TensorCore's arrays. -/
theorem pts_sm (f : Buf (Elt F) (smLoc d)) :
    ((smW).view.loc (V d (cV L) (jV L)) ↦{fullShare} f : sProp 𝕄) = smLoc d ↦{fullShare} f := by
  simp only [Memref.view_whole, View.set_whole]
omit [FloatOps F] in
theorem pts_ix (f : Buf (Elt F) (iLoc d)) :
    ((ixW).view.loc (V d (cV L) (jV L)) ↦{fullShare} f : sProp 𝕄) = iLoc d ↦{fullShare} f := by
  simp only [Memref.view_whole, View.set_whole]
omit [FloatOps F] in
theorem pts_fl (f : Buf (Elt F) (fillLoc d)) :
    ((flW).view.loc (V d (cV L) (jV L)) ↦{fullShare} f : sProp 𝕄) = fillLoc d ↦{fullShare} f := by
  simp only [Memref.view_whole, View.set_whole]
omit [FloatOps F] in
theorem pts_tb (f : Buf (Elt F) (tLoc d)) :
    ((tbW).view.loc (V d (cV L) (jV L)) ↦{fullShare} f : sProp 𝕄) = tLoc d ↦{fullShare} f := by
  simp only [Memref.view_whole, View.set_whole]
omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sS (f : Buf (Elt F) ((V d (cV L) (jV L)).loc cc0_scratch1)) :
    ((sS).view.loc (V d (cV L) (jV L)) ↦{fullShare} f : sProp 𝕄) = (V d (cV L) (jV L)).loc cc0_scratch1 ↦{fullShare} f := rfl
omit [FloatOps F] in
theorem pts_sT (f : Buf (Elt F) ((V d (cV L) (jV L)).loc cc0_scratch2)) :
    ((sT).view.loc (V d (cV L) (jV L)) ↦{fullShare} f : sProp 𝕄) = (V d (cV L) (jV L)).loc cc0_scratch2 ↦{fullShare} f := rfl

/-! ## The table's contents through the loop -/

/-- Position `128 t - 1` of the scattered vector, the last one the first `t` trips store (wrapped into range). -/
def posAt (t : Nat) : Fin 4096 := ⟨(128 * t - 1) % 4096, Nat.mod_lt _ (by decide)⟩

/-- The table with slot 1 rewritten to position `p` of the scattered vector. -/
def upd (fs : Vec F S4096 .f32) (ft : Vec F S2048 .f32) (p : Fin 4096) : Vec F S2048 .f32 :=
  fun j => if (j 0).val = 1 then fs (ix1 p) else ft j

/-- The table after `t` trips: slot 1 at the last value stored so far (once a trip has run), the fill elsewhere. -/
def tblAt (fs : Vec F S4096 .f32) (fl : Vec F S2048 .f32) (t : Nat) : Vec F S2048 .f32 :=
  fun j => if (j 0).val = 1 ∧ 0 < t then fs (ix1 (posAt t)) else fl j

omit [FloatOps F] in
theorem tblAt_zero (fs : Vec F S4096 .f32) (fl : Vec F S2048 .f32) : tblAt fs fl 0 = fl := by
  funext j; unfold tblAt; rw [if_neg (fun h => Nat.lt_irrefl 0 h.2)]

omit [FloatOps F] in
theorem upd_upd (fs : Vec F S4096 .f32) (ft : Vec F S2048 .f32) (p q : Fin 4096) : upd fs (upd fs ft p) q = upd fs ft q := by
  funext j; unfold upd; split <;> rfl

omit [FloatOps F] in
/-- A trip's last store puts position `128 t + 127` in slot 1: the table after `t + 1` trips. -/
theorem upd_tblAt (fs : Vec F S4096 .f32) (fl : Vec F S2048 .f32) (t : Nat) (h : 128 * t + 127 < 4096) :
    upd fs (tblAt fs fl t) ⟨128 * t + 127, h⟩ = tblAt fs fl (t + 1) := by
  funext j; unfold upd tblAt
  by_cases hj : (j 0).val = 1
  · rw [if_pos hj, if_pos ⟨hj, Nat.succ_pos t⟩]
    congr 2; apply Fin.ext
    show 128 * t + 127 = (128 * (t + 1) - 1) % 4096
    omega
  · rw [if_neg hj, if_neg (fun h => hj h.1), if_neg (fun h => hj h.1)]

omit [FloatOps F] in
/-- After the 32 trips slot 1 holds the last value of the scattered vector: the table both programs mean. -/
theorem tblAt_last (fs : Vec F S4096 .f32) (fl : Vec F S2048 .f32) : tblAt fs fl 32 = Cert.Spec.table fl fs := by
  funext j; unfold tblAt Cert.Spec.table
  by_cases hj : (j 0).val = 1
  · rw [if_pos ⟨hj, by decide⟩, if_pos hj]; rfl
  · rw [if_neg (fun h => hj h.1), if_neg hj]

omit [FloatOps F] in
/-- An index vector of ones names slots of the table. -/
theorem ones_inb (v : IVec S16 32) (hv : ∀ x, v x = 1#32) : ∀ a x, ((![v] : Fin 1 → IVec S16 32) a x).toNat < S2048.size a := by
  intro a x
  obtain rfl : a = 0 := Subsingleton.elim _ _
  show (v x).toNat < 2048
  rw [hv]; decide

/-! ## One indexed store of sixteen lanes -/

-- the table scratch's whole rectangle, spelt over the buffer's own shape as the indexed store's rule spells it
abbrev wT : Rect (cc0_scratch2 : Ref sig .scVector).ty.shape := Rect.whole _

omit [FloatOps F] in
theorem pts_sT_whole (f : Buf (Elt F) ((V d (cV L) (jV L)).loc cc0_scratch2)) :
    (((sT).access wT).loc (V d (cV L) (jV L)) ↦[((sT).access wT).set]{fullShare} f : sProp 𝕄)
      = (sT).view.loc (V d (cV L) (jV L)) ↦{fullShare} f := by
  rw [show ((sT).access wT).set = Finset.univ from Memref.set_access_whole (cc0_scratch2 : Ref sig .scVector)]

omit [FloatOps F] in
/-- Sixteen words read at an offset of the index scratch are ones when all its words are. -/
theorem readAt_sI (off : Fin 1 → Nat) (hoff : ∀ a, off a + S16.size a ≤ S4096.size a)
    (fi : Buf (Elt F) ((V d (cV L) (jV L)).loc cc0_scratch0)) (hfi : ∀ j, fi j = 1#32) (x : S16.Idx) :
    (sI).view.readAt (Elt F) (Rect.unit (s := S4096) off S16.size hoff).toLoadRect fi x = 1#32 := by
  simp only [View.readAt_apply, Memref.view_whole, View.read_whole]
  exact hfi _

omit [FloatOps F] in
/-- Where lane `x` of a sixteen-lane read at an offset falls. -/
theorem unit_idx (off : Fin 1 → Nat) (hoff : ∀ a, off a + S16.size a ≤ S4096.size a) (x : S16.Idx) (hx : off 0 + (x 0).val < 4096) :
    (Rect.unit (s := S4096) off S16.size hoff).toLoadRect.idx x = ix1 ⟨off 0 + (x 0).val, hx⟩ := by
  funext a; apply Fin.ext
  rw [LoadRect.idx_apply, Subsingleton.elim a 0]
  show off 0 + 1 * (x 0).val = off 0 + (x 0).val
  rw [Nat.one_mul]

omit [FloatOps F] in
/-- Lane `x` of sixteen values read at an offset of the value scratch is the value at the offset plus `x`. -/
theorem readAt_sS (off : Fin 1 → Nat) (hoff : ∀ a, off a + S16.size a ≤ S4096.size a)
    (fs : Buf (Elt F) ((V d (cV L) (jV L)).loc cc0_scratch1)) (x : S16.Idx) (hx : off 0 + (x 0).val < 4096) :
    (sS).view.readAt (Elt F) (Rect.unit (s := S4096) off S16.size hoff).toLoadRect fs x = fs (ix1 ⟨off 0 + (x 0).val, hx⟩) := by
  simp only [View.readAt_apply, Memref.view_whole, View.read_whole]
  rw [unit_idx off hoff x hx]

theorem off_lt {off : Fin 1 → Nat} (hoff : ∀ a, off a + S16.size a ≤ S4096.size a) : off 0 + 15 < 4096 := by
  have h : off 0 + 16 ≤ 4096 := hoff 0
  omega

/-- What one indexed store leaves in the table scratch: slot 1 at the last of the sixteen values read. -/
theorem store_eq (off : Fin 1 → Nat) (hoff : ∀ a, off a + S16.size a ≤ S4096.size a)
    (fi : Buf (Elt F) ((V d (cV L) (jV L)).loc cc0_scratch0)) (hfi : ∀ j, fi j = 1#32)
    (fs : Buf (Elt F) ((V d (cV L) (jV L)).loc cc0_scratch1)) (ft : Buf (Elt F) ((V d (cV L) (jV L)).loc cc0_scratch2))
    (h : ∀ a x, ((![(sI).view.readAt (Elt F) (Rect.unit (s := S4096) off S16.size hoff).toLoadRect fi] : Fin 1 → IVec S16 32) a x).toNat < S2048.size a) :
    ((sT).access wT).write (Elt F) ft
        (storeIdx (((sT).access wT).read (Elt F) ft) ![(sI).view.readAt (Elt F) (Rect.unit (s := S4096) off S16.size hoff).toLoadRect fi]
          ((sS).view.readAt (Elt F) (Rect.unit (s := S4096) off S16.size hoff).toLoadRect fs) (fun _ => 1#1) false h) Finset.univ
      = upd fs ft ⟨off 0 + 15, off_lt hoff⟩ := by
  refine (Memref.write_access_whole_univ (Elt F) (cc0_scratch2 : Ref sig .scVector) _ _).trans ?_
  refine (Cert.ScatterOnes.storeIdx_all_one _ _ _ h (readAt_sI d L off hoff fi hfi) (by decide)).trans ?_
  funext j
  unfold upd
  by_cases hj : (j 0).val = 1
  · rw [if_pos hj, if_pos hj]
    exact readAt_sS d L off hoff fs _ _
  · rw [if_neg hj, if_neg hj]
    exact congrFun (Memref.read_access_whole (Elt F) (cc0_scratch2 : Ref sig .scVector) ft) j

/-- The table scratch as one indexed store leaves it, held as the store's rule states it. -/
theorem pts_store (off : Fin 1 → Nat) (hoff : ∀ a, off a + S16.size a ≤ S4096.size a)
    (fi : Buf (Elt F) ((V d (cV L) (jV L)).loc cc0_scratch0)) (hfi : ∀ j, fi j = 1#32)
    (fs : Buf (Elt F) ((V d (cV L) (jV L)).loc cc0_scratch1)) (ft : Buf (Elt F) ((V d (cV L) (jV L)).loc cc0_scratch2))
    (h : ∀ a x, ((![(sI).view.readAt (Elt F) (Rect.unit (s := S4096) off S16.size hoff).toLoadRect fi] : Fin 1 → IVec S16 32) a x).toNat < S2048.size a) :
    (((sT).access wT).loc (V d (cV L) (jV L)) ↦[((sT).access wT).set]{fullShare}
        (((sT).access wT).write (Elt F) ft
          (storeIdx (((sT).access wT).read (Elt F) ft) ![(sI).view.readAt (Elt F) (Rect.unit (s := S4096) off S16.size hoff).toLoadRect fi]
            ((sS).view.readAt (Elt F) (Rect.unit (s := S4096) off S16.size hoff).toLoadRect fs) (fun _ => 1#1) false h) Finset.univ) : sProp 𝕄)
      = (sT).view.loc (V d (cV L) (jV L)) ↦{fullShare} upd fs ft ⟨off 0 + 15, off_lt hoff⟩ := by
  rw [store_eq d L off hoff fi hfi fs ft h]
  exact pts_sT_whole d L _

/-- Sixteen index words read, their check, sixteen values read at the same offset, the indexed store: with the index
    scratch all ones the table scratch comes back with slot 1 at the value at the offset plus 15. -/
theorem group_rule {α : Type} (off : Fin 1 → Nat) (hoff : ∀ a, off a + S16.size a ≤ S4096.size a)
    (chk : IVec S16 32 → Prop) (dec : ∀ v, Decidable (chk v))
    (hidx : ∀ v, chk v → ∀ a x, ((![v] : Fin 1 → IVec S16 32) a x).toNat < S2048.size a)
    (hchk : ∀ v : IVec S16 32, (∀ x, v x = 1#32) → chk v)
    (kk : PUnit.{1} → Prog (TpuEff nD τ sig (Elt F) Λ₀ (.scVector (cV L) (jV L))) α) (Q : α → sProp 𝕄)
    (fi : Buf (Elt F) ((V d (cV L) (jV L)).loc cc0_scratch0)) (hfi : ∀ j, fi j = 1#32)
    (fs : Buf (Elt F) ((V d (cV L) (jV L)).loc cc0_scratch1)) (ft : Buf (Elt F) ((V d (cV L) (jV L)).loc cc0_scratch2))
    (hk : iprop(((sI).view.loc (V d (cV L) (jV L)) ↦{fullShare} fi) ∗ ((sS).view.loc (V d (cV L) (jV L)) ↦{fullShare} fs)
        ∗ ((sT).view.loc (V d (cV L) (jV L)) ↦{fullShare} upd fs ft ⟨off 0 + 15, off_lt hoff⟩))
      ⊢ wp frame (wpE (defs₀ (F := F)) 𝒱₀ (V d (cV L) (jV L)) none) Set.univ (kk ⟨⟩) Q) :
    iprop(((sI).view.loc (V d (cV L) (jV L)) ↦{fullShare} fi) ∗ ((sS).view.loc (V d (cV L) (jV L)) ↦{fullShare} fs)
        ∗ ((sT).view.loc (V d (cV L) (jV L)) ↦{fullShare} ft))
      ⊢ wp frame (wpE (defs₀ (F := F)) 𝒱₀ (V d (cV L) (jV L)) none) Set.univ
          (.op (.load sI (Rect.unit (s := S4096) off S16.size hoff).toLoadRect (View.loadsAt_vmem h_S16)) fun (v : Vec F S16 .i32) =>
            .op (.assume (chk v) (dec v)) fun hw =>
            .op (.load sS (Rect.unit (s := S4096) off S16.size hoff).toLoadRect (View.loadsAt_vmem h_S16)) fun (w : Vec F S16 .f32) =>
            SparseCore.vectorStoreIdx sT ![v] w (fun _ => 1#1) false (hidx v hw.down) (View.stores_vmem_bits_univ h_S2048 rfl) >>= kk) Q := by
  iintro ⟨Hi, Hs, Ht⟩
  iapply (wp_load 𝒱₀ (V d (cV L) (jV L)) none Set.univ (m := sI) (S := Finset.univ) (Finset.subset_univ _)) $$ Hi; iintro Hi
  rw [wp_assume_of _ _ _ _ (hchk _ (readAt_sI d L off hoff fi hfi))]
  iapply (wp_load 𝒱₀ (V d (cV L) (jV L)) none Set.univ (m := sS) (S := Finset.univ) (Finset.subset_univ _)) $$ Hs; iintro Hs
  ihave Ht' := (Entails.of_eq (pts_sT_whole (F := F) d L _).symm) $$ Ht
  iapply (SparseCore.wp_vectorStoreIdx 𝒱₀ (V d (cV L) (jV L)) none Set.univ (base := sT)) $$ Ht'; iintro Ht
  iapply hk
  isplitl [Hi]; · iexact Hi
  isplitl [Hs]; · iexact Hs
  istop
  exact Entails.of_eq (pts_store (F := F) d L off hoff fi hfi fs ft _)

/-! ## One trip of the loop -/

/-- A trip's eight stores: the table scratch goes from its state after `t` trips to its state after `t + 1`. -/
theorem trip (hL : k0_cond1 L = 1#1)
    (fi : Buf (Elt F) ((V d (cV L) (jV L)).loc cc0_scratch0)) (hfi : ∀ j, fi j = 1#32)
    (fs : Buf (Elt F) ((V d (cV L) (jV L)).loc cc0_scratch1)) (t : Fin k0_t1_loop.trips) :
    iprop(((sI).view.loc (V d (cV L) (jV L)) ↦{fullShare} fi) ∗ ((sS).view.loc (V d (cV L) (jV L)) ↦{fullShare} fs)
        ∗ ((sT).view.loc (V d (cV L) (jV L)) ↦{fullShare} tblAt fs (fillV (F := F)) t.val))
      ⊢ wp frame (wpE (defs₀ (F := F)) 𝒱₀ (V d (cV L) (jV L)) none) Set.univ
          (k0_t1_body L smW (Memref.isWhole_whole _) ixW (Memref.isWhole_whole _) flW (Memref.isWhole_whole _) tbW (Memref.isWhole_whole _)
            sI (Memref.isWhole_whole _) sS (Memref.isWhole_whole _) sT (Memref.isWhole_whole _) cc0_scratch3 cc0_scratch4 cc0_scratch5 cc0_scoped0 hL t ⟨⟩)
          fun _ => (iprop(((sI).view.loc (V d (cV L) (jV L)) ↦{fullShare} fi) ∗ ((sS).view.loc (V d (cV L) (jV L)) ↦{fullShare} fs)
            ∗ ((sT).view.loc (V d (cV L) (jV L)) ↦{fullShare} tblAt fs (fillV (F := F)) (t.val + 1))) : sProp 𝕄) := by
  have ht : t.val < 32 := Nat.lt_of_lt_of_le t.isLt k0_t1_abs.2.1
  have h8 : 128 * t.val + 127 < 4096 := by omega
  have e8 : (⟨k0_off8 t 0 + 15, off_lt (k0_off8_inb L t hL)⟩ : Fin 4096) = ⟨128 * t.val + 127, h8⟩ := by
    apply Fin.ext; show k0_off8 t 0 + 15 = 128 * t.val + 127; rw [k0_off8_eq]; rfl
  unfold k0_t1_body
  rw [k0_part1_eq_skeleton]; unfold k0_part1_skel
  simp only [Prog.lift, Prog.bind_op, Prog.bind_ret, Prog.pure_eq_ret, bind_assoc]
  refine group_rule d L (k0_off1 t) (k0_off1_inb L t hL) (k0_chk1 L) (k0_chk1.dec L) (fun v hw => k0_idx1_inb L v hw hL)
    (fun v hv _ => ones_inb v hv) _ _ fi hfi fs _ ?_
  refine group_rule d L (k0_off2 t) (k0_off2_inb L t hL) (k0_chk2 L) (k0_chk2.dec L) (fun v hw => k0_idx2_inb L v hw hL)
    (fun v hv _ => ones_inb v hv) _ _ fi hfi fs _ ?_
  refine group_rule d L (k0_off3 t) (k0_off3_inb L t hL) (k0_chk3 L) (k0_chk3.dec L) (fun v hw => k0_idx3_inb L v hw hL)
    (fun v hv _ => ones_inb v hv) _ _ fi hfi fs _ ?_
  refine group_rule d L (k0_off4 t) (k0_off4_inb L t hL) (k0_chk4 L) (k0_chk4.dec L) (fun v hw => k0_idx4_inb L v hw hL)
    (fun v hv _ => ones_inb v hv) _ _ fi hfi fs _ ?_
  refine group_rule d L (k0_off5 t) (k0_off5_inb L t hL) (k0_chk5 L) (k0_chk5.dec L) (fun v hw => k0_idx5_inb L v hw hL)
    (fun v hv _ => ones_inb v hv) _ _ fi hfi fs _ ?_
  refine group_rule d L (k0_off6 t) (k0_off6_inb L t hL) (k0_chk6 L) (k0_chk6.dec L) (fun v hw => k0_idx6_inb L v hw hL)
    (fun v hv _ => ones_inb v hv) _ _ fi hfi fs _ ?_
  refine group_rule d L (k0_off7 t) (k0_off7_inb L t hL) (k0_chk7 L) (k0_chk7.dec L) (fun v hw => k0_idx7_inb L v hw hL)
    (fun v hv _ => ones_inb v hv) _ _ fi hfi fs _ ?_
  refine group_rule d L (k0_off8 t) (k0_off8_inb L t hL) (k0_chk8 L) (k0_chk8.dec L) (fun v hw => k0_idx8_inb L v hw hL)
    (fun v hv _ => ones_inb v hv) _ _ fi hfi fs _ ?_
  rw [upd_upd, upd_upd, upd_upd, upd_upd, upd_upd, upd_upd, upd_upd, e8, upd_tblAt]
  iintro ⟨Hi, Hs, Ht⟩
  rw [wp_ret]; imodintro
  isplitl [Hi]; · iexact Hi
  isplitl [Hs]; · iexact Hs
  iexact Ht

/-! ## The task of the tile that takes the branch -/

omit [FloatOps F] in
theorem pts_eq {ℓ : Loc nD τ sig} {f g : Buf (Elt F) ℓ} (h : f = g) : (ℓ ↦{fullShare} f : sProp 𝕄) = ℓ ↦{fullShare} g := by rw [h]

theorem trips_eq : k0_t1_loop.trips = 32 := by decide

/-- The loop's invariant: the index scratch and the value scratch as their transfers left them, the table scratch at its
    state after `t` trips. -/
def inv (fi : Buf (Elt F) ((V d (cV L) (jV L)).loc cc0_scratch0)) (fs : Buf (Elt F) ((V d (cV L) (jV L)).loc cc0_scratch1))
    (t : Nat) (_ : PUnit) : sProp 𝕄 :=
  iprop(((sI).view.loc (V d (cV L) (jV L)) ↦{fullShare} fi) ∗ ((sS).view.loc (V d (cV L) (jV L)) ↦{fullShare} fs)
    ∗ ((sT).view.loc (V d (cV L) (jV L)) ↦{fullShare} tblAt fs (fillV (F := F)) t))

/-- The kernel on the tile whose coordinates take the branch: three transfers in and their waits, the 32 trips by the
    invariant, the transfer out and its wait; the result array comes back at the table. -/
theorem body₀ (hpre : PreOK m) (hL : k0_cond1 L = 1#1) (O : CellTallies nD τ sig (HIx 1)) (W : Waits sig (HIx 1)) (hO : ∀ g, O g none = 0) :
    iprop(levAts (K (F := F)).L (K (F := F)).lev ∗ emp ∗ opsIn m d
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_build L smW (Memref.isWhole_whole _) ixW (Memref.isWhole_whole _) flW (Memref.isWhole_whole _) tbW (Memref.isWhole_whole _)
            sI (Memref.isWhole_whole _) sS (Memref.isWhole_whole _) sT (Memref.isWhole_whole _) cc0_scratch3 cc0_scratch4 cc0_scratch5 cc0_scoped0)
          fun _ => iprop(opsOut m d ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_build_eq_skeleton]; unfold cc0_build_skel
  rw [(K (F := F)).scopedBufs_V facts d (cV L) (jV L), SparseCore.Cfg.scopedSems0_V (Val := Elt F) d (cV L) (jV L), ownSems0_V, ownBufs_V]
  unfold opsIn opsOut
  iintro ⟨#Hlv, -, ⟨Hsm, Hix, Hfl, %ft, Htb⟩, ⟨⟨%f0, Hs0⟩, ⟨%f1, Hs1⟩, ⟨%f2, Hs2⟩, Hbufs⟩, ⟨HsemA, HsemB, HsemC, HsemD, Hsems⟩, HO⟩
  ihave Hmw := ((K (F := F)).mayWaits_none (thr := V d (cV L) (jV L)) hO) $$ Hlv
  ihave Hsm' := (Entails.of_eq (pts_sm (F := F) d L _).symm) $$ Hsm
  ihave Hix' := (Entails.of_eq (pts_ix (F := F) d L _).symm) $$ Hix
  ihave Hfl' := (Entails.of_eq (pts_fl (F := F) d L _).symm) $$ Hfl
  ihave Htb' := (Entails.of_eq (pts_tb (F := F) d L _).symm) $$ Htb
  ihave Hs0' := (Entails.of_eq (pts_sI (F := F) d L _).symm) $$ Hs0
  ihave Hs1' := (Entails.of_eq (pts_sS (F := F) d L _).symm) $$ Hs1
  ihave Hs2' := (Entails.of_eq (pts_sT (F := F) d L _).symm) $$ Hs2
  -- the three transfers in, each waited for
  sl_exec
  -- what they left: the index array, the widened values, the fill
  ihave Hi := (Entails.of_eq (pts_eq (ℓ := (sI).view.loc (V d (cV L) (jV L)))
    (f := View.write (Elt F) (sI).view f0 (body₀.sl.dma0 m d) Finset.univ) (g := m (iLoc d))
    (View.write_whole_univ (Val := Elt F) (cc0_scratch0 : Ref sig .scVector) f0 (m (iLoc d))))) $$ Hs0'
  ihave Hs := (Entails.of_eq (pts_eq (ℓ := (sS).view.loc (V d (cV L) (jV L)))
    (f := View.write (Elt F) (sS).view f1 (body₀.sl.dma0_1 m d) Finset.univ) (g := smV m d)
    (View.write_whole_univ (Val := Elt F) (cc0_scratch1 : Ref sig .scVector) f1 (smV m d)))) $$ Hs1'
  ihave Ht := (Entails.of_eq (pts_eq (ℓ := (sT).view.loc (V d (cV L) (jV L)))
    (f := View.write (Elt F) (sT).view f2 (body₀.sl.dma0_2 (F := F)) Finset.univ) (g := tblAt (smV m d) (fillV (F := F)) 0)
    ((View.write_whole_univ (Val := Elt F) (cc0_scratch2 : Ref sig .scVector) f2 (fillV (F := F))).trans (tblAt_zero (smV m d) _).symm))) $$ Hs2'
  sl_for (inv d L (m (iLoc d)) (smV m d)) $$ [Hi Hs Ht]
  case region =>
    intro k _
    exact trip d L hL (m (iLoc d)) (hpre d) (smV m d) k
  · unfold inv
    isplitl [Hi]; · iexact Hi
    isplitl [Hs]; · iexact Hs
    iexact Ht
  iintro %_ HI
  unfold inv
  icases HI with ⟨Hi, Hs, Ht⟩
  -- the transfer out and its wait
  sl_exec
  -- the result array holds what the table scratch held: the table after all 32 trips
  have e3 : tblAt (smV m d) (fillV (F := F)) (Scf.trips k0_t1_loop.lb k0_t1_loop.ub k0_t1_loop.st) = tblV m d :=
    (congrArg (tblAt (smV m d) (fillV (F := F))) trips_eq).trans (tblAt_last _ _)
  ihave Htb := (Entails.of_eq (pts_eq (ℓ := (tbW).view.loc (V d (cV L) (jV L)))
    (f := View.write (Elt F) (tbW).view ft (body₀.sl.dma0_3 m d) Finset.univ) (g := tblV m d)
    ((View.write_whole_univ (Val := Elt F) (main_v2_scv : Ref sig .scVector) ft _).trans e3))) $$ Htb'
  sl_step
  isplitl [Hsm' Hix' Hfl' Htb]
  · isplitl [Hsm']; · iapply (Entails.of_eq (pts_sm (F := F) d L _)); iexact Hsm'
    isplitl [Hix']; · iapply (Entails.of_eq (pts_ix (F := F) d L _)); iexact Hix'
    isplitl [Hfl']; · iapply (Entails.of_eq (pts_fl (F := F) d L _)); iexact Hfl'
    iapply (Entails.of_eq (pts_tb (F := F) d L _)); iexact Htb
  isplitl [Hi Hs Ht Hbufs]
  · isplitl [Hi]; · iexists _; iapply (Entails.of_eq (pts_sI (F := F) d L _)); iexact Hi
    isplitl [Hs]; · iexists _; iapply (Entails.of_eq (pts_sS (F := F) d L _)); iexact Hs
    isplitl [Ht]; · iexists _; iapply (Entails.of_eq (pts_sT (F := F) d L _)); iexact Ht
    iexact Hbufs
  isplitl [HsemA HsemB HsemC HsemD Hsems]
  · isplitl [HsemA]; · iexact HsemA
    isplitl [HsemB]; · iexact HsemB
    isplitl [HsemC]; · iexact HsemC
    isplitl [HsemD]; · iexact HsemD
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

/-- Every other tile: the branch not taken, nothing touched. -/
theorem body₁ (hL : ¬ k0_cond1 L = 1#1) (O : CellTallies nD τ sig (HIx 1)) (W : Waits sig (HIx 1)) :
    (iprop(levAts (K (F := F)).L (K (F := F)).lev ∗ emp ∗ emp
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_build L smW (Memref.isWhole_whole _) ixW (Memref.isWhole_whole _) flW (Memref.isWhole_whole _) tbW (Memref.isWhole_whole _)
            sI (Memref.isWhole_whole _) sS (Memref.isWhole_whole _) sT (Memref.isWhole_whole _) cc0_scratch3 cc0_scratch4 cc0_scratch5 cc0_scoped0)
          fun _ => (iprop(emp ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc0_build_eq_skeleton]; unfold cc0_build_skel
  iintro ⟨-, -, Hst, Hsb, Hss, HO⟩
  sl_exec
  sl_step
  isplitl [Hst]; · iexact Hst
  isplitl [Hsb]; · iexact Hsb
  isplitl [Hss]; · iexact Hss
  iexists W; isplitr
  · ipureintro; exact fun p hp => .inl hp
  · iexact HO

end Body

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_build (coordsV c s)
          smW (Memref.isWhole_whole _) ixW (Memref.isWhole_whole _) flW (Memref.isWhole_whole _) tbW (Memref.isWhole_whole _)
          sI (Memref.isWhole_whole _) sS (Memref.isWhole_whole _) sT (Memref.isWhole_whole _) cc0_scratch3 cc0_scratch4 cc0_scratch5 cc0_scoped0) ⟨⟩ c s := rfl

/-- The branch is taken on tile 0 of SparseCore 0 alone. -/
theorem cond_iff : ∀ (c : Fin (grid0.bound 0)) (s : Fin (grid0.bound 1)), k0_cond1 (coordsV c s) = 1#1 ↔ (c.val = 0 ∧ s.val = 0) := by decide

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

open Tile in
/-- `TileObl` at call 0: tile 0 of SparseCore 0 builds the table, every other tile returns at once. -/
theorem tileObl (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  show iprop(_ ∗ _ ∗ forTile m d c.val i.val ∗ _) ⊢ wp _ _ _ _ (fun _ => iprop(backTile m d c.val i.val ∗ _))
  by_cases h : c.val = 0 ∧ i.val = 0
  · rw [show forTile m d c.val i.val = opsIn m d from if_pos h, show backTile m d c.val i.val = opsOut m d from if_pos h]
    exact (body₀ m d (coordsV ⟨_, hc.1⟩ ⟨_, hc.2⟩) hpre ((cond_iff _ _).mpr h) O W hO).trans (wp_mono frame _ _ fun _ => obl_post)
  · rw [show forTile m d c.val i.val = iprop(emp) from if_neg h, show backTile m d c.val i.val = iprop(emp) from if_neg h]
    exact (body₁ d (coordsV ⟨_, hc.1⟩ ⟨_, hc.2⟩) (fun e => h ((cond_iff _ _).mp e)) O W).trans (wp_mono frame _ _ fun _ => obl_post)

end Cert.Proof.Kernel

end
-- ==== Proof.KernelRegion.lean ====
/-
  The TensorCore region of the kernel program: the pipeline's proof data, the body's triple and obligation,
  what the result array holds after the run, and the region as a segment of @main.

  The region scales the array `x` by the 16 x 128 table: at grid point (b, hb) it stages the block of `x` at batch b,
  heads 4 hb .. 4 hb + 3, reads rows 4 hb .. 4 hb + 3 of the table (staged whole, once), multiplies the block
  lane by lane by the rows broadcast along the sequence axis, and writes the product back as the same block of
  the result.
-/
import proofs.«213798_g80290118632062_cont_sun_m_155_14_alg».proof.Proof.KernelCommon
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.Proof.Kernel

open Cert.Kernel Cert.Kernel.Gen

open Idealize.ShloMosaic Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- The arrays' contents when the region is entered, per device, and the generator registers.
variable (Vr : (d : Dev nD) → (b : Ref sig .tc) → Buf (Elt F) ((d.tc : Thread nD τ).loc b)) (ρ : Dev nD → PrngReg)

/-! ## The invariant and the windows' blocks -/

/-- The region's invariant on device `d`: the scoped buffers no window stages, and the generator register at some
    state; the body uses neither. -/
def ΦR (d : Dev nD) : sProp 𝕄 :=
  iprop(Pipeline.scopedRest (Ix := HIx 1) (Name := ℕ) (U := UU) (Lvl := ℕ) (Val := Elt F) spec1 d ∗ ∃ r, prngReg d r)

/-- Window `w`'s block at point `t`, read off its array as the region finds it. -/
def iblk (d : Dev nD) (w : Fin cfg1.W) (t : Fin cfg1.N) : ((cfg1.win w).xblock (cfg1.grid.coords t)).Idx → Elt F (cfg1.win w).elt :=
  ((cfg1.win w).blk t).view.read (Elt F) (Vr d (Pipeline.arrRef spec1 w))

/-! ## The body's accesses, and what it leaves in the result's staging buffer -/

/-- The whole block. -/
abbrev rB : Rect S1x4x4096x128 := Rect.unit (s := S1x4x4096x128) ![0, 0, 0, 0] S1x4x4096x128.size inb_S1x4x4096x128_S1x4x4096x128_0_0_0_0
/-- The four rows of the table the point reads. -/
abbrev rT (i : grid1.Coords) : Rect S16x128 := Rect.unit (s := S16x128) (k1_off1 i) S4x128.size (k1_off1_inb i)

/-- The result window's staging buffer after the body at coordinates `i`, from the block of `x` and the table: the one
    store as a piece. -/
def out1_2 (i : grid1.Coords) (x0 : Vec F S1x4x4096x128 .f32) (x1 : Vec F S16x128 .f32) : Vec F S1x4x4096x128 .f32 :=
  View.canon [⟨rB, k1_pay1 (View.ld x1 (rT i)) (View.ld x0 rB)⟩]

/-! ## The pipeline's proof data -/

/-- The proof data on device `d`: the arrays as the region finds them; after the body at point `t` each input's buffer at
    its block and the result's at `out1_2` of them; the invariant; nothing owed; full shares. -/
def dats (_ : Fin 1) (d : Dev nD) : Dat τ (Elt F) (HIx 1) ℕ UU ℕ cfg1 d where
  A w := Vr d (Pipeline.arrRef spec1 w)
  after w t := match w with
    | ⟨0, _⟩ => iblk Vr d 0 t
    | ⟨1, _⟩ => iblk Vr d 1 t
    | ⟨2, _⟩ => out1_2 (grid1.coords t) (iblk Vr d 0 t) (iblk Vr d 1 t)
  Φ _ := ΦR d
  q _ := fullShare
  owed _ := 0

/-- The proof data's arrays are the region-entry contents. -/
theorem A_eq (d : Dev nD) (w : Fin cfg1.W) : (dats Vr 0 d).A w = Vr d (Pipeline.arrRef spec1 w) := by
  dsimp only [dats]

/-- What the body leaves, window by window. -/
theorem after1_0 (d : Dev nD) (t : Fin cfg1.N) : (dats Vr 0 d).after 0 t = iblk Vr d 0 t := by dsimp only [dats]
theorem after1_1 (d : Dev nD) (t : Fin cfg1.N) : (dats Vr 0 d).after 1 t = iblk Vr d 1 t := by dsimp only [dats]
theorem after1_2 (d : Dev nD) (t : Fin cfg1.N) :
    (dats Vr 0 d).after 2 t = out1_2 (grid1.coords t) (iblk Vr d 0 t) (iblk Vr d 1 t) := by dsimp only [dats]

/-- Each input's current staging buffer holds its block at every point, fetched there or not: an input the body leaves
    in place keeps its block while its block index does not move. -/
theorem before1_0 (d : Dev nD) (t : Fin cfg1.N) (y) : (dats Vr 0 d).before 0 t y = iblk Vr d 0 t :=
  ((dats Vr 0 d).before_in_eq_fetched 0 rfl (fun _ => rfl) (fun _ _ _ => rfl)
      (fun t => by rw [after1_0]; unfold Dat.blockOf iblk; rw [A_eq]; try rfl) t y).trans
    (by unfold Dat.fetched Dat.blockOf iblk; rw [A_eq]; try rfl)
theorem before1_1 (d : Dev nD) (t : Fin cfg1.N) (y) : (dats Vr 0 d).before 1 t y = iblk Vr d 1 t :=
  ((dats Vr 0 d).before_in_eq_fetched 1 rfl (fun _ => rfl) (fun _ _ _ => rfl)
      (fun t => by rw [after1_1]; unfold Dat.blockOf iblk; rw [A_eq]; try rfl) t y).trans
    (by unfold Dat.fetched Dat.blockOf iblk; rw [A_eq]; try rfl)

/-! ## The body's triple -/

/-- The one store covers the result's staging buffer. -/
theorem cover1_2 (p0 : Vec F S1x4x4096x128 .f32) (y : S1x4x4096x128.Idx) :
    ∃ pc ∈ ([⟨rB, p0⟩] : List (View.Piece (Elt F) S1x4x4096x128 .f32)), y ∈ pc.1.set :=
  View.cover_of_tiled [⟨rB, p0⟩] S1x4x4096x128.size (by rfl) y

set_option maxHeartbeats 1000000 in
/-- The kernel body on whole staging memrefs, the inputs' at contents `x0`, `x1` and the result's at anything, runs to the
    continuation holding the inputs' as they were and the result's at `out1_2` of them. -/
theorem sound_kernel (d : Dev nD) (E : Set ℕ) (i : grid1.Coords)
    (arg2 : Memref sig .tc .vmem S1x4x4096x128 .f32) (harg2 : arg2.IsWhole) (arg3 : Memref sig .tc .vmem S16x128 .f32) (harg3 : arg3.IsWhole)
    (arg4 : Memref sig .tc .vmem S1x4x4096x128 .f32) (harg4 : arg4.IsWhole)
    (x0 : Vec F S1x4x4096x128 .f32) (x1 : Vec F S16x128 .f32) (Kc : PUnit → sProp 𝕄) :
    iprop(owns (d.tc : Thread nD τ) arg2 fullShare x0 ∗ owns (d.tc : Thread nD τ) arg3 fullShare x1 ∗ (∃ y, owns (d.tc : Thread nD τ) arg4 fullShare y)
        ∗ (iprop(owns (d.tc : Thread nD τ) arg2 fullShare x0 ∗ owns (d.tc : Thread nD τ) arg3 fullShare x1
            ∗ owns (d.tc : Thread nD τ) arg4 fullShare (out1_2 i x0 x1)) -∗ Kc ⟨⟩))
      ⊢ wp frame (wpE (defs₀ (F := F)) Variants.none (d.tc : Thread nD τ) none) E (cc1_body i arg2 harg2 arg3 harg3 arg4 harg4) Kc := by
  simp only [cc1_body_eq_skeleton]; unfold cc1_body_skel
  unfold owns
  iintro ⟨⟨%f0, %hf0, H0⟩, ⟨%f1, %hf1, H1⟩, ⟨%y2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body obligation -/

/-- What the body is called with at point `t`, -/
def bodyPre (d : Dev nD) (t : Fin cfg1.N) : sProp 𝕄 :=
  iprop((dats Vr 0 d).Φ t.castSucc ∗ (dats Vr 0 d).owesAt (none : HIx 1) t.castSucc
    ∗ (∃ y, owns (d.tc : Thread nD τ) (st1_0 t) fullShare ((dats Vr 0 d).before 0 t y))
    ∗ (∃ y, owns (d.tc : Thread nD τ) (st1_1 t) fullShare ((dats Vr 0 d).before 1 t y))
    ∗ (∃ y, owns (d.tc : Thread nD τ) (st1_2 t) fullShare ((dats Vr 0 d).before 2 t y)))

/-- and what it returns. -/
def bodyPost (d : Dev nD) (t : Fin cfg1.N) : sProp 𝕄 :=
  iprop((dats Vr 0 d).Φ t.succ ∗ (dats Vr 0 d).owesAt (none : HIx 1) t.succ
    ∗ owns (d.tc : Thread nD τ) (st1_0 t) fullShare ((dats Vr 0 d).after 0 t)
    ∗ owns (d.tc : Thread nD τ) (st1_1 t) fullShare ((dats Vr 0 d).after 1 t)
    ∗ owns (d.tc : Thread nD τ) (st1_2 t) fullShare ((dats Vr 0 d).after 2 t))

/-- The body at any point: the inputs' staging buffers hold their blocks, so the body's triple applies; the invariant
    and what the core owes pass through unread. -/
theorem sound_body (d : Dev nD) (t : Fin cfg1.N) :
    bodyPre Vr d t ⊢ wp frame (wpE (defs₀ (F := F)) Variants.none (d.tc : Thread nD τ) none) Set.univ (bodyAt1 t) (fun _ => bodyPost Vr d t) := by
  unfold bodyPre bodyPost bodyAt1
  simp only [before1_0, before1_1]
  rw [show (dats Vr 0 d).Φ t.succ = (dats Vr 0 d).Φ t.castSucc from rfl,
    show (dats Vr 0 d).owesAt (none : HIx 1) t.succ = (dats Vr 0 d).owesAt (none : HIx 1) t.castSucc from rfl,
    after1_0, after1_1, after1_2]
  iintro ⟨HΦ, Ho, ⟨%y0, H0⟩, ⟨%y1, H1⟩, ⟨%y2, H2⟩⟩
  iapply (sound_kernel d Set.univ (grid1.coords t) _ _ _ _ _ _ (iblk Vr d 0 t) (iblk Vr d 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (d : Dev nD) : BodyObligation (dats (F := F) Vr 0 d) (defs₀ (F := F)) 𝒱₀ (none : HIx 1) Set.univ := fun t => by
  rw [bigSep_W1, bigSep_W1]
  exact sound_body Vr d t

/-! ## The value -/

theorem final_x (d : Dev nD) : (dats Vr 0 d).arrAt 0 cfg1.N = Vr d main_arg0 :=
  ((dats Vr 0 d).arrAt_in 0 rfl _).trans (A_eq Vr d 0)
theorem final_h (d : Dev nD) : (dats Vr 0 d).arrAt 1 cfg1.N = Vr d main_v3 :=
  ((dats Vr 0 d).arrAt_in 1 rfl _).trans (A_eq Vr d 1)

/-- The body's payload at an index: the block's element times the lane of the table row of its head. -/
theorem pay1_apply (v2 : Vec F S4x128 .f32) (v5 : Vec F S1x4x4096x128 .f32) (j : S1x4x4096x128.Idx) :
    k1_pay1 v2 v5 j = FloatOps.mulf (v5 j) (v2 (ix2 (n0 := 4) (n1 := 128) (j 1) (j 3))) := by
  unfold k1_pay1
  show FloatOps.mulf (v5 j) (broadcastTo S1x4x4096x128 (shapeCast S1x4x1x128 (shapeCast S4x128 v2 _) _) _ j) = _
  congr 1
  refine (broadcastTo_apply _ _ j (ix4 (n0 := 1) (n1 := 4) (n2 := 1) (n3 := 128) 0 (j 1) 0 (j 3))
    (fun a => match a with | ⟨0, _⟩ => rfl | ⟨1, _⟩ => rfl | ⟨2, _⟩ => rfl | ⟨3, _⟩ => rfl)).trans ?_
  refine (shapeCast_apply _ _ _ (ix2 (n0 := 4) (n1 := 128) (j 1) (j 3))
    (by rw [Shape.rowMajor_val_two, Shape.rowMajor_val_four]
        show (j 1).val * 128 + (j 3).val = ((0 * 4 + (j 1).val) * 1 + 0) * 128 + (j 3).val
        omega)).trans ?_
  rw [shapeCast_self]

theorem hz4 : (![0, 0, 0, 0] : Fin 4 → Nat) = fun _ => 0 := funext fun a => by fin_cases a <;> rfl

/-- The printed index maps, decided over the grid: the block of `x` moves with the result's block; the table's block never
    moves; the result's block index is (batch, head block, 0, 0); the table rows read start at four times the head block. -/
theorem idx_facts : ∀ t : Fin cfg1.N, win1_0.index t = win1_2.index t
    ∧ win1_1.index t = ![0, 0]
    ∧ win1_2.index t = ![(grid1.coords t 0).val, (grid1.coords t 1).val, 0, 0]
    ∧ k1_off1 (grid1.coords t) = ![4 * (grid1.coords t 1).val, 0] :=
  (by decide +kernel : ∀ t : Fin grid1.N, _)

/-- Every (batch, head block) is some point's. -/
theorem idx_onto : ∀ (q0 : Fin 2) (q1 : Fin 4), ∃ t : Fin cfg1.N, win1_2.index t = ![q0.val, q1.val, 0, 0] :=
  (by decide +kernel : ∀ (q0 : Fin 2) (q1 : Fin 4), ∃ t : Fin grid1.N, win1_2.index t = ![q0.val, q1.val, 0, 0])

/-- What point `t` writes back is block `t` of `x` scaled by the table. -/
theorem flushed_eq (d : Dev nD) (t : Fin cfg1.N) :
    (dats Vr 0 d).flushed 2 t = ((cfg1.win 2).blk t).view.read (Elt F) (Cert.Spec.scaled (Vr d main_arg0) (Vr d main_v3)) := by
  show (cfg1.win 2).cut (grid1.coords t) ((dats Vr 0 d).after 2 t) = _
  rw [after1_2]
  unfold out1_2
  rw [View.canon_unit_zero hz4]
  simp only [View.ld_unit_zero (S := S1x4x4096x128) hz4]
  obtain ⟨e0, e1, e2, e3⟩ := idx_facts t
  funext j
  show k1_pay1 (View.ld (iblk Vr d 1 t) (rT (grid1.coords t))) (iblk Vr d 0 t) j
    = Cert.Spec.scaled (Vr d main_arg0) (Vr d main_v3) (((cfg1.win 2).blk t).view.emb j)
  rw [pay1_apply]
  show FloatOps.mulf (Vr d main_arg0 (((cfg1.win 0).blk t).view.emb j))
      (Vr d main_v3 (((cfg1.win 1).blk t).view.emb ((rT (grid1.coords t)).emb (ix2 (n0 := 4) (n1 := 128) (j 1) (j 3)))))
    = FloatOps.mulf (Vr d main_arg0 (((cfg1.win 2).blk t).view.emb j))
      (Vr d main_v3 (ix2 (n0 := 16) (n1 := 128) ((((cfg1.win 2).blk t).view.emb j) 1) ((((cfg1.win 2).blk t).view.emb j) 3)))
  have h0 : ((cfg1.win 0).blk t).view.emb j = ((cfg1.win 2).blk t).view.emb j := by
    funext a; apply Fin.ext
    match a with
    | ⟨0, _⟩ => show win1_0.index t (0 : Fin 4) * 1 + 1 * (j 0).val = win1_2.index t (0 : Fin 4) * 1 + 1 * (j 0).val; rw [e0]
    | ⟨1, _⟩ => show win1_0.index t (1 : Fin 4) * 4 + 1 * (j 1).val = win1_2.index t (1 : Fin 4) * 4 + 1 * (j 1).val; rw [e0]
    | ⟨2, _⟩ => show win1_0.index t (2 : Fin 4) * 4096 + 1 * (j 2).val = win1_2.index t (2 : Fin 4) * 4096 + 1 * (j 2).val; rw [e0]
    | ⟨3, _⟩ => show win1_0.index t (3 : Fin 4) * 128 + 1 * (j 3).val = win1_2.index t (3 : Fin 4) * 128 + 1 * (j 3).val; rw [e0]
  have h1 : ((cfg1.win 1).blk t).view.emb ((rT (grid1.coords t)).emb (ix2 (n0 := 4) (n1 := 128) (j 1) (j 3)))
      = ix2 (n0 := 16) (n1 := 128) ((((cfg1.win 2).blk t).view.emb j) 1) ((((cfg1.win 2).blk t).view.emb j) 3) := by
    funext a; apply Fin.ext
    match a with
    | ⟨0, _⟩ =>
      show win1_1.index t (0 : Fin 2) * 16 + 1 * (k1_off1 (grid1.coords t) (0 : Fin 2) + 1 * (j 1).val)
        = win1_2.index t (1 : Fin 4) * 4 + 1 * (j 1).val
      rw [e1, e2, e3]
      show 0 * 16 + 1 * (4 * (grid1.coords t 1).val + 1 * (j 1).val) = (grid1.coords t 1).val * 4 + 1 * (j 1).val
      omega
    | ⟨1, _⟩ =>
      show win1_1.index t (1 : Fin 2) * 128 + 1 * (k1_off1 (grid1.coords t) (1 : Fin 2) + 1 * (j 3).val)
        = win1_2.index t (3 : Fin 4) * 128 + 1 * (j 3).val
      rw [e1, e2, e3]
      show 0 * 128 + 1 * (0 + 1 * (j 3).val) = 0 * 128 + 1 * (j 3).val
      omega
  rw [h0, h1]

/-- An index of the array is in point `t`'s block iff each coordinate is in the block's range on its axis. -/
theorem mem_blk (t : Fin cfg1.N) (i : S2x16x4096x128.Idx) :
    i ∈ ((cfg1.win 2).blk t).view.set ↔ ∀ a : Fin 4, win1_2.index t a * S1x4x4096x128.size a ≤ (i a).val
      ∧ (i a).val < win1_2.index t a * S1x4x4096x128.size a + S1x4x4096x128.size a := by
  show i ∈ ((View.whole main_v4).slice (win1_2.rect t)).set ↔ _
  rw [View.set_slice_whole, Rect.mem_set_unit]
  exact Iff.rfl

/-- The result's blocks tile its array: the point at (batch, head / 4) covers the index. -/
theorem cover (i : S2x16x4096x128.Idx) :
    ∃ t : Fin cfg1.N, (cfg1.win 2).flush t = true ∧ i ∈ ((cfg1.win 2).blk t).view.set := by
  have hi0 : (i 0).val < 2 := (i 0).isLt
  have hi1 : (i 1).val < 16 := (i 1).isLt
  have hi2 : (i 2).val < 4096 := (i 2).isLt
  have hi3 : (i 3).val < 128 := (i 3).isLt
  obtain ⟨t, ht⟩ := idx_onto ⟨(i 0).val, hi0⟩ ⟨(i 1).val / 4, by omega⟩
  have q0 : win1_2.index t (0 : Fin 4) = (i 0).val := congrFun ht 0
  have q1 : win1_2.index t (1 : Fin 4) = (i 1).val / 4 := congrFun ht 1
  have q2 : win1_2.index t (2 : Fin 4) = 0 := congrFun ht 2
  have q3 : win1_2.index t (3 : Fin 4) = 0 := congrFun ht 3
  refine ⟨t, flush1_2 t, ?_⟩
  rw [mem_blk]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 4 ≤ (i 1).val ∧ (i 1).val < win1_2.index t (1 : Fin 4) * 4 + 4; omega
  | ⟨2, _⟩ => show win1_2.index t (2 : Fin 4) * 4096 ≤ (i 2).val ∧ (i 2).val < win1_2.index t (2 : Fin 4) * 4096 + 4096; omega
  | ⟨3, _⟩ => show win1_2.index t (3 : Fin 4) * 128 ≤ (i 3).val ∧ (i 3).val < win1_2.index t (3 : Fin 4) * 128 + 128; omega

/-- The result array after the run: `x` scaled by the table. -/
theorem final_out (d : Dev nD) : (dats Vr 0 d).arrAt 2 cfg1.N = Cert.Spec.scaled (Vr d main_arg0) (Vr d main_v3) :=
  (dats Vr 0 d).arrAt_eq_of_cover 2 (Cert.Spec.scaled (Vr d main_arg0) (Vr d main_v3)) (fun t _ => flushed_eq Vr d t) cover

/-! ## The region as a segment -/

abbrev adm : (p : Fin 1) → (pcfgs (F := F) p).Adm := fun p => (cfgs p).toPCfg_adm

def reg1 : Pipeline.RegionSeg (pcfgs (F := F)) adm (dats Vr) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody d := (body_obligation Vr d).loose
  hwaits := Pipeline.hwaits_of_owed_zero _ _ _ _ _ _ 0 fun _ _ => rfl
  pre d := iprop(unscopedBufs d (Vr d) ∗ prngReg d (ρ d) ∗ ∃ W, owes (d.tc : Thread nD τ) (0 : CellTallies nD τ sig (HIx 1)) W)
  post d := iprop((dats Vr 0 d).arrays ((dats Vr 0 d).arrAt · cfg1.N) ∗ Pipeline.unscopedRest spec1 d (Vr d) ∗ (∃ r, prngReg d r)
    ∗ ∃ W, owes (d.tc : Thread nD τ) (0 : CellTallies nD τ sig (HIx 1)) W)
  X d := prngReg d (ρ d)
  Y d := iprop(∃ r, prngReg d r)
  Z d := Pipeline.unscopedRest spec1 d (Vr d)
  hentry d := by
    have hsplit := Pipeline.arrays_of_unscopedBufs (pcfgs (F := F)) adm (dats Vr) launch1.win launch1.arr_whole d
      ((dats Vr 0 d).share_full fun _ => rfl) (Vr d) fun _ => rfl
    iintro ⟨⟨Hub, Hρ, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hρ]; · iexact Hρ
    iexact Hrest
  hin d := by
    rw [show (dats Vr 0 d).Φ 0 = ΦR d from rfl]; unfold ΦR
    iintro ⟨Hρ, -, Hr⟩
    isplitl [Hr]; · iexact Hr
    iexists _; iexact Hρ
  hout d := by
    rw [Pipeline.ownSems0_none, show (dats Vr 0 d).Φ (Fin.last cfg1.N) = ΦR d from rfl]; unfold ΦR
    iintro ⟨Hr, Hρ⟩
    isplitl [Hρ]; · iexact Hρ
    isplitr; · iempintro
    iexact Hr
  hexit d := by
    iintro ⟨Ha, HO, HY, HZ⟩
    imodintro
    isplitl [Ha]; · iexact Ha
    isplitl [HZ]; · iexact HZ
    isplitl [HY]; · iexact HY
    unfold Pipeline.Dat.owesAt Pipeline.owesWithin
    icases HO with ⟨%W, -, HO⟩; iexists W; iexact HO

end Cert.Proof.Kernel

end
-- ==== Proof.KernelEnter.lean ====
/-
  Entering the TensorCore region from @main: the region rule at the kernel's one pipeline, stated over this program's
  names with the region's entry and exit states spelt out.
-/
import proofs.«213798_g80290118632062_cont_sun_m_155_14_alg».proof.Proof.KernelRegion

noncomputable section

namespace Cert.Proof.Kernel

open Cert.Kernel Cert.Kernel.Gen

open Idealize.ShloMosaic Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (Vr : (d : Dev nD) → (b : Ref sig .tc) → Buf (Elt F) ((d.tc : Thread nD τ).loc b)) (ρ : Dev nD → PrngReg)

/-- The pipelines with no prefetched table, pinned at no table's contents, are the printed pipelines. -/
theorem pin_eq : Pipeline.pin (pcfgs (F := F)) adm = cfgs := rfl

/-- The state the region is entered from: the unscoped buffers at `Vr`, the generator register, the core owing nothing; -/
theorem reg1_pre (d : Dev nD) : (reg1 Vr ρ).pre d
    = iprop(unscopedBufs d (Vr d) ∗ prngReg d (ρ d) ∗ ∃ W, owes (d.tc : Thread nD τ) (0 : CellTallies nD τ sig (HIx 1)) W) := rfl
/-- and the one it leaves: the windows' arrays at their final contents, the other unscoped buffers as they were, the
    generator register at some state, the core owing nothing. -/
theorem reg1_post (d : Dev nD) : (reg1 Vr ρ).post d
    = iprop((dats Vr 0 d).arrays ((dats Vr 0 d).arrAt · cfg1.N) ∗ Pipeline.unscopedRest spec1 d (Vr d) ∗ (∃ r, prngReg d r)
      ∗ ∃ W, owes (d.tc : Thread nD τ) (0 : CellTallies nD τ sig (HIx 1)) W) := rfl

/-- The region rule at pipeline 0, under no host bound: from the boundary, the region's entry state, the level facts and the
    staging cells' ghost state, the call runs to the boundary and the region's exit state for the continuation. -/
theorem region_enter [∀ e, Nonempty (Elt F e)] (d : Dev nD) (Q : PUnit → sProp 𝕄) :
    iprop((iprop(boundary (d.tc : Thread nD τ)
              ∗ (dats Vr 0 d).arrays ((dats Vr 0 d).arrAt · cfg1.N) ∗ Pipeline.unscopedRest spec1 d (Vr d) ∗ (∃ r, prngReg d r)
              ∗ ∃ W, owes (d.tc : Thread nD τ) (0 : CellTallies nD τ sig (HIx 1)) W)
            -∗ wp frame (wpE (D (F := F)) 𝒱 (d.tc : Thread nD τ) none) Set.univ (.ret ⟨⟩) Q)
        ∗ boundary (d.tc : Thread nD τ)
        ∗ iprop(unscopedBufs d (Vr d) ∗ prngReg d (ρ d) ∗ ∃ W, owes (d.tc : Thread nD τ) (0 : CellTallies nD τ sig (HIx 1)) W)
        ∗ levAts (K (F := F)).L (K (F := F)).lev
        ∗ Pipeline.cellsGhost cfgs EP 0 d ∗ Pipeline.toksInit cfgs EP 0 d)
      ⊢ wp frame (wpE (D (F := F)) 𝒱 (d.tc : Thread nD τ) none) Set.univ (.op (.customCall (Pipeline.entry 0) ()) fun _ => .ret ⟨⟩) Q := by
  -- no host bound: nothing to compare the pipeline's trip count with
  have hv : ∀ u ∈ (none : Option (Variants.lift 𝒱₀).V),
      (Variants.lift 𝒱₀).lt (.inr ((Pipeline.pin (pcfgs (F := F)) adm 0).tripCount + 1)) u :=
    fun u hu => absurd hu (Option.not_mem_none u)
  have h := Pipeline.RegionSeg.wp (pcfgs (F := F)) adm (dats Vr) (none : HIx 1) cellOf_inj EP defs₀ 𝒱₀ (K (F := F)).L (K (F := F)).lev
    (reg1 Vr ρ) d none hv (fun _ => .ret ⟨⟩) Q
  rw [reg1_pre, reg1_post] at h
  exact h

end Cert.Proof.Kernel

end
-- ==== Proof.KernelSplit.lean ====
/-
  How the SparseCore call's operands split among a SparseCore's sixteen tiles, and how its results gather from theirs.

  Only tile 0 of SparseCore 0 works: the operands handed to a SparseCore all go to its tile 0 (SparseCore 1 is handed
  nothing, and so is its tile 0), every other tile gets nothing and gives nothing back, so the conjunction over the tiles
  is its one summand at tile 0.
-/
import proofs.«213798_g80290118632062_cont_sun_m_155_14_alg».proof.Proof.KernelCommon

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-- Tile 0 of a SparseCore is handed what the SparseCore is handed, -/
theorem forTile_tile0 (d : Dev nD) (c : ℕ) : forTile m d c 0 = forCore m d c := by
  unfold forTile forCore
  by_cases h : c = 0
  · rw [if_pos ⟨h, rfl⟩, if_pos h]
  · rw [if_neg (fun h' => h h'.1), if_neg h]
/-- and hands back what the SparseCore hands back. -/
theorem backTile_tile0 (d : Dev nD) (c : ℕ) : backTile m d c 0 = backCore m d c := by
  unfold backTile backCore
  by_cases h : c = 0
  · rw [if_pos ⟨h, rfl⟩, if_pos h]
  · rw [if_neg (fun h' => h h'.1), if_neg h]

/-- The call's operands for a SparseCore go to its tile 0, its results come from its tile 0. -/
theorem vecSplit : (K (F := F)).VecSplit' (P m) 0 := by
  intro d c
  have h0 : 0 < (K (F := F)).nSub 0 := by rw [nSub_zero]; decide
  -- a conjunction over the tiles whose summands are empty off tile 0 is its summand at tile 0
  have only : ∀ (Φ : Fin ((K (F := F)).nSub 0) → sProp 𝕄), (∀ i, i.val ≠ 0 → Φ i = iprop(emp)) →
      bigSep Finset.univ Φ = Φ ⟨0, h0⟩ := by
    intro Φ h
    rw [BI.bigSep_erase (Finset.mem_univ (⟨0, h0⟩ : Fin ((K (F := F)).nSub 0))),
      BI.bigSep_congr (Ψ := fun _ => (BI.emp : sProp 𝕄))
        (fun i hi => h i (fun e => Finset.ne_of_mem_erase hi (Fin.ext e))),
      BI.bigSep_emp_const]
    exact equiv_iff.mp sep_emp
  show forCore m d c.val ⊢ |={Set.univ}=> iprop(
      (bigSep Finset.univ fun i : Fin ((K (F := F)).nSub 0) => forTile m d c.val i.val)
      ∗ ((bigSep Finset.univ fun i : Fin ((K (F := F)).nSub 0) => backTile m d c.val i.val) -∗ backCore m d c.val))
  rw [only (fun i => forTile m d c.val i.val) (fun i hi => forTile_ne m d (fun h => hi h.2)),
    only (fun i => backTile m d c.val i.val) (fun i hi => backTile_ne m d (fun h => hi h.2))]
  show forCore m d c.val ⊢ |={Set.univ}=> iprop(forTile m d c.val 0 ∗ (backTile m d c.val 0 -∗ backCore m d c.val))
  rw [forTile_tile0, backTile_tile0]
  iintro H; imodintro
  isplitl [H]; · iexact H
  iintro H; iexact H

end Cert.Proof.Kernel

end
-- ==== Proof.HeadsLayout.lean ====
/-
  The flat table of 2048 slots read as 16 heads of 128 lanes is its row-major reshape: entry (a, b) of the
  reshaped table is slot 128 a + b.
-/
import proofs.«213798_g80290118632062_cont_sun_m_155_14_alg».proof.Proof.Spec
import Idealize.ShloMosaic.Lib.Pipeline.Value

noncomputable section

namespace Cert.Spec

open Idealize.ShloMosaic Idealize.ShloMosaic.ValueIdx

variable {F : FTy → Type} [FloatOps F]

/-- Reshaping the flat table to [16, 128] is reading it by heads. -/
theorem shapeCast_heads (t : FVec F S2k .f32) (h : S2k.ShapeCasts SHD) : shapeCast SHD t h = heads t := by
  funext j
  unfold heads
  refine shapeCast_apply t h j (flatPos (j 0) (j 1)) ?_
  rw [Shape.rowMajor_val_one, Shape.rowMajor_val_two]
  have h0 : (j 0).val < 16 := (j 0).isLt
  have h1 : (j 1).val < 128 := (j 1).isLt
  show 128 * (j 0).val + (j 1).val = (j 0).val * 128 + (j 1).val
  omega

end Cert.Spec

end
-- ==== Proof.KernelLaunch.lean ====
/-
  The launch of the kernel program: its launch element, @main on the TensorCore, and the run.

  @main writes the scalar one, broadcasts it to the table's fill and widens `smooth` (three host operations), starts
  the SparseCore call and waits for it (the result array then holds `Spec.table` of the fill and the widened
  `smooth`), reshapes the table to 16 heads of 128 lanes (a fourth host operation), and enters the TensorCore region,
  which leaves `x` scaled by the table in the output array. The three arguments are written by nothing.
-/
import proofs.«213798_g80290118632062_cont_sun_m_155_14_alg».proof.Proof.KernelCommon
import proofs.«213798_g80290118632062_cont_sun_m_155_14_alg».proof.Proof.KernelTile
import proofs.«213798_g80290118632062_cont_sun_m_155_14_alg».proof.Proof.KernelRegion
import proofs.«213798_g80290118632062_cont_sun_m_155_14_alg».proof.Proof.KernelEnter
import proofs.«213798_g80290118632062_cont_sun_m_155_14_alg».proof.Proof.KernelSplit
import proofs.«213798_g80290118632062_cont_sun_m_155_14_alg».proof.Proof.HeadsLayout

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The launch element: the handshakes' rounds and the region's staging rounds; no counter yet -/

def u₀ : UU := (initOf (K (F := F)).hsCells (K (F := F)).hsToks, (initOf (Pipeline.cells cfgs cellOf_inj) (Pipeline.launchToks cfgs cellOf_inj), 1))

/-- What the launch leaves @main on device `d`: the ghost state of the region's staging cells. -/
def G (d : Dev nD) : sProp 𝕄 := iprop(Pipeline.cellsGhost cfgs EP 0 d ∗ Pipeline.toksInit cfgs EP 0 d)

theorem bigSep_emp' {I : Type} (s : Finset I) : (bigSep s fun _ => iprop(emp)) = (iprop(emp) : sProp 𝕄) := bigSep_emp_const s

variable [FloatOps F]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HP⟩
  ihave HP' := (show (BI.own (embR (A := UH) (B := UP × Counters) (nD := nD) (τ := τ) (sig := sig) (Ix := HIx 1) (Val := Elt F) (Name := ℕ) (Lvl := ℕ)
      ((initOf (Pipeline.cells cfgs cellOf_inj) (Pipeline.launchToks cfgs cellOf_inj), (1 : Counters)) : UP × Counters)) : sProp 𝕄)
      ⊢ BI.own (EP (F := F) (initOf (Pipeline.cells cfgs cellOf_inj) (Pipeline.launchToks cfgs cellOf_inj))) from Entails.of_eq rfl) $$ HP
  imod (Pipeline.fund_ghost cfgs EP cellOf_inj) $$ HP' with ⟨Hg, Ht⟩
  imodintro
  isplitl [HH]; · iexact HH
  isplitl [Hg Ht]
  · unfold G
    rw [bigSep_sep']
    isplitl [Hg]
    · iapply (Entails.of_eq (bigSep_congr fun d _ => (bigSep_univ_of_subsingleton (0 : Fin 1) (Φ := fun p => Pipeline.cellsGhost cfgs EP p d)))); iexact Hg
    · iapply (Entails.of_eq (bigSep_congr fun d _ => (bigSep_univ_of_subsingleton (0 : Fin 1) (Φ := fun p => Pipeline.toksInit cfgs EP p d)))); iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev x' : DevRef τ sig := Proc.devRef .tc (main_arg0 : Ref sig .tc)
abbrev sb' : DevRef τ sig := Proc.devRef .tc (main_arg1 : Ref sig .tc)
abbrev i' : DevRef τ sig := Proc.devRef .tc (main_arg2 : Ref sig .tc)
abbrev c' : DevRef τ sig := Proc.devRef .tc (main_cst : Ref sig .tc)
abbrev fill' : DevRef τ sig := Proc.devRef .tc (main_v0 : Ref sig .tc)
abbrev sm' : DevRef τ sig := Proc.devRef .tc (main_v1 : Ref sig .tc)
abbrev t' : DevRef τ sig := Proc.devRef .tc (main_v2 : Ref sig .tc)
abbrev h' : DevRef τ sig := Proc.devRef .tc (main_v3 : Ref sig .tc)
abbrev o' : DevRef τ sig := Proc.devRef .tc (main_v4 : Ref sig .tc)

/-- The TensorCore's arrays, all unscoped. -/
abbrev S9 : Finset (DevRef τ sig) := {x', sb', i', c', fill', sm', t', h', o'}

omit [FloatOps F] in
theorem held_S9 (d : Dev nD) (W : Valuation τ sig (Elt F)) :
    (held (T d) S9 W : sProp 𝕄) = iprop((xLoc d ↦{fullShare} W x') ∗ (sbLoc d ↦{fullShare} W sb') ∗ (iLoc d ↦{fullShare} W i') ∗ (cLoc d ↦{fullShare} W c') ∗ (fillLoc d ↦{fullShare} W fill') ∗ (smLoc d ↦{fullShare} W sm') ∗ (tLoc d ↦{fullShare} W t') ∗ (hLoc d ↦{fullShare} W h') ∗ oLoc d ↦{fullShare} W o') := by
  unfold held S9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (sbLoc d ↦{fullShare} W main_arg1) ∗ (iLoc d ↦{fullShare} W main_arg2) ∗ (cLoc d ↦{fullShare} W main_cst) ∗ (fillLoc d ↦{fullShare} W main_v0) ∗ (smLoc d ↦{fullShare} W main_v1) ∗ (tLoc d ↦{fullShare} W main_v2) ∗ (hLoc d ↦{fullShare} W main_v3) ∗ oLoc d ↦{fullShare} W main_v4) := by
  unfold unscopedBufs
  rw [show (Finset.univ.filter fun b : Ref sig .tc => ¬ b.isScoped) = {main_arg0, main_arg1, main_arg2, main_cst, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- @main's four host operations, as printed. -/
abbrev opOne : HloOp τ sig (Elt F) := StableHlo.nullary main_cst (constant S_ .f32 0x3F800000#32)
abbrev opFill : HloOp τ sig (Elt F) :=
  StableHlo.unary main_cst main_v0 (broadcastInDim S2048 ![] bcast_S_S2048 : (⟨S_, .f32⟩ : BufTy).Contents (Elt F) → (⟨S2048, .f32⟩ : BufTy).Contents (Elt F))
abbrev opWiden : HloOp τ sig (Elt F) :=
  StableHlo.unary main_arg1 main_v1 ((extf .f32 · bitsLt_bf16_f32) : (⟨S4096, .bf16⟩ : BufTy).Contents (Elt F) → (⟨S4096, .f32⟩ : BufTy).Contents (Elt F))
abbrev opHeads : HloOp τ sig (Elt F) := StableHlo.reshape main_v2 main_v3 rfl shapeCasts_S2048_S16x128

/-- The arrays' contents: at launch; after the three host operations before the call; after the call; after the reshape. -/
def V0 (d : Dev nD) : Valuation τ sig (Elt F) := fun b => m (d, b)
def V1 (d : Dev nD) : Valuation τ sig (Elt F) := (opOne (F := F)).result (V0 m d)
def V2 (d : Dev nD) : Valuation τ sig (Elt F) := (opFill (F := F)).result (V1 m d)
def V3 (d : Dev nD) : Valuation τ sig (Elt F) := (opWiden (F := F)).result (V2 m d)
def V4 (d : Dev nD) : Valuation τ sig (Elt F) := Function.update (V3 m d) t' (tblV m d)
def V5 (d : Dev nD) : Valuation τ sig (Elt F) := (opHeads (F := F)).result (V4 m d)

theorem unscoped_held (d : Dev nD) : (unscopedBufs d (fun b => m ((SparseCore.T d).loc b)) : sProp 𝕄) = held (T d) S9 (V0 m d) := by
  rw [unscopedBufs_eq, held_S9]; rfl

local macro "host_results" : tactic =>
  `(tactic| (repeat (first
      | rw [StableHlo.nullary_result] | rw [StableHlo.unary_result] | rw [StableHlo.reshape_result]
      | (rw [StableHlo.nullary_result_ne]; rotate_left; decide)
      | (rw [StableHlo.unary_result_ne]; rotate_left; decide)
      | (rw [StableHlo.reshape_result_ne]; rotate_left; decide))))

theorem V3_x (d : Dev nD) : V3 m d x' = m (xLoc d) := by unfold V3 V2 V1; host_results; rfl
theorem V3_sb (d : Dev nD) : V3 m d sb' = m (sbLoc d) := by unfold V3 V2 V1; host_results; rfl
theorem V3_i (d : Dev nD) : V3 m d i' = m (iLoc d) := by unfold V3 V2 V1; host_results; rfl
theorem V3_fill (d : Dev nD) : V3 m d fill' = fillV (F := F) := by unfold V3 V2 V1; host_results; rfl
theorem V3_sm (d : Dev nD) : V3 m d sm' = smV m d := by unfold V3 V2 V1; host_results; rfl

theorem V4_x (d : Dev nD) : V4 m d x' = m (xLoc d) := (Function.update_of_ne (show x' ≠ t' by decide) _ _).trans (V3_x m d)
theorem V4_sb (d : Dev nD) : V4 m d sb' = m (sbLoc d) := (Function.update_of_ne (show sb' ≠ t' by decide) _ _).trans (V3_sb m d)
theorem V4_i (d : Dev nD) : V4 m d i' = m (iLoc d) := (Function.update_of_ne (show i' ≠ t' by decide) _ _).trans (V3_i m d)
theorem V4_c (d : Dev nD) : V4 m d c' = V3 m d c' := Function.update_of_ne (show c' ≠ t' by decide) _ _
theorem V4_fill (d : Dev nD) : V4 m d fill' = V3 m d fill' := Function.update_of_ne (show fill' ≠ t' by decide) _ _
theorem V4_sm (d : Dev nD) : V4 m d sm' = V3 m d sm' := Function.update_of_ne (show sm' ≠ t' by decide) _ _
theorem V4_t (d : Dev nD) : V4 m d t' = tblV m d := Function.update_self _ _ _
theorem V4_h (d : Dev nD) : V4 m d h' = V3 m d h' := Function.update_of_ne (show h' ≠ t' by decide) _ _
theorem V4_o (d : Dev nD) : V4 m d o' = V3 m d o' := Function.update_of_ne (show o' ≠ t' by decide) _ _

theorem V5_x (d : Dev nD) : V5 m d x' = m (xLoc d) := by unfold V5; host_results; exact V4_x m d
theorem V5_sb (d : Dev nD) : V5 m d sb' = m (sbLoc d) := by unfold V5; host_results; exact V4_sb m d
theorem V5_i (d : Dev nD) : V5 m d i' = m (iLoc d) := by unfold V5; host_results; exact V4_i m d

theorem hOne : (opOne (F := F)).bufs ⊆ S9 := show ({c'} : Finset (DevRef τ sig)) ⊆ S9 by decide
theorem hFill : (opFill (F := F)).bufs ⊆ S9 := show ({c', fill'} : Finset (DevRef τ sig)) ⊆ S9 by decide
theorem hWiden : (opWiden (F := F)).bufs ⊆ S9 := show ({sb', sm'} : Finset (DevRef τ sig)) ⊆ S9 by decide
theorem hHeads : (opHeads (F := F)).bufs ⊆ S9 := show ({t', h'} : Finset (DevRef τ sig)) ⊆ S9 by decide

theorem held_V3 (d : Dev nD) :
    (held (SparseCore.T d) S9 ((opWiden (F := F)).result (V2 m d)) : sProp 𝕄) = iprop((xLoc d ↦{fullShare} V3 m d x') ∗ (sbLoc d ↦{fullShare} V3 m d sb') ∗ (iLoc d ↦{fullShare} V3 m d i') ∗ (cLoc d ↦{fullShare} V3 m d c') ∗ (fillLoc d ↦{fullShare} V3 m d fill') ∗ (smLoc d ↦{fullShare} V3 m d sm') ∗ (tLoc d ↦{fullShare} V3 m d t') ∗ (hLoc d ↦{fullShare} V3 m d h') ∗ oLoc d ↦{fullShare} V3 m d o') :=
  held_S9 (F := F) d (V3 m d)
theorem held_V4 (d : Dev nD) :
    (held (SparseCore.T d) S9 (V4 m d) : sProp 𝕄) = iprop((xLoc d ↦{fullShare} V3 m d x') ∗ (sbLoc d ↦{fullShare} V3 m d sb') ∗ (iLoc d ↦{fullShare} m (iLoc d)) ∗ (cLoc d ↦{fullShare} V3 m d c') ∗ (fillLoc d ↦{fullShare} fillV (F := F)) ∗ (smLoc d ↦{fullShare} smV m d) ∗ (tLoc d ↦{fullShare} tblV m d) ∗ (hLoc d ↦{fullShare} V3 m d h') ∗ oLoc d ↦{fullShare} V3 m d o') := by
  rw [held_S9, V4_t, V4_c, V4_fill, V4_sm, V4_h, V4_o, V3_fill, V3_sm,
    show V4 m d x' = V3 m d x' from Function.update_of_ne (show x' ≠ t' by decide) _ _,
    show V4 m d sb' = V3 m d sb' from Function.update_of_ne (show sb' ≠ t' by decide) _ _,
    show V4 m d i' = m (iLoc d) from V4_i m d]

/-- What the call takes for the two SparseCores, and what it hands back. -/
theorem st0_eq (d : Dev nD) : (bigSep Finset.univ fun c : Fin ((K (F := F)).nCore 0) => (P m).st 0 d c) = iprop(opsIn m d ∗ emp) := by
  show (bigSep (Finset.univ : Finset (Fin 2)) fun c => forCore m d c.val) = _
  rw [show (Finset.univ : Finset (Fin 2)) = {0, 1} by decide, SparseCore.bigSep_insert' (by decide), bigSep_singleton]
  show iprop(forCore m d 0 ∗ forCore m d 1) = _
  rw [forCore_zero, forCore_one]
theorem dn0_eq (d : Dev nD) : (bigSep Finset.univ fun c : Fin ((K (F := F)).nCore 0) => (P m).dn 0 d c) = iprop(opsOut m d ∗ emp) := by
  show (bigSep (Finset.univ : Finset (Fin 2)) fun c => backCore m d c.val) = _
  rw [show (Finset.univ : Finset (Fin 2)) = {0, 1} by decide, SparseCore.bigSep_insert' (by decide), bigSep_singleton]
  show iprop(backCore m d 0 ∗ backCore m d 1) = _
  rw [backCore_zero, backCore_one]

/-- What @main leaves the claim: the three arguments at their launch contents and the output at `x` scaled by the table. -/
def FIN (d : Dev nD) : sProp 𝕄 :=
  iprop((xLoc d ↦{fullShare} m (xLoc d)) ∗ (sbLoc d ↦{fullShare} m (sbLoc d)) ∗ (iLoc d ↦{fullShare} m (iLoc d))
    ∗ oLoc d ↦{fullShare} (Cert.Spec.scaled (m (xLoc d)) (V5 m d h') : Buf (Elt F) (oLoc d)))

/-- The arrays' contents when the region is entered. -/
abbrev Vr (d : Dev nD) (b : Ref sig .tc) : Buf (Elt F) ((d.tc : Thread nD τ).loc b) := V5 m d (Proc.devRef .tc b)

theorem held_Vr (d : Dev nD) :
    (held (SparseCore.T d) S9 ((opHeads (F := F)).result (V4 m d)) : sProp 𝕄) = unscopedBufs d (Vr m d) := by
  rw [unscopedBufs_eq, held_S9]; rfl

/-- What the region leaves, read back as the arrays: `x` where no window wrote it, the two other arguments in the
    unscoped rest, the output at `x` scaled by the table. -/
theorem region_exit (d : Dev nD) :
    iprop((dats (Vr m) 0 d).arrays ((dats (Vr m) 0 d).arrAt · cfg1.N) ∗ Pipeline.unscopedRest spec1 d (Vr m d)) ⊢ (FIN m d : sProp 𝕄) := by
  rw [Pipeline.arrays_eq cfgs (dats (Vr m)) 0 d launch1.arr_whole ((dats (Vr m) 0 d).share_full fun _ => rfl), bigSep_W1, unscopedRest1_eq]
  dsimp only
  rw [final_x, final_h, final_out]
  unfold FIN
  iintro ⟨⟨Hx, -, Ho⟩, Hsb, Hi, -, -, -, -⟩
  isplitl [Hx]
  · iapply (Entails.of_eq (congrArg (fun f => (xLoc d ↦{fullShare} f : sProp 𝕄)) (V5_x m d))); iexact Hx
  isplitl [Hsb]
  · iapply (Entails.of_eq (congrArg (fun f => (sbLoc d ↦{fullShare} f : sProp 𝕄)) (V5_sb m d))); iexact Hsb
  isplitl [Hi]
  · iapply (Entails.of_eq (congrArg (fun f => (iLoc d ↦{fullShare} f : sProp 𝕄)) (V5_i m d))); iexact Hi
  iapply (Entails.of_eq (congrArg (fun f => (oLoc d ↦{fullShare} (Cert.Spec.scaled f (V5 m d h') : Buf (Elt F) (oLoc d)) : sProp 𝕄)) (V5_x m d))); iexact Ho

omit [FloatOps F] in
/-- With one call every recorded pair sits at or below level 8. -/
theorem wBelow_any (d : Dev nD) (W : Waits sig (HIx 1)) : (K (F := F)).WBelow (SparseCore.T d) W 8 := by
  intro p _
  rcases p with ⟨sm, _ | q⟩
  · show (K (F := F)).lev _ none ≤ 8; rw [SparseCore.Cfg.lev_none]; omega
  · have h7 := (K (F := F)).lev_some_le (SparseCore.T d, sm) q
    have hq : q.val = 0 := by omega
    rw [hq] at h7
    exact h7.trans (by decide)

/-- The region, from the boundary, the arrays as the reshape left them, the generator register, the TensorCore owing
    nothing, the level facts and the staging cells' ghost state: it runs to the continuation, which gets the arguments
    and the scaled output (`FIN`) and the core still owing nothing. -/
theorem region_step [∀ e, Nonempty (Elt F e)] (d : Dev nD) (W : Waits sig (HIx 1)) (Φ : PUnit.{1} → sProp 𝕄) :
    iprop(boundary (SparseCore.T d) ∗ unscopedBufs d (Vr m d) ∗ prngReg d (ρ d) ∗ owes (SparseCore.T d) (0 : CellTallies nD τ sig (HIx 1)) W
        ∗ levAts (K (F := F)).L (K (F := F)).lev ∗ G (F := F) d
        ∗ (iprop(FIN m d ∗ ∃ W', owes (SparseCore.T d) (0 : CellTallies nD τ sig (HIx 1)) W') -∗ Φ ⟨⟩))
      ⊢ wp frame (wpE ((K (F := F)).defs (D (F := F))) 𝒱 (SparseCore.T d) none) Set.univ
          (Prog.lift (TpuEff.customCall (SparseCore.inner (Pipeline.entry 0)) ())) Φ := by
  iintro ⟨Hb, Hub, Hprng, HO, Hlev, HG, Hk⟩
  unfold G
  icases HG with ⟨Hg, Htk⟩
  iapply ((K (F := F)).wp_liftProg (D (F := F)) 𝒱 (SparseCore.T d) Set.univ none (Prog.lift (.customCall (Pipeline.entry 0) ())) _)
  iapply (region_enter (Vr m) ρ d Φ) $$ [Hb Hub Hprng HO Hlev Hg Htk Hk]
  isplitl [Hk]
  · iintro ⟨-, Ha, Hrest, -, HO⟩
    rw [wp_ret]; imodintro
    iapply Hk
    isplitl [Ha Hrest]
    · iapply (region_exit m d)
      isplitl [Ha]; · iexact Ha
      iexact Hrest
    iexact HO
  isplitl [Hb]; · iexact Hb
  isplitl [Hub Hprng HO]
  · isplitl [Hub]; · iexact Hub
    isplitl [Hprng]; · iexact Hprng
    iexists W; iexact HO
  isplitl [Hlev]; · iexact Hlev
  isplitl [Hg]; · iexact Hg
  iexact Htk

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, Hprng⟩, HG⟩
  -- the scalar one, its broadcast, `smooth` widened
  iapply (wp_hlo_within 𝒱 (SparseCore.T d) none Set.univ (op := opOne) (S := S9) hOne (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opFill) (S := S9) hFill (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opWiden) (S := S9) hWiden (V := V2 m d)) $$ [Hb Hheld]
  · isplitl [Hb]; · iexact Hb
    iexact Hheld
  iintro ⟨Hb, Hheld⟩
  rw [wp_ret]; imodintro
  ihave Hh := (Entails.of_eq (held_V3 (F := F) m d)) $$ Hheld
  icases Hh with ⟨Hx, Hsb, Hi, Hc, Hfill, Hsm, Ht, Hh, Ho⟩
  -- the call: the operands to SparseCore 0 and back, the result array at the table
  iapply ((K (F := F)).wp_run (D (F := F)) 𝒱 (EH := EH) (P := P m) κ d 0) $$ [Hst Hx Hsb Hi Hc Hfill Hsm Ht Hh Ho Hb Hprng HG]
  isplitr; · iexact Hctx
  isplitl [Hst]; · iexact Hst
  isplitl [Hi Hfill Hsm Ht]
  · rw [st0_eq]
    isplitl [Hi Hfill Hsm Ht]
    · unfold opsIn
      rw [V3_i, V3_fill, V3_sm]
      isplitl [Hsm]; · iexact Hsm
      isplitl [Hi]; · iexact Hi
      isplitl [Hfill]; · iexact Hfill
      iexists _; iexact Ht
    · iempintro
  iintro ⟨Hst, Hdn⟩
  ihave Hdn' := (Entails.of_eq (dn0_eq m d)) $$ Hdn
  icases Hdn' with ⟨Hops, -⟩
  unfold opsOut
  icases Hops with ⟨Hsm, Hi, Hfill, Ht⟩
  ihave Hheld := (Entails.of_eq (held_V4 (F := F) m d).symm) $$ [Hx Hsb Hi Hc Hfill Hsm Ht Hh Ho]
  · isplitl [Hx]; · iexact Hx
    isplitl [Hsb]; · iexact Hsb
    isplitl [Hi]; · iexact Hi
    isplitl [Hc]; · iexact Hc
    isplitl [Hfill]; · iexact Hfill
    isplitl [Hsm]; · iexact Hsm
    isplitl [Ht]; · iexact Ht
    isplitl [Hh]; · iexact Hh
    iexact Ho
  -- the table as 16 heads of 128 lanes
  iapply (wp_hlo_within 𝒱 (SparseCore.T d) none Set.univ (op := opHeads) (S := S9) hHeads (V := V4 m d)) $$ [Hb Hheld]
  · isplitl [Hb]; · iexact Hb
    iexact Hheld
  iintro ⟨Hb, Hheld⟩
  rw [wp_ret]; imodintro
  -- the region: `x` scaled by the table
  ihave Hub := (Entails.of_eq (held_Vr (F := F) m d)) $$ Hheld
  ihave Hlev := ((K (F := F)).ctx_levAts (EH := EH) (P := P m) κ) $$ Hctx
  unfold SparseCore.Cfg.tcSt
  icases Hst with ⟨⟨%W, %hW, HO⟩, Hat, Hrd, Hrs, Htoks⟩
  iapply (region_step m ρ d W _) $$ [Hb Hub Hprng HO Hlev HG Hat Hrd Hrs Htoks]
  isplitl [Hb]; · iexact Hb
  isplitl [Hub]; · iexact Hub
  isplitl [Hprng]; · iexact Hprng
  isplitl [HO]
  · iapply (Entails.of_eq (congrArg (fun O => (owes (SparseCore.T d) O W : sProp 𝕄)) ((K (F := F)).Otc_end d (le_refl _)))); iexact HO
  isplitl [Hlev]; · iexact Hlev
  isplitl [HG]; · iexact HG
  iintro ⟨Hfin, %W', HO⟩
  imodintro
  isplitr [Hfin]
  · isplitl [HO]
    · iexists W'; isplitr; · ipureintro; exact wBelow_any d W'
      iapply (Entails.of_eq (congrArg (fun O => (owes (SparseCore.T d) O W' : sProp 𝕄)) ((K (F := F)).Otc_end d (le_refl _)).symm)); iexact HO
    isplitl [Hat]; · iexact Hat
    isplitl [Hrd]; · iexact Hrd
    isplitl [Hrs]; · iexact Hrs
    iexact Htoks
  iexact Hfin

/-! ## The final memory, the run -/

def fq (d : Dev nD) (s' : Phys nD τ sig (Elt F)) : Prop :=
  s'.mem.mem (oLoc d) = (Cert.Spec.scaled (m (xLoc d)) (V5 m d h') : Buf (Elt F) (oLoc d))
    ∧ s'.mem.mem (xLoc d) = m (xLoc d) ∧ s'.mem.mem (sbLoc d) = m (sbLoc d) ∧ s'.mem.mem (iLoc d) = m (iLoc d)

theorem hfin (d : Dev nD) (s' : Phys nD τ sig (Elt F)) : iprop(FIN m d ∗ SI s') ⊢ (⌜fq m d s'⌝ : sProp 𝕄) := by
  unfold FIN
  iintro ⟨⟨Hx, Hsb, Hi, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := sbLoc d) (I := Finset.univ) (q := fullShare) (f := m (sbLoc d)))) $$ [HSI Hsb]
  · isplitl [HSI] <;> iassumption
  icases H with ⟨%h2, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h3, HSI, -⟩
  ihave H := (SI_pointsTo_agree (st := s') (ℓ := oLoc d) (I := Finset.univ) (q := fullShare)
    (f := (Cert.Spec.scaled (m (xLoc d)) (V5 m d h') : Buf (Elt F) (oLoc d)))) $$ [HSI Ho]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

/-- The table as 16 heads of 128 lanes, as the reshape leaves it. -/
theorem V5_h (d : Dev nD) : V5 m d h' = Cert.Spec.heads (tblV m d) := by
  unfold V5; rw [StableHlo.reshape_result, V4_t]
  exact Cert.Spec.shapeCast_heads (tblV m d) shapeCasts_S2048_S16x128

/-- The post of the run: the output at the specification's result of `x`, the fill and the widened `smooth`; the three
    arguments unchanged. -/
def QC : PUnit × MemSt nD τ sig (Elt F) → Prop := fun r => ∀ c : Dev nD,
  r.2.mem (oLoc c) = (Cert.Spec.result (m (xLoc c)) (fillV (F := F)) (smV m c) : Buf (Elt F) (oLoc c))
    ∧ r.2.mem (xLoc c) = m (xLoc c) ∧ r.2.mem (sbLoc c) = m (sbLoc c) ∧ r.2.mem (iLoc c) = m (iLoc c)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m)
    (fun s' h c => by
      obtain ⟨h4, h1, h2, h3⟩ := h c
      refine ⟨h4.trans ?_, h1, h2, h3⟩
      rw [V5_h]; rfl)

end Cert.Proof.Kernel

end
-- ==== Proof.KernelIdealCommon.lean ====
/-
  The kernel program as the SparseCore launch theorem sees it, and what the one SparseCore call carries.

  @main fills a table of 2048 ones and widens `smooth` to f32 on the host, hands both with the index array to the
  SparseCores, reshapes the table they leave to 16 heads of 128 lanes, and scales `x` by it in a TensorCore region.
  Of the 32 tiles only tile 0 of SparseCore 0 works: the call hands that one tile the three operands and the result
  array whole, and every other tile and the other SparseCore nothing. The result array comes back holding
  `Spec.table` of the ones and the widened `smooth`.
-/
import proofs.«213798_g80290118632062_cont_sun_m_155_14_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«213798_g80290118632062_cont_sun_m_155_14_alg».proof.Proof.Gen.KernelIdeal
import proofs.«213798_g80290118632062_cont_sun_m_155_14_alg».proof.Proof.Gen.KernelIdeal.Skeleton
import proofs.«213798_g80290118632062_cont_sun_m_155_14_alg».proof.Proof.Gen.KernelIdeal.Launch
import proofs.«213798_g80290118632062_cont_sun_m_155_14_alg».proof.Proof.Gen.KernelIdeal.Points
import proofs.«213798_g80290118632062_cont_sun_m_155_14_alg».proof.Proof.Spec

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore region's staging rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The launch memory, the arrays and their contents at the call -/

variable (m : (ℓ : Loc nD τ sig) → Buf (Elt F) ℓ) (ρ : Dev nD → PrngReg)

abbrev xLoc (d : Dev nD) : Loc nD τ sig := (SparseCore.T d).loc main_arg0
abbrev sbLoc (d : Dev nD) : Loc nD τ sig := (SparseCore.T d).loc main_arg1
abbrev iLoc (d : Dev nD) : Loc nD τ sig := (SparseCore.T d).loc main_arg2
abbrev cLoc (d : Dev nD) : Loc nD τ sig := (SparseCore.T d).loc main_cst
abbrev fillLoc (d : Dev nD) : Loc nD τ sig := (SparseCore.T d).loc main_v0
abbrev smLoc (d : Dev nD) : Loc nD τ sig := (SparseCore.T d).loc main_v1
abbrev tLoc (d : Dev nD) : Loc nD τ sig := (SparseCore.T d).loc main_v2
abbrev hLoc (d : Dev nD) : Loc nD τ sig := (SparseCore.T d).loc main_v3
abbrev oLoc (d : Dev nD) : Loc nD τ sig := (SparseCore.T d).loc main_v4

variable [FloatOps F]

/-- The scalar one the host writes, the table's fill it broadcasts, and `smooth` widened: @main's three host results
    before the call. -/
def oneV : Vec F S_ .f32 := constant S_ .f32 0x3F800000#32
def fillV : Vec F S2048 .f32 := broadcastInDim S2048 ![] bcast_S_S2048 (oneV (F := F))
def smV (d : Dev nD) : Vec F S4096 .f32 := extf .f32 (m (sbLoc d)) bitsLt_bf16_f32
/-- What the SparseCore call leaves in its result array. -/
def tblV (d : Dev nD) : Vec F S2048 .f32 := Cert.Spec.table (fillV (F := F)) (smV m d)

abbrev idxPts (d : Dev nD) : sProp 𝕄 := iLoc d ↦{fullShare} m (iLoc d)
abbrev smPts (d : Dev nD) : sProp 𝕄 := smLoc d ↦{fullShare} smV m d
abbrev fillPts (d : Dev nD) : sProp 𝕄 := fillLoc d ↦{fullShare} (fillV (F := F))
abbrev tPts (d : Dev nD) (f : Buf (Elt F) (tLoc d)) : sProp 𝕄 := tLoc d ↦{fullShare} f

/-- What the proofs ask of the launch memory: every word of the index array is 1 (the precondition says so). -/
def PreOK : Prop := ∀ (d : Dev nD) (j : S4096.Idx), m (iLoc d) j = 1#32

/-- The call's operands and result array, as handed over; -/
def opsIn (d : Dev nD) : sProp 𝕄 := iprop(smPts m d ∗ idxPts m d ∗ fillPts d ∗ ∃ f, tPts d f)
/-- and as they come back: the result array at the table. -/
def opsOut (d : Dev nD) : sProp 𝕄 := iprop(smPts m d ∗ idxPts m d ∗ fillPts d ∗ tPts d (tblV m d))

/-- SparseCore number `c` is handed the operands if it is SparseCore 0, else nothing; -/
def forCore (d : Dev nD) (c : ℕ) : sProp 𝕄 := if c = 0 then opsIn m d else iprop(emp)
def backCore (d : Dev nD) (c : ℕ) : sProp 𝕄 := if c = 0 then opsOut m d else iprop(emp)
/-- and of its tiles, tile 0 alone. -/
def forTile (d : Dev nD) (c i : ℕ) : sProp 𝕄 := if c = 0 ∧ i = 0 then opsIn m d else iprop(emp)
def backTile (d : Dev nD) (c i : ℕ) : sProp 𝕄 := if c = 0 ∧ i = 0 then opsOut m d else iprop(emp)

theorem forTile_zero (d : Dev nD) : forTile m d 0 0 = opsIn m d := if_pos ⟨rfl, rfl⟩
theorem backTile_zero (d : Dev nD) : backTile m d 0 0 = opsOut m d := if_pos ⟨rfl, rfl⟩
theorem forTile_ne (d : Dev nD) {c i : ℕ} (h : ¬(c = 0 ∧ i = 0)) : forTile m d c i = iprop(emp) := if_neg h
theorem backTile_ne (d : Dev nD) {c i : ℕ} (h : ¬(c = 0 ∧ i = 0)) : backTile m d c i = iprop(emp) := if_neg h
theorem forCore_zero (d : Dev nD) : forCore m d 0 = opsIn m d := if_pos rfl
theorem backCore_zero (d : Dev nD) : backCore m d 0 = opsOut m d := if_pos rfl
theorem forCore_one (d : Dev nD) : forCore m d 1 = iprop(emp) := if_neg Nat.one_ne_zero
theorem backCore_one (d : Dev nD) : backCore m d 1 = iprop(emp) := if_neg Nat.one_ne_zero

instance forCore_storable (d : Dev nD) (c : ℕ) : BI.Storable (upEmb : UEmb _ 𝕄) (forCore m d c) := by
  unfold forCore opsIn; split <;> infer_instance
instance backCore_storable (d : Dev nD) (c : ℕ) : BI.Storable (upEmb : UEmb _ 𝕄) (backCore m d c) := by
  unfold backCore opsOut; split <;> infer_instance
instance forTile_storable (d : Dev nD) (c i : ℕ) : BI.Storable (upEmb : UEmb _ 𝕄) (forTile m d c i) := by
  unfold forTile opsIn; split <;> infer_instance
instance backTile_storable (d : Dev nD) (c i : ℕ) : BI.Storable (upEmb : UEmb _ 𝕄) (backTile m d c i) := by
  unfold backTile opsOut; split <;> infer_instance

/-- Call 0's payloads; no kernel's proof consumes anything of the launch's. -/
def P : (K (F := F)).Pay (nD := nD) (Val := Elt F) (Name := ℕ) (U := UU) where
  st := fun _ d c => forCore m d c.val
  dn := fun _ d c => backCore m d c.val
  go := fun _ d c i => forTile m d c.val i.val
  td := fun _ d c i => backTile m d c.val i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.Proof.KernelIdeal

end
-- ==== Proof.KernelIdealTile.lean ====
/-
  Call 0's task on a vector subcore (the launch theorem's `TileObl` and `VecSplit'`).

  Of the 32 tiles only tile 0 of SparseCore 0 takes the branch. It copies the index array, the widened `smooth` and the
  fill into its three scratches (three transfers, each on its own semaphore, all waited before any read), then runs 32
  trips of eight indexed stores of sixteen lanes into the table scratch, and copies that scratch out to the result
  array. Every index word is 1, so each store rewrites slot 1 alone, to its last lane's value: after trip `t` slot 1
  holds `smooth[128 t + 127]`, after the last `smooth[4095]`; every other slot keeps the fill.
-/
import proofs.«213798_g80290118632062_cont_sun_m_155_14_alg».proof.Proof.KernelIdealCommon
import proofs.«213798_g80290118632062_cont_sun_m_155_14_alg».proof.Proof.ScatterOnes

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

-- the kernel's memrefs, spelt as the body table passes them
local notation "smW" => (Memref.whole Cert.KernelIdeal.main_v1_scv : Memref Cert.KernelIdeal.sig Kind.scVector Space.hbm Cert.KernelIdeal.S4096 EltTy.f32)
local notation "ixW" => (Memref.whole Cert.KernelIdeal.main_arg2_scv : Memref Cert.KernelIdeal.sig Kind.scVector Space.hbm Cert.KernelIdeal.S4096 EltTy.i32)
local notation "flW" => (Memref.whole Cert.KernelIdeal.main_v0_scv : Memref Cert.KernelIdeal.sig Kind.scVector Space.hbm Cert.KernelIdeal.S2048 EltTy.f32)
local notation "tbW" => (Memref.whole Cert.KernelIdeal.main_v2_scv : Memref Cert.KernelIdeal.sig Kind.scVector Space.hbm Cert.KernelIdeal.S2048 EltTy.f32)
local notation "sI" => (Memref.whole Cert.KernelIdeal.cc0_scratch0 : Memref Cert.KernelIdeal.sig Kind.scVector Space.vmem Cert.KernelIdeal.S4096 EltTy.i32)
local notation "sS" => (Memref.whole Cert.KernelIdeal.cc0_scratch1 : Memref Cert.KernelIdeal.sig Kind.scVector Space.vmem Cert.KernelIdeal.S4096 EltTy.f32)
local notation "sT" => (Memref.whole Cert.KernelIdeal.cc0_scratch2 : Memref Cert.KernelIdeal.sig Kind.scVector Space.vmem Cert.KernelIdeal.S2048 EltTy.f32)

variable [FloatOps F]

namespace Tile

section Body

variable (d : Dev nD) (L : grid0.Coords)

abbrev cV (L : grid0.Coords) : Fin τ.nSC := (L 0).castLE hcore0
abbrev jV (L : grid0.Coords) : Fin τ.nSub := (L 1).castLE hsub0

abbrev cellA : GSem nD τ sig := (V d (cV L) (jV L), .dma cc0_scratch3.sem)
abbrev cellB : GSem nD τ sig := (V d (cV L) (jV L), .dma cc0_scratch4.sem)
abbrev cellC : GSem nD τ sig := (V d (cV L) (jV L), .dma cc0_scratch5.sem)
abbrev cellD : GSem nD τ sig := (V d (cV L) (jV L), .dma cc0_scoped0.sem)

omit [FloatOps F] in
theorem ownSems0_V :
    (ownSems0 (V d (cV L) (jV L)) : sProp 𝕄)
      = iprop(semVal (cellA d L) 0 ∗ semVal (cellB d L) 0 ∗ semVal (cellC d L) 0 ∗ semVal (cellD d L) 0
          ∗ bigSep (((((ownCells (V d (cV L) (jV L))).erase (cellA d L)).erase (cellB d L)).erase (cellC d L)).erase (cellD d L))
              fun g => semVal g 0) := by
  unfold SparseCore.Cfg.ownSems0
  rw [SparseCore.bigSep_erase' ((mem_ownCells (g := cellA d L)).mpr ⟨rfl, by
      show (SemLoc.dma cc0_scratch3.sem : SemLoc sig).isScoped .scVector = true; decide⟩),
    SparseCore.bigSep_erase' (Finset.mem_erase.mpr ⟨by simp [cellA, cellB]; decide, (mem_ownCells (g := cellB d L)).mpr ⟨rfl, by
      show (SemLoc.dma cc0_scratch4.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d L)).mpr ⟨rfl, by show (SemLoc.dma cc0_scratch5.sem : SemLoc sig).isScoped .scVector = true; decide⟩⟩⟩),
    SparseCore.bigSep_erase' (Finset.mem_erase.mpr ⟨by simp [cellC, cellD]; decide, Finset.mem_erase.mpr ⟨by simp [cellB, cellD]; decide,
      Finset.mem_erase.mpr ⟨by simp [cellA, cellD]; decide,
      (mem_ownCells (g := cellD d L)).mpr ⟨rfl, by show (SemLoc.dma cc0_scoped0.sem : SemLoc sig).isScoped .scVector = true; decide⟩⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
/-- The arrays as the tile's memrefs address them are the TensorCore's arrays. -/
theorem pts_sm (f : Buf (Elt F) (smLoc d)) :
    ((smW).view.loc (V d (cV L) (jV L)) ↦{fullShare} f : sProp 𝕄) = smLoc d ↦{fullShare} f := by
  simp only [Memref.view_whole, View.set_whole]
omit [FloatOps F] in
theorem pts_ix (f : Buf (Elt F) (iLoc d)) :
    ((ixW).view.loc (V d (cV L) (jV L)) ↦{fullShare} f : sProp 𝕄) = iLoc d ↦{fullShare} f := by
  simp only [Memref.view_whole, View.set_whole]
omit [FloatOps F] in
theorem pts_fl (f : Buf (Elt F) (fillLoc d)) :
    ((flW).view.loc (V d (cV L) (jV L)) ↦{fullShare} f : sProp 𝕄) = fillLoc d ↦{fullShare} f := by
  simp only [Memref.view_whole, View.set_whole]
omit [FloatOps F] in
theorem pts_tb (f : Buf (Elt F) (tLoc d)) :
    ((tbW).view.loc (V d (cV L) (jV L)) ↦{fullShare} f : sProp 𝕄) = tLoc d ↦{fullShare} f := by
  simp only [Memref.view_whole, View.set_whole]
omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sS (f : Buf (Elt F) ((V d (cV L) (jV L)).loc cc0_scratch1)) :
    ((sS).view.loc (V d (cV L) (jV L)) ↦{fullShare} f : sProp 𝕄) = (V d (cV L) (jV L)).loc cc0_scratch1 ↦{fullShare} f := rfl
omit [FloatOps F] in
theorem pts_sT (f : Buf (Elt F) ((V d (cV L) (jV L)).loc cc0_scratch2)) :
    ((sT).view.loc (V d (cV L) (jV L)) ↦{fullShare} f : sProp 𝕄) = (V d (cV L) (jV L)).loc cc0_scratch2 ↦{fullShare} f := rfl

/-! ## The table's contents through the loop -/

/-- Position `128 t - 1` of the scattered vector, the last one the first `t` trips store (wrapped into range). -/
def posAt (t : Nat) : Fin 4096 := ⟨(128 * t - 1) % 4096, Nat.mod_lt _ (by decide)⟩

/-- The table with slot 1 rewritten to position `p` of the scattered vector. -/
def upd (fs : Vec F S4096 .f32) (ft : Vec F S2048 .f32) (p : Fin 4096) : Vec F S2048 .f32 :=
  fun j => if (j 0).val = 1 then fs (ix1 p) else ft j

/-- The table after `t` trips: slot 1 at the last value stored so far (once a trip has run), the fill elsewhere. -/
def tblAt (fs : Vec F S4096 .f32) (fl : Vec F S2048 .f32) (t : Nat) : Vec F S2048 .f32 :=
  fun j => if (j 0).val = 1 ∧ 0 < t then fs (ix1 (posAt t)) else fl j

omit [FloatOps F] in
theorem tblAt_zero (fs : Vec F S4096 .f32) (fl : Vec F S2048 .f32) : tblAt fs fl 0 = fl := by
  funext j; unfold tblAt; rw [if_neg (fun h => Nat.lt_irrefl 0 h.2)]

omit [FloatOps F] in
theorem upd_upd (fs : Vec F S4096 .f32) (ft : Vec F S2048 .f32) (p q : Fin 4096) : upd fs (upd fs ft p) q = upd fs ft q := by
  funext j; unfold upd; split <;> rfl

omit [FloatOps F] in
/-- A trip's last store puts position `128 t + 127` in slot 1: the table after `t + 1` trips. -/
theorem upd_tblAt (fs : Vec F S4096 .f32) (fl : Vec F S2048 .f32) (t : Nat) (h : 128 * t + 127 < 4096) :
    upd fs (tblAt fs fl t) ⟨128 * t + 127, h⟩ = tblAt fs fl (t + 1) := by
  funext j; unfold upd tblAt
  by_cases hj : (j 0).val = 1
  · rw [if_pos hj, if_pos ⟨hj, Nat.succ_pos t⟩]
    congr 2; apply Fin.ext
    show 128 * t + 127 = (128 * (t + 1) - 1) % 4096
    omega
  · rw [if_neg hj, if_neg (fun h => hj h.1), if_neg (fun h => hj h.1)]

omit [FloatOps F] in
/-- After the 32 trips slot 1 holds the last value of the scattered vector: the table both programs mean. -/
theorem tblAt_last (fs : Vec F S4096 .f32) (fl : Vec F S2048 .f32) : tblAt fs fl 32 = Cert.Spec.table fl fs := by
  funext j; unfold tblAt Cert.Spec.table
  by_cases hj : (j 0).val = 1
  · rw [if_pos ⟨hj, by decide⟩, if_pos hj]; rfl
  · rw [if_neg (fun h => hj h.1), if_neg hj]

omit [FloatOps F] in
/-- An index vector of ones names slots of the table. -/
theorem ones_inb (v : IVec S16 32) (hv : ∀ x, v x = 1#32) : ∀ a x, ((![v] : Fin 1 → IVec S16 32) a x).toNat < S2048.size a := by
  intro a x
  obtain rfl : a = 0 := Subsingleton.elim _ _
  show (v x).toNat < 2048
  rw [hv]; decide

/-! ## One indexed store of sixteen lanes -/

-- the table scratch's whole rectangle, spelt over the buffer's own shape as the indexed store's rule spells it
abbrev wT : Rect (cc0_scratch2 : Ref sig .scVector).ty.shape := Rect.whole _

omit [FloatOps F] in
theorem pts_sT_whole (f : Buf (Elt F) ((V d (cV L) (jV L)).loc cc0_scratch2)) :
    (((sT).access wT).loc (V d (cV L) (jV L)) ↦[((sT).access wT).set]{fullShare} f : sProp 𝕄)
      = (sT).view.loc (V d (cV L) (jV L)) ↦{fullShare} f := by
  rw [show ((sT).access wT).set = Finset.univ from Memref.set_access_whole (cc0_scratch2 : Ref sig .scVector)]

omit [FloatOps F] in
/-- Sixteen words read at an offset of the index scratch are ones when all its words are. -/
theorem readAt_sI (off : Fin 1 → Nat) (hoff : ∀ a, off a + S16.size a ≤ S4096.size a)
    (fi : Buf (Elt F) ((V d (cV L) (jV L)).loc cc0_scratch0)) (hfi : ∀ j, fi j = 1#32) (x : S16.Idx) :
    (sI).view.readAt (Elt F) (Rect.unit (s := S4096) off S16.size hoff).toLoadRect fi x = 1#32 := by
  simp only [View.readAt_apply, Memref.view_whole, View.read_whole]
  exact hfi _

omit [FloatOps F] in
/-- Where lane `x` of a sixteen-lane read at an offset falls. -/
theorem unit_idx (off : Fin 1 → Nat) (hoff : ∀ a, off a + S16.size a ≤ S4096.size a) (x : S16.Idx) (hx : off 0 + (x 0).val < 4096) :
    (Rect.unit (s := S4096) off S16.size hoff).toLoadRect.idx x = ix1 ⟨off 0 + (x 0).val, hx⟩ := by
  funext a; apply Fin.ext
  rw [LoadRect.idx_apply, Subsingleton.elim a 0]
  show off 0 + 1 * (x 0).val = off 0 + (x 0).val
  rw [Nat.one_mul]

omit [FloatOps F] in
/-- Lane `x` of sixteen values read at an offset of the value scratch is the value at the offset plus `x`. -/
theorem readAt_sS (off : Fin 1 → Nat) (hoff : ∀ a, off a + S16.size a ≤ S4096.size a)
    (fs : Buf (Elt F) ((V d (cV L) (jV L)).loc cc0_scratch1)) (x : S16.Idx) (hx : off 0 + (x 0).val < 4096) :
    (sS).view.readAt (Elt F) (Rect.unit (s := S4096) off S16.size hoff).toLoadRect fs x = fs (ix1 ⟨off 0 + (x 0).val, hx⟩) := by
  simp only [View.readAt_apply, Memref.view_whole, View.read_whole]
  rw [unit_idx off hoff x hx]

theorem off_lt {off : Fin 1 → Nat} (hoff : ∀ a, off a + S16.size a ≤ S4096.size a) : off 0 + 15 < 4096 := by
  have h : off 0 + 16 ≤ 4096 := hoff 0
  omega

/-- What one indexed store leaves in the table scratch: slot 1 at the last of the sixteen values read. -/
theorem store_eq (off : Fin 1 → Nat) (hoff : ∀ a, off a + S16.size a ≤ S4096.size a)
    (fi : Buf (Elt F) ((V d (cV L) (jV L)).loc cc0_scratch0)) (hfi : ∀ j, fi j = 1#32)
    (fs : Buf (Elt F) ((V d (cV L) (jV L)).loc cc0_scratch1)) (ft : Buf (Elt F) ((V d (cV L) (jV L)).loc cc0_scratch2))
    (h : ∀ a x, ((![(sI).view.readAt (Elt F) (Rect.unit (s := S4096) off S16.size hoff).toLoadRect fi] : Fin 1 → IVec S16 32) a x).toNat < S2048.size a) :
    ((sT).access wT).write (Elt F) ft
        (storeIdx (((sT).access wT).read (Elt F) ft) ![(sI).view.readAt (Elt F) (Rect.unit (s := S4096) off S16.size hoff).toLoadRect fi]
          ((sS).view.readAt (Elt F) (Rect.unit (s := S4096) off S16.size hoff).toLoadRect fs) (fun _ => 1#1) false h) Finset.univ
      = upd fs ft ⟨off 0 + 15, off_lt hoff⟩ := by
  refine (Memref.write_access_whole_univ (Elt F) (cc0_scratch2 : Ref sig .scVector) _ _).trans ?_
  refine (Cert.ScatterOnes.storeIdx_all_one _ _ _ h (readAt_sI d L off hoff fi hfi) (by decide)).trans ?_
  funext j
  unfold upd
  by_cases hj : (j 0).val = 1
  · rw [if_pos hj, if_pos hj]
    exact readAt_sS d L off hoff fs _ _
  · rw [if_neg hj, if_neg hj]
    exact congrFun (Memref.read_access_whole (Elt F) (cc0_scratch2 : Ref sig .scVector) ft) j

/-- The table scratch as one indexed store leaves it, held as the store's rule states it. -/
theorem pts_store (off : Fin 1 → Nat) (hoff : ∀ a, off a + S16.size a ≤ S4096.size a)
    (fi : Buf (Elt F) ((V d (cV L) (jV L)).loc cc0_scratch0)) (hfi : ∀ j, fi j = 1#32)
    (fs : Buf (Elt F) ((V d (cV L) (jV L)).loc cc0_scratch1)) (ft : Buf (Elt F) ((V d (cV L) (jV L)).loc cc0_scratch2))
    (h : ∀ a x, ((![(sI).view.readAt (Elt F) (Rect.unit (s := S4096) off S16.size hoff).toLoadRect fi] : Fin 1 → IVec S16 32) a x).toNat < S2048.size a) :
    (((sT).access wT).loc (V d (cV L) (jV L)) ↦[((sT).access wT).set]{fullShare}
        (((sT).access wT).write (Elt F) ft
          (storeIdx (((sT).access wT).read (Elt F) ft) ![(sI).view.readAt (Elt F) (Rect.unit (s := S4096) off S16.size hoff).toLoadRect fi]
            ((sS).view.readAt (Elt F) (Rect.unit (s := S4096) off S16.size hoff).toLoadRect fs) (fun _ => 1#1) false h) Finset.univ) : sProp 𝕄)
      = (sT).view.loc (V d (cV L) (jV L)) ↦{fullShare} upd fs ft ⟨off 0 + 15, off_lt hoff⟩ := by
  rw [store_eq d L off hoff fi hfi fs ft h]
  exact pts_sT_whole d L _

/-- Sixteen index words read, their check, sixteen values read at the same offset, the indexed store: with the index
    scratch all ones the table scratch comes back with slot 1 at the value at the offset plus 15. -/
theorem group_rule {α : Type} (off : Fin 1 → Nat) (hoff : ∀ a, off a + S16.size a ≤ S4096.size a)
    (chk : IVec S16 32 → Prop) (dec : ∀ v, Decidable (chk v))
    (hidx : ∀ v, chk v → ∀ a x, ((![v] : Fin 1 → IVec S16 32) a x).toNat < S2048.size a)
    (hchk : ∀ v : IVec S16 32, (∀ x, v x = 1#32) → chk v)
    (kk : PUnit.{1} → Prog (TpuEff nD τ sig (Elt F) Λ₀ (.scVector (cV L) (jV L))) α) (Q : α → sProp 𝕄)
    (fi : Buf (Elt F) ((V d (cV L) (jV L)).loc cc0_scratch0)) (hfi : ∀ j, fi j = 1#32)
    (fs : Buf (Elt F) ((V d (cV L) (jV L)).loc cc0_scratch1)) (ft : Buf (Elt F) ((V d (cV L) (jV L)).loc cc0_scratch2))
    (hk : iprop(((sI).view.loc (V d (cV L) (jV L)) ↦{fullShare} fi) ∗ ((sS).view.loc (V d (cV L) (jV L)) ↦{fullShare} fs)
        ∗ ((sT).view.loc (V d (cV L) (jV L)) ↦{fullShare} upd fs ft ⟨off 0 + 15, off_lt hoff⟩))
      ⊢ wp frame (wpE (defs₀ (F := F)) 𝒱₀ (V d (cV L) (jV L)) none) Set.univ (kk ⟨⟩) Q) :
    iprop(((sI).view.loc (V d (cV L) (jV L)) ↦{fullShare} fi) ∗ ((sS).view.loc (V d (cV L) (jV L)) ↦{fullShare} fs)
        ∗ ((sT).view.loc (V d (cV L) (jV L)) ↦{fullShare} ft))
      ⊢ wp frame (wpE (defs₀ (F := F)) 𝒱₀ (V d (cV L) (jV L)) none) Set.univ
          (.op (.load sI (Rect.unit (s := S4096) off S16.size hoff).toLoadRect (View.loadsAt_vmem h_S16)) fun (v : Vec F S16 .i32) =>
            .op (.assume (chk v) (dec v)) fun hw =>
            .op (.load sS (Rect.unit (s := S4096) off S16.size hoff).toLoadRect (View.loadsAt_vmem h_S16)) fun (w : Vec F S16 .f32) =>
            SparseCore.vectorStoreIdx sT ![v] w (fun _ => 1#1) false (hidx v hw.down) (View.stores_vmem_bits_univ h_S2048 rfl) >>= kk) Q := by
  iintro ⟨Hi, Hs, Ht⟩
  iapply (wp_load 𝒱₀ (V d (cV L) (jV L)) none Set.univ (m := sI) (S := Finset.univ) (Finset.subset_univ _)) $$ Hi; iintro Hi
  rw [wp_assume_of _ _ _ _ (hchk _ (readAt_sI d L off hoff fi hfi))]
  iapply (wp_load 𝒱₀ (V d (cV L) (jV L)) none Set.univ (m := sS) (S := Finset.univ) (Finset.subset_univ _)) $$ Hs; iintro Hs
  ihave Ht' := (Entails.of_eq (pts_sT_whole (F := F) d L _).symm) $$ Ht
  iapply (SparseCore.wp_vectorStoreIdx 𝒱₀ (V d (cV L) (jV L)) none Set.univ (base := sT)) $$ Ht'; iintro Ht
  iapply hk
  isplitl [Hi]; · iexact Hi
  isplitl [Hs]; · iexact Hs
  istop
  exact Entails.of_eq (pts_store (F := F) d L off hoff fi hfi fs ft _)

/-! ## One trip of the loop -/

/-- A trip's eight stores: the table scratch goes from its state after `t` trips to its state after `t + 1`. -/
theorem trip (hL : k0_cond1 L = 1#1)
    (fi : Buf (Elt F) ((V d (cV L) (jV L)).loc cc0_scratch0)) (hfi : ∀ j, fi j = 1#32)
    (fs : Buf (Elt F) ((V d (cV L) (jV L)).loc cc0_scratch1)) (t : Fin k0_t1_loop.trips) :
    iprop(((sI).view.loc (V d (cV L) (jV L)) ↦{fullShare} fi) ∗ ((sS).view.loc (V d (cV L) (jV L)) ↦{fullShare} fs)
        ∗ ((sT).view.loc (V d (cV L) (jV L)) ↦{fullShare} tblAt fs (fillV (F := F)) t.val))
      ⊢ wp frame (wpE (defs₀ (F := F)) 𝒱₀ (V d (cV L) (jV L)) none) Set.univ
          (k0_t1_body L smW (Memref.isWhole_whole _) ixW (Memref.isWhole_whole _) flW (Memref.isWhole_whole _) tbW (Memref.isWhole_whole _)
            sI (Memref.isWhole_whole _) sS (Memref.isWhole_whole _) sT (Memref.isWhole_whole _) cc0_scratch3 cc0_scratch4 cc0_scratch5 cc0_scoped0 hL t ⟨⟩)
          fun _ => (iprop(((sI).view.loc (V d (cV L) (jV L)) ↦{fullShare} fi) ∗ ((sS).view.loc (V d (cV L) (jV L)) ↦{fullShare} fs)
            ∗ ((sT).view.loc (V d (cV L) (jV L)) ↦{fullShare} tblAt fs (fillV (F := F)) (t.val + 1))) : sProp 𝕄) := by
  have ht : t.val < 32 := Nat.lt_of_lt_of_le t.isLt k0_t1_abs.2.1
  have h8 : 128 * t.val + 127 < 4096 := by omega
  have e8 : (⟨k0_off8 t 0 + 15, off_lt (k0_off8_inb L t hL)⟩ : Fin 4096) = ⟨128 * t.val + 127, h8⟩ := by
    apply Fin.ext; show k0_off8 t 0 + 15 = 128 * t.val + 127; rw [k0_off8_eq]; rfl
  unfold k0_t1_body
  rw [k0_part1_eq_skeleton]; unfold k0_part1_skel
  simp only [Prog.lift, Prog.bind_op, Prog.bind_ret, Prog.pure_eq_ret, bind_assoc]
  refine group_rule d L (k0_off1 t) (k0_off1_inb L t hL) (k0_chk1 L) (k0_chk1.dec L) (fun v hw => k0_idx1_inb L v hw hL)
    (fun v hv _ => ones_inb v hv) _ _ fi hfi fs _ ?_
  refine group_rule d L (k0_off2 t) (k0_off2_inb L t hL) (k0_chk2 L) (k0_chk2.dec L) (fun v hw => k0_idx2_inb L v hw hL)
    (fun v hv _ => ones_inb v hv) _ _ fi hfi fs _ ?_
  refine group_rule d L (k0_off3 t) (k0_off3_inb L t hL) (k0_chk3 L) (k0_chk3.dec L) (fun v hw => k0_idx3_inb L v hw hL)
    (fun v hv _ => ones_inb v hv) _ _ fi hfi fs _ ?_
  refine group_rule d L (k0_off4 t) (k0_off4_inb L t hL) (k0_chk4 L) (k0_chk4.dec L) (fun v hw => k0_idx4_inb L v hw hL)
    (fun v hv _ => ones_inb v hv) _ _ fi hfi fs _ ?_
  refine group_rule d L (k0_off5 t) (k0_off5_inb L t hL) (k0_chk5 L) (k0_chk5.dec L) (fun v hw => k0_idx5_inb L v hw hL)
    (fun v hv _ => ones_inb v hv) _ _ fi hfi fs _ ?_
  refine group_rule d L (k0_off6 t) (k0_off6_inb L t hL) (k0_chk6 L) (k0_chk6.dec L) (fun v hw => k0_idx6_inb L v hw hL)
    (fun v hv _ => ones_inb v hv) _ _ fi hfi fs _ ?_
  refine group_rule d L (k0_off7 t) (k0_off7_inb L t hL) (k0_chk7 L) (k0_chk7.dec L) (fun v hw => k0_idx7_inb L v hw hL)
    (fun v hv _ => ones_inb v hv) _ _ fi hfi fs _ ?_
  refine group_rule d L (k0_off8 t) (k0_off8_inb L t hL) (k0_chk8 L) (k0_chk8.dec L) (fun v hw => k0_idx8_inb L v hw hL)
    (fun v hv _ => ones_inb v hv) _ _ fi hfi fs _ ?_
  rw [upd_upd, upd_upd, upd_upd, upd_upd, upd_upd, upd_upd, upd_upd, e8, upd_tblAt]
  iintro ⟨Hi, Hs, Ht⟩
  rw [wp_ret]; imodintro
  isplitl [Hi]; · iexact Hi
  isplitl [Hs]; · iexact Hs
  iexact Ht

/-! ## The task of the tile that takes the branch -/

omit [FloatOps F] in
theorem pts_eq {ℓ : Loc nD τ sig} {f g : Buf (Elt F) ℓ} (h : f = g) : (ℓ ↦{fullShare} f : sProp 𝕄) = ℓ ↦{fullShare} g := by rw [h]

theorem trips_eq : k0_t1_loop.trips = 32 := by decide

/-- The loop's invariant: the index scratch and the value scratch as their transfers left them, the table scratch at its
    state after `t` trips. -/
def inv (fi : Buf (Elt F) ((V d (cV L) (jV L)).loc cc0_scratch0)) (fs : Buf (Elt F) ((V d (cV L) (jV L)).loc cc0_scratch1))
    (t : Nat) (_ : PUnit) : sProp 𝕄 :=
  iprop(((sI).view.loc (V d (cV L) (jV L)) ↦{fullShare} fi) ∗ ((sS).view.loc (V d (cV L) (jV L)) ↦{fullShare} fs)
    ∗ ((sT).view.loc (V d (cV L) (jV L)) ↦{fullShare} tblAt fs (fillV (F := F)) t))

/-- The kernel on the tile whose coordinates take the branch: three transfers in and their waits, the 32 trips by the
    invariant, the transfer out and its wait; the result array comes back at the table. -/
theorem body₀ (hpre : PreOK m) (hL : k0_cond1 L = 1#1) (O : CellTallies nD τ sig (HIx 1)) (W : Waits sig (HIx 1)) (hO : ∀ g, O g none = 0) :
    iprop(levAts (K (F := F)).L (K (F := F)).lev ∗ emp ∗ opsIn m d
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_build L smW (Memref.isWhole_whole _) ixW (Memref.isWhole_whole _) flW (Memref.isWhole_whole _) tbW (Memref.isWhole_whole _)
            sI (Memref.isWhole_whole _) sS (Memref.isWhole_whole _) sT (Memref.isWhole_whole _) cc0_scratch3 cc0_scratch4 cc0_scratch5 cc0_scoped0)
          fun _ => iprop(opsOut m d ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_build_eq_skeleton]; unfold cc0_build_skel
  rw [(K (F := F)).scopedBufs_V facts d (cV L) (jV L), SparseCore.Cfg.scopedSems0_V (Val := Elt F) d (cV L) (jV L), ownSems0_V, ownBufs_V]
  unfold opsIn opsOut
  iintro ⟨#Hlv, -, ⟨Hsm, Hix, Hfl, %ft, Htb⟩, ⟨⟨%f0, Hs0⟩, ⟨%f1, Hs1⟩, ⟨%f2, Hs2⟩, Hbufs⟩, ⟨HsemA, HsemB, HsemC, HsemD, Hsems⟩, HO⟩
  ihave Hmw := ((K (F := F)).mayWaits_none (thr := V d (cV L) (jV L)) hO) $$ Hlv
  ihave Hsm' := (Entails.of_eq (pts_sm (F := F) d L _).symm) $$ Hsm
  ihave Hix' := (Entails.of_eq (pts_ix (F := F) d L _).symm) $$ Hix
  ihave Hfl' := (Entails.of_eq (pts_fl (F := F) d L _).symm) $$ Hfl
  ihave Htb' := (Entails.of_eq (pts_tb (F := F) d L _).symm) $$ Htb
  ihave Hs0' := (Entails.of_eq (pts_sI (F := F) d L _).symm) $$ Hs0
  ihave Hs1' := (Entails.of_eq (pts_sS (F := F) d L _).symm) $$ Hs1
  ihave Hs2' := (Entails.of_eq (pts_sT (F := F) d L _).symm) $$ Hs2
  -- the three transfers in, each waited for
  sl_exec
  -- what they left: the index array, the widened values, the fill
  ihave Hi := (Entails.of_eq (pts_eq (ℓ := (sI).view.loc (V d (cV L) (jV L)))
    (f := View.write (Elt F) (sI).view f0 (body₀.sl.dma0 m d) Finset.univ) (g := m (iLoc d))
    (View.write_whole_univ (Val := Elt F) (cc0_scratch0 : Ref sig .scVector) f0 (m (iLoc d))))) $$ Hs0'
  ihave Hs := (Entails.of_eq (pts_eq (ℓ := (sS).view.loc (V d (cV L) (jV L)))
    (f := View.write (Elt F) (sS).view f1 (body₀.sl.dma0_1 m d) Finset.univ) (g := smV m d)
    (View.write_whole_univ (Val := Elt F) (cc0_scratch1 : Ref sig .scVector) f1 (smV m d)))) $$ Hs1'
  ihave Ht := (Entails.of_eq (pts_eq (ℓ := (sT).view.loc (V d (cV L) (jV L)))
    (f := View.write (Elt F) (sT).view f2 (body₀.sl.dma0_2 (F := F)) Finset.univ) (g := tblAt (smV m d) (fillV (F := F)) 0)
    ((View.write_whole_univ (Val := Elt F) (cc0_scratch2 : Ref sig .scVector) f2 (fillV (F := F))).trans (tblAt_zero (smV m d) _).symm))) $$ Hs2'
  sl_for (inv d L (m (iLoc d)) (smV m d)) $$ [Hi Hs Ht]
  case region =>
    intro k _
    exact trip d L hL (m (iLoc d)) (hpre d) (smV m d) k
  · unfold inv
    isplitl [Hi]; · iexact Hi
    isplitl [Hs]; · iexact Hs
    iexact Ht
  iintro %_ HI
  unfold inv
  icases HI with ⟨Hi, Hs, Ht⟩
  -- the transfer out and its wait
  sl_exec
  -- the result array holds what the table scratch held: the table after all 32 trips
  have e3 : tblAt (smV m d) (fillV (F := F)) (Scf.trips k0_t1_loop.lb k0_t1_loop.ub k0_t1_loop.st) = tblV m d :=
    (congrArg (tblAt (smV m d) (fillV (F := F))) trips_eq).trans (tblAt_last _ _)
  ihave Htb := (Entails.of_eq (pts_eq (ℓ := (tbW).view.loc (V d (cV L) (jV L)))
    (f := View.write (Elt F) (tbW).view ft (body₀.sl.dma0_3 m d) Finset.univ) (g := tblV m d)
    ((View.write_whole_univ (Val := Elt F) (main_v2_scv : Ref sig .scVector) ft _).trans e3))) $$ Htb'
  sl_step
  isplitl [Hsm' Hix' Hfl' Htb]
  · isplitl [Hsm']; · iapply (Entails.of_eq (pts_sm (F := F) d L _)); iexact Hsm'
    isplitl [Hix']; · iapply (Entails.of_eq (pts_ix (F := F) d L _)); iexact Hix'
    isplitl [Hfl']; · iapply (Entails.of_eq (pts_fl (F := F) d L _)); iexact Hfl'
    iapply (Entails.of_eq (pts_tb (F := F) d L _)); iexact Htb
  isplitl [Hi Hs Ht Hbufs]
  · isplitl [Hi]; · iexists _; iapply (Entails.of_eq (pts_sI (F := F) d L _)); iexact Hi
    isplitl [Hs]; · iexists _; iapply (Entails.of_eq (pts_sS (F := F) d L _)); iexact Hs
    isplitl [Ht]; · iexists _; iapply (Entails.of_eq (pts_sT (F := F) d L _)); iexact Ht
    iexact Hbufs
  isplitl [HsemA HsemB HsemC HsemD Hsems]
  · isplitl [HsemA]; · iexact HsemA
    isplitl [HsemB]; · iexact HsemB
    isplitl [HsemC]; · iexact HsemC
    isplitl [HsemD]; · iexact HsemD
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

/-- Every other tile: the branch not taken, nothing touched. -/
theorem body₁ (hL : ¬ k0_cond1 L = 1#1) (O : CellTallies nD τ sig (HIx 1)) (W : Waits sig (HIx 1)) :
    (iprop(levAts (K (F := F)).L (K (F := F)).lev ∗ emp ∗ emp
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_build L smW (Memref.isWhole_whole _) ixW (Memref.isWhole_whole _) flW (Memref.isWhole_whole _) tbW (Memref.isWhole_whole _)
            sI (Memref.isWhole_whole _) sS (Memref.isWhole_whole _) sT (Memref.isWhole_whole _) cc0_scratch3 cc0_scratch4 cc0_scratch5 cc0_scoped0)
          fun _ => (iprop(emp ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc0_build_eq_skeleton]; unfold cc0_build_skel
  iintro ⟨-, -, Hst, Hsb, Hss, HO⟩
  sl_exec
  sl_step
  isplitl [Hst]; · iexact Hst
  isplitl [Hsb]; · iexact Hsb
  isplitl [Hss]; · iexact Hss
  iexists W; isplitr
  · ipureintro; exact fun p hp => .inl hp
  · iexact HO

end Body

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_build (coordsV c s)
          smW (Memref.isWhole_whole _) ixW (Memref.isWhole_whole _) flW (Memref.isWhole_whole _) tbW (Memref.isWhole_whole _)
          sI (Memref.isWhole_whole _) sS (Memref.isWhole_whole _) sT (Memref.isWhole_whole _) cc0_scratch3 cc0_scratch4 cc0_scratch5 cc0_scoped0) ⟨⟩ c s := rfl

/-- The branch is taken on tile 0 of SparseCore 0 alone. -/
theorem cond_iff : ∀ (c : Fin (grid0.bound 0)) (s : Fin (grid0.bound 1)), k0_cond1 (coordsV c s) = 1#1 ↔ (c.val = 0 ∧ s.val = 0) := by decide

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

open Tile in
/-- `TileObl` at call 0: tile 0 of SparseCore 0 builds the table, every other tile returns at once. -/
theorem tileObl (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  show iprop(_ ∗ _ ∗ forTile m d c.val i.val ∗ _) ⊢ wp _ _ _ _ (fun _ => iprop(backTile m d c.val i.val ∗ _))
  by_cases h : c.val = 0 ∧ i.val = 0
  · rw [show forTile m d c.val i.val = opsIn m d from if_pos h, show backTile m d c.val i.val = opsOut m d from if_pos h]
    exact (body₀ m d (coordsV ⟨_, hc.1⟩ ⟨_, hc.2⟩) hpre ((cond_iff _ _).mpr h) O W hO).trans (wp_mono frame _ _ fun _ => obl_post)
  · rw [show forTile m d c.val i.val = iprop(emp) from if_neg h, show backTile m d c.val i.val = iprop(emp) from if_neg h]
    exact (body₁ d (coordsV ⟨_, hc.1⟩ ⟨_, hc.2⟩) (fun e => h ((cond_iff _ _).mp e)) O W).trans (wp_mono frame _ _ fun _ => obl_post)

end Cert.Proof.KernelIdeal

end
-- ==== Proof.KernelIdealRegion.lean ====
/-
  The TensorCore region of the kernel program: the pipeline's proof data, the body's triple and obligation,
  what the result array holds after the run, and the region as a segment of @main.

  The region scales the array `x` by the 16 x 128 table: at grid point (b, hb) it stages the block of `x` at batch b,
  heads 4 hb .. 4 hb + 3, reads rows 4 hb .. 4 hb + 3 of the table (staged whole, once), multiplies the block
  lane by lane by the rows broadcast along the sequence axis, and writes the product back as the same block of
  the result.
-/
import proofs.«213798_g80290118632062_cont_sun_m_155_14_alg».proof.Proof.KernelIdealCommon
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.Proof.KernelIdeal

open Cert.KernelIdeal Cert.KernelIdeal.Gen

open Idealize.ShloMosaic Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- The arrays' contents when the region is entered, per device, and the generator registers.
variable (Vr : (d : Dev nD) → (b : Ref sig .tc) → Buf (Elt F) ((d.tc : Thread nD τ).loc b)) (ρ : Dev nD → PrngReg)

/-! ## The invariant and the windows' blocks -/

/-- The region's invariant on device `d`: the scoped buffers no window stages, and the generator register at some
    state; the body uses neither. -/
def ΦR (d : Dev nD) : sProp 𝕄 :=
  iprop(Pipeline.scopedRest (Ix := HIx 1) (Name := ℕ) (U := UU) (Lvl := ℕ) (Val := Elt F) spec1 d ∗ ∃ r, prngReg d r)

/-- Window `w`'s block at point `t`, read off its array as the region finds it. -/
def iblk (d : Dev nD) (w : Fin cfg1.W) (t : Fin cfg1.N) : ((cfg1.win w).xblock (cfg1.grid.coords t)).Idx → Elt F (cfg1.win w).elt :=
  ((cfg1.win w).blk t).view.read (Elt F) (Vr d (Pipeline.arrRef spec1 w))

/-! ## The body's accesses, and what it leaves in the result's staging buffer -/

/-- The whole block. -/
abbrev rB : Rect S1x4x4096x128 := Rect.unit (s := S1x4x4096x128) ![0, 0, 0, 0] S1x4x4096x128.size inb_S1x4x4096x128_S1x4x4096x128_0_0_0_0
/-- The four rows of the table the point reads. -/
abbrev rT (i : grid1.Coords) : Rect S16x128 := Rect.unit (s := S16x128) (k1_off1 i) S4x128.size (k1_off1_inb i)

/-- The result window's staging buffer after the body at coordinates `i`, from the block of `x` and the table: the one
    store as a piece. -/
def out1_2 (i : grid1.Coords) (x0 : Vec F S1x4x4096x128 .f32) (x1 : Vec F S16x128 .f32) : Vec F S1x4x4096x128 .f32 :=
  View.canon [⟨rB, k1_pay1 (View.ld x1 (rT i)) (View.ld x0 rB)⟩]

/-! ## The pipeline's proof data -/

/-- The proof data on device `d`: the arrays as the region finds them; after the body at point `t` each input's buffer at
    its block and the result's at `out1_2` of them; the invariant; nothing owed; full shares. -/
def dats (_ : Fin 1) (d : Dev nD) : Dat τ (Elt F) (HIx 1) ℕ UU ℕ cfg1 d where
  A w := Vr d (Pipeline.arrRef spec1 w)
  after w t := match w with
    | ⟨0, _⟩ => iblk Vr d 0 t
    | ⟨1, _⟩ => iblk Vr d 1 t
    | ⟨2, _⟩ => out1_2 (grid1.coords t) (iblk Vr d 0 t) (iblk Vr d 1 t)
  Φ _ := ΦR d
  q _ := fullShare
  owed _ := 0

/-- The proof data's arrays are the region-entry contents. -/
theorem A_eq (d : Dev nD) (w : Fin cfg1.W) : (dats Vr 0 d).A w = Vr d (Pipeline.arrRef spec1 w) := by
  dsimp only [dats]

/-- What the body leaves, window by window. -/
theorem after1_0 (d : Dev nD) (t : Fin cfg1.N) : (dats Vr 0 d).after 0 t = iblk Vr d 0 t := by dsimp only [dats]
theorem after1_1 (d : Dev nD) (t : Fin cfg1.N) : (dats Vr 0 d).after 1 t = iblk Vr d 1 t := by dsimp only [dats]
theorem after1_2 (d : Dev nD) (t : Fin cfg1.N) :
    (dats Vr 0 d).after 2 t = out1_2 (grid1.coords t) (iblk Vr d 0 t) (iblk Vr d 1 t) := by dsimp only [dats]

/-- Each input's current staging buffer holds its block at every point, fetched there or not: an input the body leaves
    in place keeps its block while its block index does not move. -/
theorem before1_0 (d : Dev nD) (t : Fin cfg1.N) (y) : (dats Vr 0 d).before 0 t y = iblk Vr d 0 t :=
  ((dats Vr 0 d).before_in_eq_fetched 0 rfl (fun _ => rfl) (fun _ _ _ => rfl)
      (fun t => by rw [after1_0]; unfold Dat.blockOf iblk; rw [A_eq]; try rfl) t y).trans
    (by unfold Dat.fetched Dat.blockOf iblk; rw [A_eq]; try rfl)
theorem before1_1 (d : Dev nD) (t : Fin cfg1.N) (y) : (dats Vr 0 d).before 1 t y = iblk Vr d 1 t :=
  ((dats Vr 0 d).before_in_eq_fetched 1 rfl (fun _ => rfl) (fun _ _ _ => rfl)
      (fun t => by rw [after1_1]; unfold Dat.blockOf iblk; rw [A_eq]; try rfl) t y).trans
    (by unfold Dat.fetched Dat.blockOf iblk; rw [A_eq]; try rfl)

/-! ## The body's triple -/

/-- The one store covers the result's staging buffer. -/
theorem cover1_2 (p0 : Vec F S1x4x4096x128 .f32) (y : S1x4x4096x128.Idx) :
    ∃ pc ∈ ([⟨rB, p0⟩] : List (View.Piece (Elt F) S1x4x4096x128 .f32)), y ∈ pc.1.set :=
  View.cover_of_tiled [⟨rB, p0⟩] S1x4x4096x128.size (by rfl) y

set_option maxHeartbeats 1000000 in
/-- The kernel body on whole staging memrefs, the inputs' at contents `x0`, `x1` and the result's at anything, runs to the
    continuation holding the inputs' as they were and the result's at `out1_2` of them. -/
theorem sound_kernel (d : Dev nD) (E : Set ℕ) (i : grid1.Coords)
    (arg2 : Memref sig .tc .vmem S1x4x4096x128 .f32) (harg2 : arg2.IsWhole) (arg3 : Memref sig .tc .vmem S16x128 .f32) (harg3 : arg3.IsWhole)
    (arg4 : Memref sig .tc .vmem S1x4x4096x128 .f32) (harg4 : arg4.IsWhole)
    (x0 : Vec F S1x4x4096x128 .f32) (x1 : Vec F S16x128 .f32) (Kc : PUnit → sProp 𝕄) :
    iprop(owns (d.tc : Thread nD τ) arg2 fullShare x0 ∗ owns (d.tc : Thread nD τ) arg3 fullShare x1 ∗ (∃ y, owns (d.tc : Thread nD τ) arg4 fullShare y)
        ∗ (iprop(owns (d.tc : Thread nD τ) arg2 fullShare x0 ∗ owns (d.tc : Thread nD τ) arg3 fullShare x1
            ∗ owns (d.tc : Thread nD τ) arg4 fullShare (out1_2 i x0 x1)) -∗ Kc ⟨⟩))
      ⊢ wp frame (wpE (defs₀ (F := F)) Variants.none (d.tc : Thread nD τ) none) E (cc1_body i arg2 harg2 arg3 harg3 arg4 harg4) Kc := by
  simp only [cc1_body_eq_skeleton]; unfold cc1_body_skel
  unfold owns
  iintro ⟨⟨%f0, %hf0, H0⟩, ⟨%f1, %hf1, H1⟩, ⟨%y2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body obligation -/

/-- What the body is called with at point `t`, -/
def bodyPre (d : Dev nD) (t : Fin cfg1.N) : sProp 𝕄 :=
  iprop((dats Vr 0 d).Φ t.castSucc ∗ (dats Vr 0 d).owesAt (none : HIx 1) t.castSucc
    ∗ (∃ y, owns (d.tc : Thread nD τ) (st1_0 t) fullShare ((dats Vr 0 d).before 0 t y))
    ∗ (∃ y, owns (d.tc : Thread nD τ) (st1_1 t) fullShare ((dats Vr 0 d).before 1 t y))
    ∗ (∃ y, owns (d.tc : Thread nD τ) (st1_2 t) fullShare ((dats Vr 0 d).before 2 t y)))

/-- and what it returns. -/
def bodyPost (d : Dev nD) (t : Fin cfg1.N) : sProp 𝕄 :=
  iprop((dats Vr 0 d).Φ t.succ ∗ (dats Vr 0 d).owesAt (none : HIx 1) t.succ
    ∗ owns (d.tc : Thread nD τ) (st1_0 t) fullShare ((dats Vr 0 d).after 0 t)
    ∗ owns (d.tc : Thread nD τ) (st1_1 t) fullShare ((dats Vr 0 d).after 1 t)
    ∗ owns (d.tc : Thread nD τ) (st1_2 t) fullShare ((dats Vr 0 d).after 2 t))

/-- The body at any point: the inputs' staging buffers hold their blocks, so the body's triple applies; the invariant
    and what the core owes pass through unread. -/
theorem sound_body (d : Dev nD) (t : Fin cfg1.N) :
    bodyPre Vr d t ⊢ wp frame (wpE (defs₀ (F := F)) Variants.none (d.tc : Thread nD τ) none) Set.univ (bodyAt1 t) (fun _ => bodyPost Vr d t) := by
  unfold bodyPre bodyPost bodyAt1
  simp only [before1_0, before1_1]
  rw [show (dats Vr 0 d).Φ t.succ = (dats Vr 0 d).Φ t.castSucc from rfl,
    show (dats Vr 0 d).owesAt (none : HIx 1) t.succ = (dats Vr 0 d).owesAt (none : HIx 1) t.castSucc from rfl,
    after1_0, after1_1, after1_2]
  iintro ⟨HΦ, Ho, ⟨%y0, H0⟩, ⟨%y1, H1⟩, ⟨%y2, H2⟩⟩
  iapply (sound_kernel d Set.univ (grid1.coords t) _ _ _ _ _ _ (iblk Vr d 0 t) (iblk Vr d 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (d : Dev nD) : BodyObligation (dats (F := F) Vr 0 d) (defs₀ (F := F)) 𝒱₀ (none : HIx 1) Set.univ := fun t => by
  rw [bigSep_W1, bigSep_W1]
  exact sound_body Vr d t

/-! ## The value -/

theorem final_x (d : Dev nD) : (dats Vr 0 d).arrAt 0 cfg1.N = Vr d main_arg0 :=
  ((dats Vr 0 d).arrAt_in 0 rfl _).trans (A_eq Vr d 0)
theorem final_h (d : Dev nD) : (dats Vr 0 d).arrAt 1 cfg1.N = Vr d main_v3 :=
  ((dats Vr 0 d).arrAt_in 1 rfl _).trans (A_eq Vr d 1)

/-- The body's payload at an index: the block's element times the lane of the table row of its head. -/
theorem pay1_apply (v2 : Vec F S4x128 .f32) (v5 : Vec F S1x4x4096x128 .f32) (j : S1x4x4096x128.Idx) :
    k1_pay1 v2 v5 j = FloatOps.mulf (v5 j) (v2 (ix2 (n0 := 4) (n1 := 128) (j 1) (j 3))) := by
  unfold k1_pay1
  show FloatOps.mulf (v5 j) (broadcastTo S1x4x4096x128 (shapeCast S1x4x1x128 (shapeCast S4x128 v2 _) _) _ j) = _
  congr 1
  refine (broadcastTo_apply _ _ j (ix4 (n0 := 1) (n1 := 4) (n2 := 1) (n3 := 128) 0 (j 1) 0 (j 3))
    (fun a => match a with | ⟨0, _⟩ => rfl | ⟨1, _⟩ => rfl | ⟨2, _⟩ => rfl | ⟨3, _⟩ => rfl)).trans ?_
  refine (shapeCast_apply _ _ _ (ix2 (n0 := 4) (n1 := 128) (j 1) (j 3))
    (by rw [Shape.rowMajor_val_two, Shape.rowMajor_val_four]
        show (j 1).val * 128 + (j 3).val = ((0 * 4 + (j 1).val) * 1 + 0) * 128 + (j 3).val
        omega)).trans ?_
  rw [shapeCast_self]

theorem hz4 : (![0, 0, 0, 0] : Fin 4 → Nat) = fun _ => 0 := funext fun a => by fin_cases a <;> rfl

/-- The printed index maps, decided over the grid: the block of `x` moves with the result's block; the table's block never
    moves; the result's block index is (batch, head block, 0, 0); the table rows read start at four times the head block. -/
theorem idx_facts : ∀ t : Fin cfg1.N, win1_0.index t = win1_2.index t
    ∧ win1_1.index t = ![0, 0]
    ∧ win1_2.index t = ![(grid1.coords t 0).val, (grid1.coords t 1).val, 0, 0]
    ∧ k1_off1 (grid1.coords t) = ![4 * (grid1.coords t 1).val, 0] :=
  (by decide +kernel : ∀ t : Fin grid1.N, _)

/-- Every (batch, head block) is some point's. -/
theorem idx_onto : ∀ (q0 : Fin 2) (q1 : Fin 4), ∃ t : Fin cfg1.N, win1_2.index t = ![q0.val, q1.val, 0, 0] :=
  (by decide +kernel : ∀ (q0 : Fin 2) (q1 : Fin 4), ∃ t : Fin grid1.N, win1_2.index t = ![q0.val, q1.val, 0, 0])

/-- What point `t` writes back is block `t` of `x` scaled by the table. -/
theorem flushed_eq (d : Dev nD) (t : Fin cfg1.N) :
    (dats Vr 0 d).flushed 2 t = ((cfg1.win 2).blk t).view.read (Elt F) (Cert.Spec.scaled (Vr d main_arg0) (Vr d main_v3)) := by
  show (cfg1.win 2).cut (grid1.coords t) ((dats Vr 0 d).after 2 t) = _
  rw [after1_2]
  unfold out1_2
  rw [View.canon_unit_zero hz4]
  simp only [View.ld_unit_zero (S := S1x4x4096x128) hz4]
  obtain ⟨e0, e1, e2, e3⟩ := idx_facts t
  funext j
  show k1_pay1 (View.ld (iblk Vr d 1 t) (rT (grid1.coords t))) (iblk Vr d 0 t) j
    = Cert.Spec.scaled (Vr d main_arg0) (Vr d main_v3) (((cfg1.win 2).blk t).view.emb j)
  rw [pay1_apply]
  show FloatOps.mulf (Vr d main_arg0 (((cfg1.win 0).blk t).view.emb j))
      (Vr d main_v3 (((cfg1.win 1).blk t).view.emb ((rT (grid1.coords t)).emb (ix2 (n0 := 4) (n1 := 128) (j 1) (j 3)))))
    = FloatOps.mulf (Vr d main_arg0 (((cfg1.win 2).blk t).view.emb j))
      (Vr d main_v3 (ix2 (n0 := 16) (n1 := 128) ((((cfg1.win 2).blk t).view.emb j) 1) ((((cfg1.win 2).blk t).view.emb j) 3)))
  have h0 : ((cfg1.win 0).blk t).view.emb j = ((cfg1.win 2).blk t).view.emb j := by
    funext a; apply Fin.ext
    match a with
    | ⟨0, _⟩ => show win1_0.index t (0 : Fin 4) * 1 + 1 * (j 0).val = win1_2.index t (0 : Fin 4) * 1 + 1 * (j 0).val; rw [e0]
    | ⟨1, _⟩ => show win1_0.index t (1 : Fin 4) * 4 + 1 * (j 1).val = win1_2.index t (1 : Fin 4) * 4 + 1 * (j 1).val; rw [e0]
    | ⟨2, _⟩ => show win1_0.index t (2 : Fin 4) * 4096 + 1 * (j 2).val = win1_2.index t (2 : Fin 4) * 4096 + 1 * (j 2).val; rw [e0]
    | ⟨3, _⟩ => show win1_0.index t (3 : Fin 4) * 128 + 1 * (j 3).val = win1_2.index t (3 : Fin 4) * 128 + 1 * (j 3).val; rw [e0]
  have h1 : ((cfg1.win 1).blk t).view.emb ((rT (grid1.coords t)).emb (ix2 (n0 := 4) (n1 := 128) (j 1) (j 3)))
      = ix2 (n0 := 16) (n1 := 128) ((((cfg1.win 2).blk t).view.emb j) 1) ((((cfg1.win 2).blk t).view.emb j) 3) := by
    funext a; apply Fin.ext
    match a with
    | ⟨0, _⟩ =>
      show win1_1.index t (0 : Fin 2) * 16 + 1 * (k1_off1 (grid1.coords t) (0 : Fin 2) + 1 * (j 1).val)
        = win1_2.index t (1 : Fin 4) * 4 + 1 * (j 1).val
      rw [e1, e2, e3]
      show 0 * 16 + 1 * (4 * (grid1.coords t 1).val + 1 * (j 1).val) = (grid1.coords t 1).val * 4 + 1 * (j 1).val
      omega
    | ⟨1, _⟩ =>
      show win1_1.index t (1 : Fin 2) * 128 + 1 * (k1_off1 (grid1.coords t) (1 : Fin 2) + 1 * (j 3).val)
        = win1_2.index t (3 : Fin 4) * 128 + 1 * (j 3).val
      rw [e1, e2, e3]
      show 0 * 128 + 1 * (0 + 1 * (j 3).val) = 0 * 128 + 1 * (j 3).val
      omega
  rw [h0, h1]

/-- An index of the array is in point `t`'s block iff each coordinate is in the block's range on its axis. -/
theorem mem_blk (t : Fin cfg1.N) (i : S2x16x4096x128.Idx) :
    i ∈ ((cfg1.win 2).blk t).view.set ↔ ∀ a : Fin 4, win1_2.index t a * S1x4x4096x128.size a ≤ (i a).val
      ∧ (i a).val < win1_2.index t a * S1x4x4096x128.size a + S1x4x4096x128.size a := by
  show i ∈ ((View.whole main_v4).slice (win1_2.rect t)).set ↔ _
  rw [View.set_slice_whole, Rect.mem_set_unit]
  exact Iff.rfl

/-- The result's blocks tile its array: the point at (batch, head / 4) covers the index. -/
theorem cover (i : S2x16x4096x128.Idx) :
    ∃ t : Fin cfg1.N, (cfg1.win 2).flush t = true ∧ i ∈ ((cfg1.win 2).blk t).view.set := by
  have hi0 : (i 0).val < 2 := (i 0).isLt
  have hi1 : (i 1).val < 16 := (i 1).isLt
  have hi2 : (i 2).val < 4096 := (i 2).isLt
  have hi3 : (i 3).val < 128 := (i 3).isLt
  obtain ⟨t, ht⟩ := idx_onto ⟨(i 0).val, hi0⟩ ⟨(i 1).val / 4, by omega⟩
  have q0 : win1_2.index t (0 : Fin 4) = (i 0).val := congrFun ht 0
  have q1 : win1_2.index t (1 : Fin 4) = (i 1).val / 4 := congrFun ht 1
  have q2 : win1_2.index t (2 : Fin 4) = 0 := congrFun ht 2
  have q3 : win1_2.index t (3 : Fin 4) = 0 := congrFun ht 3
  refine ⟨t, flush1_2 t, ?_⟩
  rw [mem_blk]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 4 ≤ (i 1).val ∧ (i 1).val < win1_2.index t (1 : Fin 4) * 4 + 4; omega
  | ⟨2, _⟩ => show win1_2.index t (2 : Fin 4) * 4096 ≤ (i 2).val ∧ (i 2).val < win1_2.index t (2 : Fin 4) * 4096 + 4096; omega
  | ⟨3, _⟩ => show win1_2.index t (3 : Fin 4) * 128 ≤ (i 3).val ∧ (i 3).val < win1_2.index t (3 : Fin 4) * 128 + 128; omega

/-- The result array after the run: `x` scaled by the table. -/
theorem final_out (d : Dev nD) : (dats Vr 0 d).arrAt 2 cfg1.N = Cert.Spec.scaled (Vr d main_arg0) (Vr d main_v3) :=
  (dats Vr 0 d).arrAt_eq_of_cover 2 (Cert.Spec.scaled (Vr d main_arg0) (Vr d main_v3)) (fun t _ => flushed_eq Vr d t) cover

/-! ## The region as a segment -/

abbrev adm : (p : Fin 1) → (pcfgs (F := F) p).Adm := fun p => (cfgs p).toPCfg_adm

def reg1 : Pipeline.RegionSeg (pcfgs (F := F)) adm (dats Vr) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody d := (body_obligation Vr d).loose
  hwaits := Pipeline.hwaits_of_owed_zero _ _ _ _ _ _ 0 fun _ _ => rfl
  pre d := iprop(unscopedBufs d (Vr d) ∗ prngReg d (ρ d) ∗ ∃ W, owes (d.tc : Thread nD τ) (0 : CellTallies nD τ sig (HIx 1)) W)
  post d := iprop((dats Vr 0 d).arrays ((dats Vr 0 d).arrAt · cfg1.N) ∗ Pipeline.unscopedRest spec1 d (Vr d) ∗ (∃ r, prngReg d r)
    ∗ ∃ W, owes (d.tc : Thread nD τ) (0 : CellTallies nD τ sig (HIx 1)) W)
  X d := prngReg d (ρ d)
  Y d := iprop(∃ r, prngReg d r)
  Z d := Pipeline.unscopedRest spec1 d (Vr d)
  hentry d := by
    have hsplit := Pipeline.arrays_of_unscopedBufs (pcfgs (F := F)) adm (dats Vr) launch1.win launch1.arr_whole d
      ((dats Vr 0 d).share_full fun _ => rfl) (Vr d) fun _ => rfl
    iintro ⟨⟨Hub, Hρ, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hρ]; · iexact Hρ
    iexact Hrest
  hin d := by
    rw [show (dats Vr 0 d).Φ 0 = ΦR d from rfl]; unfold ΦR
    iintro ⟨Hρ, -, Hr⟩
    isplitl [Hr]; · iexact Hr
    iexists _; iexact Hρ
  hout d := by
    rw [Pipeline.ownSems0_none, show (dats Vr 0 d).Φ (Fin.last cfg1.N) = ΦR d from rfl]; unfold ΦR
    iintro ⟨Hr, Hρ⟩
    isplitl [Hρ]; · iexact Hρ
    isplitr; · iempintro
    iexact Hr
  hexit d := by
    iintro ⟨Ha, HO, HY, HZ⟩
    imodintro
    isplitl [Ha]; · iexact Ha
    isplitl [HZ]; · iexact HZ
    isplitl [HY]; · iexact HY
    unfold Pipeline.Dat.owesAt Pipeline.owesWithin
    icases HO with ⟨%W, -, HO⟩; iexists W; iexact HO

end Cert.Proof.KernelIdeal

end
-- ==== Proof.KernelIdealEnter.lean ====
/-
  Entering the TensorCore region from @main: the region rule at the kernel's one pipeline, stated over this program's
  names with the region's entry and exit states spelt out.
-/
import proofs.«213798_g80290118632062_cont_sun_m_155_14_alg».proof.Proof.KernelIdealRegion

noncomputable section

namespace Cert.Proof.KernelIdeal

open Cert.KernelIdeal Cert.KernelIdeal.Gen

open Idealize.ShloMosaic Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (Vr : (d : Dev nD) → (b : Ref sig .tc) → Buf (Elt F) ((d.tc : Thread nD τ).loc b)) (ρ : Dev nD → PrngReg)

/-- The pipelines with no prefetched table, pinned at no table's contents, are the printed pipelines. -/
theorem pin_eq : Pipeline.pin (pcfgs (F := F)) adm = cfgs := rfl

/-- The state the region is entered from: the unscoped buffers at `Vr`, the generator register, the core owing nothing; -/
theorem reg1_pre (d : Dev nD) : (reg1 Vr ρ).pre d
    = iprop(unscopedBufs d (Vr d) ∗ prngReg d (ρ d) ∗ ∃ W, owes (d.tc : Thread nD τ) (0 : CellTallies nD τ sig (HIx 1)) W) := rfl
/-- and the one it leaves: the windows' arrays at their final contents, the other unscoped buffers as they were, the
    generator register at some state, the core owing nothing. -/
theorem reg1_post (d : Dev nD) : (reg1 Vr ρ).post d
    = iprop((dats Vr 0 d).arrays ((dats Vr 0 d).arrAt · cfg1.N) ∗ Pipeline.unscopedRest spec1 d (Vr d) ∗ (∃ r, prngReg d r)
      ∗ ∃ W, owes (d.tc : Thread nD τ) (0 : CellTallies nD τ sig (HIx 1)) W) := rfl

/-- The region rule at pipeline 0, under no host bound: from the boundary, the region's entry state, the level facts and the
    staging cells' ghost state, the call runs to the boundary and the region's exit state for the continuation. -/
theorem region_enter [∀ e, Nonempty (Elt F e)] (d : Dev nD) (Q : PUnit → sProp 𝕄) :
    iprop((iprop(boundary (d.tc : Thread nD τ)
              ∗ (dats Vr 0 d).arrays ((dats Vr 0 d).arrAt · cfg1.N) ∗ Pipeline.unscopedRest spec1 d (Vr d) ∗ (∃ r, prngReg d r)
              ∗ ∃ W, owes (d.tc : Thread nD τ) (0 : CellTallies nD τ sig (HIx 1)) W)
            -∗ wp frame (wpE (D (F := F)) 𝒱 (d.tc : Thread nD τ) none) Set.univ (.ret ⟨⟩) Q)
        ∗ boundary (d.tc : Thread nD τ)
        ∗ iprop(unscopedBufs d (Vr d) ∗ prngReg d (ρ d) ∗ ∃ W, owes (d.tc : Thread nD τ) (0 : CellTallies nD τ sig (HIx 1)) W)
        ∗ levAts (K (F := F)).L (K (F := F)).lev
        ∗ Pipeline.cellsGhost cfgs EP 0 d ∗ Pipeline.toksInit cfgs EP 0 d)
      ⊢ wp frame (wpE (D (F := F)) 𝒱 (d.tc : Thread nD τ) none) Set.univ (.op (.customCall (Pipeline.entry 0) ()) fun _ => .ret ⟨⟩) Q := by
  -- no host bound: nothing to compare the pipeline's trip count with
  have hv : ∀ u ∈ (none : Option (Variants.lift 𝒱₀).V),
      (Variants.lift 𝒱₀).lt (.inr ((Pipeline.pin (pcfgs (F := F)) adm 0).tripCount + 1)) u :=
    fun u hu => absurd hu (Option.not_mem_none u)
  have h := Pipeline.RegionSeg.wp (pcfgs (F := F)) adm (dats Vr) (none : HIx 1) cellOf_inj EP defs₀ 𝒱₀ (K (F := F)).L (K (F := F)).lev
    (reg1 Vr ρ) d none hv (fun _ => .ret ⟨⟩) Q
  rw [reg1_pre, reg1_post] at h
  exact h

end Cert.Proof.KernelIdeal

end
-- ==== Proof.KernelIdealSplit.lean ====
/-
  How the SparseCore call's operands split among a SparseCore's sixteen tiles, and how its results gather from theirs.

  Only tile 0 of SparseCore 0 works: the operands handed to a SparseCore all go to its tile 0 (SparseCore 1 is handed
  nothing, and so is its tile 0), every other tile gets nothing and gives nothing back, so the conjunction over the tiles
  is its one summand at tile 0.
-/
import proofs.«213798_g80290118632062_cont_sun_m_155_14_alg».proof.Proof.KernelIdealCommon

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-- Tile 0 of a SparseCore is handed what the SparseCore is handed, -/
theorem forTile_tile0 (d : Dev nD) (c : ℕ) : forTile m d c 0 = forCore m d c := by
  unfold forTile forCore
  by_cases h : c = 0
  · rw [if_pos ⟨h, rfl⟩, if_pos h]
  · rw [if_neg (fun h' => h h'.1), if_neg h]
/-- and hands back what the SparseCore hands back. -/
theorem backTile_tile0 (d : Dev nD) (c : ℕ) : backTile m d c 0 = backCore m d c := by
  unfold backTile backCore
  by_cases h : c = 0
  · rw [if_pos ⟨h, rfl⟩, if_pos h]
  · rw [if_neg (fun h' => h h'.1), if_neg h]

/-- The call's operands for a SparseCore go to its tile 0, its results come from its tile 0. -/
theorem vecSplit : (K (F := F)).VecSplit' (P m) 0 := by
  intro d c
  have h0 : 0 < (K (F := F)).nSub 0 := by rw [nSub_zero]; decide
  -- a conjunction over the tiles whose summands are empty off tile 0 is its summand at tile 0
  have only : ∀ (Φ : Fin ((K (F := F)).nSub 0) → sProp 𝕄), (∀ i, i.val ≠ 0 → Φ i = iprop(emp)) →
      bigSep Finset.univ Φ = Φ ⟨0, h0⟩ := by
    intro Φ h
    rw [BI.bigSep_erase (Finset.mem_univ (⟨0, h0⟩ : Fin ((K (F := F)).nSub 0))),
      BI.bigSep_congr (Ψ := fun _ => (BI.emp : sProp 𝕄))
        (fun i hi => h i (fun e => Finset.ne_of_mem_erase hi (Fin.ext e))),
      BI.bigSep_emp_const]
    exact equiv_iff.mp sep_emp
  show forCore m d c.val ⊢ |={Set.univ}=> iprop(
      (bigSep Finset.univ fun i : Fin ((K (F := F)).nSub 0) => forTile m d c.val i.val)
      ∗ ((bigSep Finset.univ fun i : Fin ((K (F := F)).nSub 0) => backTile m d c.val i.val) -∗ backCore m d c.val))
  rw [only (fun i => forTile m d c.val i.val) (fun i hi => forTile_ne m d (fun h => hi h.2)),
    only (fun i => backTile m d c.val i.val) (fun i hi => backTile_ne m d (fun h => hi h.2))]
  show forCore m d c.val ⊢ |={Set.univ}=> iprop(forTile m d c.val 0 ∗ (backTile m d c.val 0 -∗ backCore m d c.val))
  rw [forTile_tile0, backTile_tile0]
  iintro H; imodintro
  isplitl [H]; · iexact H
  iintro H; iexact H

end Cert.Proof.KernelIdeal

end
-- ==== Proof.KernelIdealLaunch.lean ====
/-
  The launch of the kernel program: its launch element, @main on the TensorCore, and the run.

  @main writes the scalar one, broadcasts it to the table's fill and widens `smooth` (three host operations), starts
  the SparseCore call and waits for it (the result array then holds `Spec.table` of the fill and the widened
  `smooth`), reshapes the table to 16 heads of 128 lanes (a fourth host operation), and enters the TensorCore region,
  which leaves `x` scaled by the table in the output array. The three arguments are written by nothing.
-/
import proofs.«213798_g80290118632062_cont_sun_m_155_14_alg».proof.Proof.KernelIdealCommon
import proofs.«213798_g80290118632062_cont_sun_m_155_14_alg».proof.Proof.KernelIdealTile
import proofs.«213798_g80290118632062_cont_sun_m_155_14_alg».proof.Proof.KernelIdealRegion
import proofs.«213798_g80290118632062_cont_sun_m_155_14_alg».proof.Proof.KernelIdealEnter
import proofs.«213798_g80290118632062_cont_sun_m_155_14_alg».proof.Proof.KernelIdealSplit
import proofs.«213798_g80290118632062_cont_sun_m_155_14_alg».proof.Proof.HeadsLayout

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The launch element: the handshakes' rounds and the region's staging rounds; no counter yet -/

def u₀ : UU := (initOf (K (F := F)).hsCells (K (F := F)).hsToks, (initOf (Pipeline.cells cfgs cellOf_inj) (Pipeline.launchToks cfgs cellOf_inj), 1))

/-- What the launch leaves @main on device `d`: the ghost state of the region's staging cells. -/
def G (d : Dev nD) : sProp 𝕄 := iprop(Pipeline.cellsGhost cfgs EP 0 d ∗ Pipeline.toksInit cfgs EP 0 d)

theorem bigSep_emp' {I : Type} (s : Finset I) : (bigSep s fun _ => iprop(emp)) = (iprop(emp) : sProp 𝕄) := bigSep_emp_const s

variable [FloatOps F]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HP⟩
  ihave HP' := (show (BI.own (embR (A := UH) (B := UP × Counters) (nD := nD) (τ := τ) (sig := sig) (Ix := HIx 1) (Val := Elt F) (Name := ℕ) (Lvl := ℕ)
      ((initOf (Pipeline.cells cfgs cellOf_inj) (Pipeline.launchToks cfgs cellOf_inj), (1 : Counters)) : UP × Counters)) : sProp 𝕄)
      ⊢ BI.own (EP (F := F) (initOf (Pipeline.cells cfgs cellOf_inj) (Pipeline.launchToks cfgs cellOf_inj))) from Entails.of_eq rfl) $$ HP
  imod (Pipeline.fund_ghost cfgs EP cellOf_inj) $$ HP' with ⟨Hg, Ht⟩
  imodintro
  isplitl [HH]; · iexact HH
  isplitl [Hg Ht]
  · unfold G
    rw [bigSep_sep']
    isplitl [Hg]
    · iapply (Entails.of_eq (bigSep_congr fun d _ => (bigSep_univ_of_subsingleton (0 : Fin 1) (Φ := fun p => Pipeline.cellsGhost cfgs EP p d)))); iexact Hg
    · iapply (Entails.of_eq (bigSep_congr fun d _ => (bigSep_univ_of_subsingleton (0 : Fin 1) (Φ := fun p => Pipeline.toksInit cfgs EP p d)))); iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev x' : DevRef τ sig := Proc.devRef .tc (main_arg0 : Ref sig .tc)
abbrev sb' : DevRef τ sig := Proc.devRef .tc (main_arg1 : Ref sig .tc)
abbrev i' : DevRef τ sig := Proc.devRef .tc (main_arg2 : Ref sig .tc)
abbrev c' : DevRef τ sig := Proc.devRef .tc (main_cst : Ref sig .tc)
abbrev fill' : DevRef τ sig := Proc.devRef .tc (main_v0 : Ref sig .tc)
abbrev sm' : DevRef τ sig := Proc.devRef .tc (main_v1 : Ref sig .tc)
abbrev t' : DevRef τ sig := Proc.devRef .tc (main_v2 : Ref sig .tc)
abbrev h' : DevRef τ sig := Proc.devRef .tc (main_v3 : Ref sig .tc)
abbrev o' : DevRef τ sig := Proc.devRef .tc (main_v4 : Ref sig .tc)

/-- The TensorCore's arrays, all unscoped. -/
abbrev S9 : Finset (DevRef τ sig) := {x', sb', i', c', fill', sm', t', h', o'}

omit [FloatOps F] in
theorem held_S9 (d : Dev nD) (W : Valuation τ sig (Elt F)) :
    (held (T d) S9 W : sProp 𝕄) = iprop((xLoc d ↦{fullShare} W x') ∗ (sbLoc d ↦{fullShare} W sb') ∗ (iLoc d ↦{fullShare} W i') ∗ (cLoc d ↦{fullShare} W c') ∗ (fillLoc d ↦{fullShare} W fill') ∗ (smLoc d ↦{fullShare} W sm') ∗ (tLoc d ↦{fullShare} W t') ∗ (hLoc d ↦{fullShare} W h') ∗ oLoc d ↦{fullShare} W o') := by
  unfold held S9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (sbLoc d ↦{fullShare} W main_arg1) ∗ (iLoc d ↦{fullShare} W main_arg2) ∗ (cLoc d ↦{fullShare} W main_cst) ∗ (fillLoc d ↦{fullShare} W main_v0) ∗ (smLoc d ↦{fullShare} W main_v1) ∗ (tLoc d ↦{fullShare} W main_v2) ∗ (hLoc d ↦{fullShare} W main_v3) ∗ oLoc d ↦{fullShare} W main_v4) := by
  unfold unscopedBufs
  rw [show (Finset.univ.filter fun b : Ref sig .tc => ¬ b.isScoped) = {main_arg0, main_arg1, main_arg2, main_cst, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- @main's four host operations, as printed. -/
abbrev opOne : HloOp τ sig (Elt F) := StableHlo.nullary main_cst (constant S_ .f32 0x3F800000#32)
abbrev opFill : HloOp τ sig (Elt F) :=
  StableHlo.unary main_cst main_v0 (broadcastInDim S2048 ![] bcast_S_S2048 : (⟨S_, .f32⟩ : BufTy).Contents (Elt F) → (⟨S2048, .f32⟩ : BufTy).Contents (Elt F))
abbrev opWiden : HloOp τ sig (Elt F) :=
  StableHlo.unary main_arg1 main_v1 ((extf .f32 · bitsLt_bf16_f32) : (⟨S4096, .bf16⟩ : BufTy).Contents (Elt F) → (⟨S4096, .f32⟩ : BufTy).Contents (Elt F))
abbrev opHeads : HloOp τ sig (Elt F) := StableHlo.reshape main_v2 main_v3 rfl shapeCasts_S2048_S16x128

/-- The arrays' contents: at launch; after the three host operations before the call; after the call; after the reshape. -/
def V0 (d : Dev nD) : Valuation τ sig (Elt F) := fun b => m (d, b)
def V1 (d : Dev nD) : Valuation τ sig (Elt F) := (opOne (F := F)).result (V0 m d)
def V2 (d : Dev nD) : Valuation τ sig (Elt F) := (opFill (F := F)).result (V1 m d)
def V3 (d : Dev nD) : Valuation τ sig (Elt F) := (opWiden (F := F)).result (V2 m d)
def V4 (d : Dev nD) : Valuation τ sig (Elt F) := Function.update (V3 m d) t' (tblV m d)
def V5 (d : Dev nD) : Valuation τ sig (Elt F) := (opHeads (F := F)).result (V4 m d)

theorem unscoped_held (d : Dev nD) : (unscopedBufs d (fun b => m ((SparseCore.T d).loc b)) : sProp 𝕄) = held (T d) S9 (V0 m d) := by
  rw [unscopedBufs_eq, held_S9]; rfl

local macro "host_results" : tactic =>
  `(tactic| (repeat (first
      | rw [StableHlo.nullary_result] | rw [StableHlo.unary_result] | rw [StableHlo.reshape_result]
      | (rw [StableHlo.nullary_result_ne]; rotate_left; decide)
      | (rw [StableHlo.unary_result_ne]; rotate_left; decide)
      | (rw [StableHlo.reshape_result_ne]; rotate_left; decide))))

theorem V3_x (d : Dev nD) : V3 m d x' = m (xLoc d) := by unfold V3 V2 V1; host_results; rfl
theorem V3_sb (d : Dev nD) : V3 m d sb' = m (sbLoc d) := by unfold V3 V2 V1; host_results; rfl
theorem V3_i (d : Dev nD) : V3 m d i' = m (iLoc d) := by unfold V3 V2 V1; host_results; rfl
theorem V3_fill (d : Dev nD) : V3 m d fill' = fillV (F := F) := by unfold V3 V2 V1; host_results; rfl
theorem V3_sm (d : Dev nD) : V3 m d sm' = smV m d := by unfold V3 V2 V1; host_results; rfl

theorem V4_x (d : Dev nD) : V4 m d x' = m (xLoc d) := (Function.update_of_ne (show x' ≠ t' by decide) _ _).trans (V3_x m d)
theorem V4_sb (d : Dev nD) : V4 m d sb' = m (sbLoc d) := (Function.update_of_ne (show sb' ≠ t' by decide) _ _).trans (V3_sb m d)
theorem V4_i (d : Dev nD) : V4 m d i' = m (iLoc d) := (Function.update_of_ne (show i' ≠ t' by decide) _ _).trans (V3_i m d)
theorem V4_c (d : Dev nD) : V4 m d c' = V3 m d c' := Function.update_of_ne (show c' ≠ t' by decide) _ _
theorem V4_fill (d : Dev nD) : V4 m d fill' = V3 m d fill' := Function.update_of_ne (show fill' ≠ t' by decide) _ _
theorem V4_sm (d : Dev nD) : V4 m d sm' = V3 m d sm' := Function.update_of_ne (show sm' ≠ t' by decide) _ _
theorem V4_t (d : Dev nD) : V4 m d t' = tblV m d := Function.update_self _ _ _
theorem V4_h (d : Dev nD) : V4 m d h' = V3 m d h' := Function.update_of_ne (show h' ≠ t' by decide) _ _
theorem V4_o (d : Dev nD) : V4 m d o' = V3 m d o' := Function.update_of_ne (show o' ≠ t' by decide) _ _

theorem V5_x (d : Dev nD) : V5 m d x' = m (xLoc d) := by unfold V5; host_results; exact V4_x m d
theorem V5_sb (d : Dev nD) : V5 m d sb' = m (sbLoc d) := by unfold V5; host_results; exact V4_sb m d
theorem V5_i (d : Dev nD) : V5 m d i' = m (iLoc d) := by unfold V5; host_results; exact V4_i m d

theorem hOne : (opOne (F := F)).bufs ⊆ S9 := show ({c'} : Finset (DevRef τ sig)) ⊆ S9 by decide
theorem hFill : (opFill (F := F)).bufs ⊆ S9 := show ({c', fill'} : Finset (DevRef τ sig)) ⊆ S9 by decide
theorem hWiden : (opWiden (F := F)).bufs ⊆ S9 := show ({sb', sm'} : Finset (DevRef τ sig)) ⊆ S9 by decide
theorem hHeads : (opHeads (F := F)).bufs ⊆ S9 := show ({t', h'} : Finset (DevRef τ sig)) ⊆ S9 by decide

theorem held_V3 (d : Dev nD) :
    (held (SparseCore.T d) S9 ((opWiden (F := F)).result (V2 m d)) : sProp 𝕄) = iprop((xLoc d ↦{fullShare} V3 m d x') ∗ (sbLoc d ↦{fullShare} V3 m d sb') ∗ (iLoc d ↦{fullShare} V3 m d i') ∗ (cLoc d ↦{fullShare} V3 m d c') ∗ (fillLoc d ↦{fullShare} V3 m d fill') ∗ (smLoc d ↦{fullShare} V3 m d sm') ∗ (tLoc d ↦{fullShare} V3 m d t') ∗ (hLoc d ↦{fullShare} V3 m d h') ∗ oLoc d ↦{fullShare} V3 m d o') :=
  held_S9 (F := F) d (V3 m d)
theorem held_V4 (d : Dev nD) :
    (held (SparseCore.T d) S9 (V4 m d) : sProp 𝕄) = iprop((xLoc d ↦{fullShare} V3 m d x') ∗ (sbLoc d ↦{fullShare} V3 m d sb') ∗ (iLoc d ↦{fullShare} m (iLoc d)) ∗ (cLoc d ↦{fullShare} V3 m d c') ∗ (fillLoc d ↦{fullShare} fillV (F := F)) ∗ (smLoc d ↦{fullShare} smV m d) ∗ (tLoc d ↦{fullShare} tblV m d) ∗ (hLoc d ↦{fullShare} V3 m d h') ∗ oLoc d ↦{fullShare} V3 m d o') := by
  rw [held_S9, V4_t, V4_c, V4_fill, V4_sm, V4_h, V4_o, V3_fill, V3_sm,
    show V4 m d x' = V3 m d x' from Function.update_of_ne (show x' ≠ t' by decide) _ _,
    show V4 m d sb' = V3 m d sb' from Function.update_of_ne (show sb' ≠ t' by decide) _ _,
    show V4 m d i' = m (iLoc d) from V4_i m d]

/-- What the call takes for the two SparseCores, and what it hands back. -/
theorem st0_eq (d : Dev nD) : (bigSep Finset.univ fun c : Fin ((K (F := F)).nCore 0) => (P m).st 0 d c) = iprop(opsIn m d ∗ emp) := by
  show (bigSep (Finset.univ : Finset (Fin 2)) fun c => forCore m d c.val) = _
  rw [show (Finset.univ : Finset (Fin 2)) = {0, 1} by decide, SparseCore.bigSep_insert' (by decide), bigSep_singleton]
  show iprop(forCore m d 0 ∗ forCore m d 1) = _
  rw [forCore_zero, forCore_one]
theorem dn0_eq (d : Dev nD) : (bigSep Finset.univ fun c : Fin ((K (F := F)).nCore 0) => (P m).dn 0 d c) = iprop(opsOut m d ∗ emp) := by
  show (bigSep (Finset.univ : Finset (Fin 2)) fun c => backCore m d c.val) = _
  rw [show (Finset.univ : Finset (Fin 2)) = {0, 1} by decide, SparseCore.bigSep_insert' (by decide), bigSep_singleton]
  show iprop(backCore m d 0 ∗ backCore m d 1) = _
  rw [backCore_zero, backCore_one]

/-- What @main leaves the claim: the three arguments at their launch contents and the output at `x` scaled by the table. -/
def FIN (d : Dev nD) : sProp 𝕄 :=
  iprop((xLoc d ↦{fullShare} m (xLoc d)) ∗ (sbLoc d ↦{fullShare} m (sbLoc d)) ∗ (iLoc d ↦{fullShare} m (iLoc d))
    ∗ oLoc d ↦{fullShare} (Cert.Spec.scaled (m (xLoc d)) (V5 m d h') : Buf (Elt F) (oLoc d)))

/-- The arrays' contents when the region is entered. -/
abbrev Vr (d : Dev nD) (b : Ref sig .tc) : Buf (Elt F) ((d.tc : Thread nD τ).loc b) := V5 m d (Proc.devRef .tc b)

theorem held_Vr (d : Dev nD) :
    (held (SparseCore.T d) S9 ((opHeads (F := F)).result (V4 m d)) : sProp 𝕄) = unscopedBufs d (Vr m d) := by
  rw [unscopedBufs_eq, held_S9]; rfl

/-- What the region leaves, read back as the arrays: `x` where no window wrote it, the two other arguments in the
    unscoped rest, the output at `x` scaled by the table. -/
theorem region_exit (d : Dev nD) :
    iprop((dats (Vr m) 0 d).arrays ((dats (Vr m) 0 d).arrAt · cfg1.N) ∗ Pipeline.unscopedRest spec1 d (Vr m d)) ⊢ (FIN m d : sProp 𝕄) := by
  rw [Pipeline.arrays_eq cfgs (dats (Vr m)) 0 d launch1.arr_whole ((dats (Vr m) 0 d).share_full fun _ => rfl), bigSep_W1, unscopedRest1_eq]
  dsimp only
  rw [final_x, final_h, final_out]
  unfold FIN
  iintro ⟨⟨Hx, -, Ho⟩, Hsb, Hi, -, -, -, -⟩
  isplitl [Hx]
  · iapply (Entails.of_eq (congrArg (fun f => (xLoc d ↦{fullShare} f : sProp 𝕄)) (V5_x m d))); iexact Hx
  isplitl [Hsb]
  · iapply (Entails.of_eq (congrArg (fun f => (sbLoc d ↦{fullShare} f : sProp 𝕄)) (V5_sb m d))); iexact Hsb
  isplitl [Hi]
  · iapply (Entails.of_eq (congrArg (fun f => (iLoc d ↦{fullShare} f : sProp 𝕄)) (V5_i m d))); iexact Hi
  iapply (Entails.of_eq (congrArg (fun f => (oLoc d ↦{fullShare} (Cert.Spec.scaled f (V5 m d h') : Buf (Elt F) (oLoc d)) : sProp 𝕄)) (V5_x m d))); iexact Ho

omit [FloatOps F] in
/-- With one call every recorded pair sits at or below level 8. -/
theorem wBelow_any (d : Dev nD) (W : Waits sig (HIx 1)) : (K (F := F)).WBelow (SparseCore.T d) W 8 := by
  intro p _
  rcases p with ⟨sm, _ | q⟩
  · show (K (F := F)).lev _ none ≤ 8; rw [SparseCore.Cfg.lev_none]; omega
  · have h7 := (K (F := F)).lev_some_le (SparseCore.T d, sm) q
    have hq : q.val = 0 := by omega
    rw [hq] at h7
    exact h7.trans (by decide)

/-- The region, from the boundary, the arrays as the reshape left them, the generator register, the TensorCore owing
    nothing, the level facts and the staging cells' ghost state: it runs to the continuation, which gets the arguments
    and the scaled output (`FIN`) and the core still owing nothing. -/
theorem region_step [∀ e, Nonempty (Elt F e)] (d : Dev nD) (W : Waits sig (HIx 1)) (Φ : PUnit.{1} → sProp 𝕄) :
    iprop(boundary (SparseCore.T d) ∗ unscopedBufs d (Vr m d) ∗ prngReg d (ρ d) ∗ owes (SparseCore.T d) (0 : CellTallies nD τ sig (HIx 1)) W
        ∗ levAts (K (F := F)).L (K (F := F)).lev ∗ G (F := F) d
        ∗ (iprop(FIN m d ∗ ∃ W', owes (SparseCore.T d) (0 : CellTallies nD τ sig (HIx 1)) W') -∗ Φ ⟨⟩))
      ⊢ wp frame (wpE ((K (F := F)).defs (D (F := F))) 𝒱 (SparseCore.T d) none) Set.univ
          (Prog.lift (TpuEff.customCall (SparseCore.inner (Pipeline.entry 0)) ())) Φ := by
  iintro ⟨Hb, Hub, Hprng, HO, Hlev, HG, Hk⟩
  unfold G
  icases HG with ⟨Hg, Htk⟩
  iapply ((K (F := F)).wp_liftProg (D (F := F)) 𝒱 (SparseCore.T d) Set.univ none (Prog.lift (.customCall (Pipeline.entry 0) ())) _)
  iapply (region_enter (Vr m) ρ d Φ) $$ [Hb Hub Hprng HO Hlev Hg Htk Hk]
  isplitl [Hk]
  · iintro ⟨-, Ha, Hrest, -, HO⟩
    rw [wp_ret]; imodintro
    iapply Hk
    isplitl [Ha Hrest]
    · iapply (region_exit m d)
      isplitl [Ha]; · iexact Ha
      iexact Hrest
    iexact HO
  isplitl [Hb]; · iexact Hb
  isplitl [Hub Hprng HO]
  · isplitl [Hub]; · iexact Hub
    isplitl [Hprng]; · iexact Hprng
    iexists W; iexact HO
  isplitl [Hlev]; · iexact Hlev
  isplitl [Hg]; · iexact Hg
  iexact Htk

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, Hprng⟩, HG⟩
  -- the scalar one, its broadcast, `smooth` widened
  iapply (wp_hlo_within 𝒱 (SparseCore.T d) none Set.univ (op := opOne) (S := S9) hOne (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opFill) (S := S9) hFill (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opWiden) (S := S9) hWiden (V := V2 m d)) $$ [Hb Hheld]
  · isplitl [Hb]; · iexact Hb
    iexact Hheld
  iintro ⟨Hb, Hheld⟩
  rw [wp_ret]; imodintro
  ihave Hh := (Entails.of_eq (held_V3 (F := F) m d)) $$ Hheld
  icases Hh with ⟨Hx, Hsb, Hi, Hc, Hfill, Hsm, Ht, Hh, Ho⟩
  -- the call: the operands to SparseCore 0 and back, the result array at the table
  iapply ((K (F := F)).wp_run (D (F := F)) 𝒱 (EH := EH) (P := P m) κ d 0) $$ [Hst Hx Hsb Hi Hc Hfill Hsm Ht Hh Ho Hb Hprng HG]
  isplitr; · iexact Hctx
  isplitl [Hst]; · iexact Hst
  isplitl [Hi Hfill Hsm Ht]
  · rw [st0_eq]
    isplitl [Hi Hfill Hsm Ht]
    · unfold opsIn
      rw [V3_i, V3_fill, V3_sm]
      isplitl [Hsm]; · iexact Hsm
      isplitl [Hi]; · iexact Hi
      isplitl [Hfill]; · iexact Hfill
      iexists _; iexact Ht
    · iempintro
  iintro ⟨Hst, Hdn⟩
  ihave Hdn' := (Entails.of_eq (dn0_eq m d)) $$ Hdn
  icases Hdn' with ⟨Hops, -⟩
  unfold opsOut
  icases Hops with ⟨Hsm, Hi, Hfill, Ht⟩
  ihave Hheld := (Entails.of_eq (held_V4 (F := F) m d).symm) $$ [Hx Hsb Hi Hc Hfill Hsm Ht Hh Ho]
  · isplitl [Hx]; · iexact Hx
    isplitl [Hsb]; · iexact Hsb
    isplitl [Hi]; · iexact Hi
    isplitl [Hc]; · iexact Hc
    isplitl [Hfill]; · iexact Hfill
    isplitl [Hsm]; · iexact Hsm
    isplitl [Ht]; · iexact Ht
    isplitl [Hh]; · iexact Hh
    iexact Ho
  -- the table as 16 heads of 128 lanes
  iapply (wp_hlo_within 𝒱 (SparseCore.T d) none Set.univ (op := opHeads) (S := S9) hHeads (V := V4 m d)) $$ [Hb Hheld]
  · isplitl [Hb]; · iexact Hb
    iexact Hheld
  iintro ⟨Hb, Hheld⟩
  rw [wp_ret]; imodintro
  -- the region: `x` scaled by the table
  ihave Hub := (Entails.of_eq (held_Vr (F := F) m d)) $$ Hheld
  ihave Hlev := ((K (F := F)).ctx_levAts (EH := EH) (P := P m) κ) $$ Hctx
  unfold SparseCore.Cfg.tcSt
  icases Hst with ⟨⟨%W, %hW, HO⟩, Hat, Hrd, Hrs, Htoks⟩
  iapply (region_step m ρ d W _) $$ [Hb Hub Hprng HO Hlev HG Hat Hrd Hrs Htoks]
  isplitl [Hb]; · iexact Hb
  isplitl [Hub]; · iexact Hub
  isplitl [Hprng]; · iexact Hprng
  isplitl [HO]
  · iapply (Entails.of_eq (congrArg (fun O => (owes (SparseCore.T d) O W : sProp 𝕄)) ((K (F := F)).Otc_end d (le_refl _)))); iexact HO
  isplitl [Hlev]; · iexact Hlev
  isplitl [HG]; · iexact HG
  iintro ⟨Hfin, %W', HO⟩
  imodintro
  isplitr [Hfin]
  · isplitl [HO]
    · iexists W'; isplitr; · ipureintro; exact wBelow_any d W'
      iapply (Entails.of_eq (congrArg (fun O => (owes (SparseCore.T d) O W' : sProp 𝕄)) ((K (F := F)).Otc_end d (le_refl _)).symm)); iexact HO
    isplitl [Hat]; · iexact Hat
    isplitl [Hrd]; · iexact Hrd
    isplitl [Hrs]; · iexact Hrs
    iexact Htoks
  iexact Hfin

/-! ## The final memory, the run -/

def fq (d : Dev nD) (s' : Phys nD τ sig (Elt F)) : Prop :=
  s'.mem.mem (oLoc d) = (Cert.Spec.scaled (m (xLoc d)) (V5 m d h') : Buf (Elt F) (oLoc d))
    ∧ s'.mem.mem (xLoc d) = m (xLoc d) ∧ s'.mem.mem (sbLoc d) = m (sbLoc d) ∧ s'.mem.mem (iLoc d) = m (iLoc d)

theorem hfin (d : Dev nD) (s' : Phys nD τ sig (Elt F)) : iprop(FIN m d ∗ SI s') ⊢ (⌜fq m d s'⌝ : sProp 𝕄) := by
  unfold FIN
  iintro ⟨⟨Hx, Hsb, Hi, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := sbLoc d) (I := Finset.univ) (q := fullShare) (f := m (sbLoc d)))) $$ [HSI Hsb]
  · isplitl [HSI] <;> iassumption
  icases H with ⟨%h2, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h3, HSI, -⟩
  ihave H := (SI_pointsTo_agree (st := s') (ℓ := oLoc d) (I := Finset.univ) (q := fullShare)
    (f := (Cert.Spec.scaled (m (xLoc d)) (V5 m d h') : Buf (Elt F) (oLoc d)))) $$ [HSI Ho]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

/-- The table as 16 heads of 128 lanes, as the reshape leaves it. -/
theorem V5_h (d : Dev nD) : V5 m d h' = Cert.Spec.heads (tblV m d) := by
  unfold V5; rw [StableHlo.reshape_result, V4_t]
  exact Cert.Spec.shapeCast_heads (tblV m d) shapeCasts_S2048_S16x128

/-- The post of the run: the output at the specification's result of `x`, the fill and the widened `smooth`; the three
    arguments unchanged. -/
def QC : PUnit × MemSt nD τ sig (Elt F) → Prop := fun r => ∀ c : Dev nD,
  r.2.mem (oLoc c) = (Cert.Spec.result (m (xLoc c)) (fillV (F := F)) (smV m c) : Buf (Elt F) (oLoc c))
    ∧ r.2.mem (xLoc c) = m (xLoc c) ∧ r.2.mem (sbLoc c) = m (sbLoc c) ∧ r.2.mem (iLoc c) = m (iLoc c)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m)
    (fun s' h c => by
      obtain ⟨h4, h1, h2, h3⟩ := h c
      refine ⟨h4.trans ?_, h1, h2, h3⟩
      rw [V5_h]; rfl)

end Cert.Proof.KernelIdeal

end
-- ==== Proof.ScatterFold.lean ====
/-
  A scatter whose body keeps the update ("set"), read at one position.

  The scatter is a left fold over the update positions in row-major order; each step replaces the entry at the
  position its update lands on. Reading the fold at one position p: if no update lands on p the operand's entry is
  still there; otherwise the entry is the update that landed on p LAST. The two facts are first proved for a fold
  over any strictly increasing list and any step function, knowing of a step only what it does to the entry at p,
  and then said of the scatter when every update lands inside the operand.
-/
import Idealize.ShloMosaic.PureOps.ShapeOps
import Mathlib.Data.List.Sort

namespace Cert.ScatterFold

open Idealize.ShloMosaic

/-! ## A fold read at one position -/

section Fold
variable {ι β γ : Type}

/-- Steps that all leave the entry at `p` alone leave it alone together. -/
theorem foldl_untouched (step : (β → γ) → ι → (β → γ)) (p : β) :
    ∀ (l : List ι) (x : β → γ), (∀ n ∈ l, ∀ r, step r n p = r p) → l.foldl step x p = x p
  | [], _, _ => rfl
  | a :: t, x, h => by
    rw [List.foldl_cons, foldl_untouched step p t (step x a) (fun n hn => h n (List.mem_cons_of_mem a hn))]
    exact h a List.mem_cons_self x

/-- Over a strictly increasing list: if step `n` puts `v` at `p` whatever was there, and every later step leaves
    the entry at `p` alone, the fold ends with `v` at `p`. -/
theorem foldl_last [LT ι] (step : (β → γ) → ι → (β → γ)) (p : β) (v : γ) (n : ι) :
    ∀ (l : List ι) (x : β → γ), l.Pairwise (· < ·) → n ∈ l → (∀ r, step r n p = v) →
      (∀ m ∈ l, n < m → ∀ r, step r m p = r p) → l.foldl step x p = v
  | [], _, _, hn, _, _ => absurd hn List.not_mem_nil
  | a :: t, x, hl, hn, hv, hlater => by
    rw [List.foldl_cons]
    rcases List.mem_cons.1 hn with rfl | hnt
    · rw [foldl_untouched step p t (step x n) (fun m hm => hlater m (List.mem_cons_of_mem n hm) (List.rel_of_pairwise_cons hl hm))]
      exact hv x
    · exact foldl_last step p v n t (step x a) (List.Pairwise.of_cons hl) hnt hv
        (fun m hm => hlater m (List.mem_cons_of_mem a hm))

end Fold

/-! ## The scatter read at one position -/

section Scatter
variable {α : Type} {s si u : Shape} {w : Nat}

/-- Every update lands inside the operand, update `j` on `land j`. A position no update lands on keeps the
    operand's entry. -/
theorem scatter_set_untouched (d : ScatterDims s si u) (x : s.Idx → α) (idx : IVec si w) (upd : u.Idx → α)
    (land : u.Idx → s.Idx) (hland : ∀ j, d.resultIdx? j idx = some (land j))
    (p : s.Idx) (hp : ∀ j, land j ≠ p) :
    Host.scatter d (fun _ b => b) x idx upd p = x p := by
  unfold Host.scatter
  refine foldl_untouched _ p _ x (fun n _ r => ?_)
  show (match d.resultIdx? (u.rowMajor.symm n) idx with
    | some i => fun i' => if i' = i then upd (u.rowMajor.symm n) else r i'
    | none => r) p = r p
  rw [hland]
  exact if_neg (fun h => hp _ h.symm)

/-- Every update lands inside the operand, update `j` on `land j`. A position that update `j` lands on, and no
    update later than `j` in row-major order, ends holding update `j`. -/
theorem scatter_set_last (d : ScatterDims s si u) (x : s.Idx → α) (idx : IVec si w) (upd : u.Idx → α)
    (land : u.Idx → s.Idx) (hland : ∀ j, d.resultIdx? j idx = some (land j))
    (p : s.Idx) (j : u.Idx) (hj : land j = p) (hlater : ∀ j', u.rowMajor j < u.rowMajor j' → land j' ≠ p) :
    Host.scatter d (fun _ b => b) x idx upd p = upd j := by
  unfold Host.scatter
  refine foldl_last _ p (upd j) (u.rowMajor j) _ x (List.sortedLT_finRange _).pairwise (List.mem_finRange _)
    (fun r => ?_) (fun m _ hm r => ?_)
  · show (match d.resultIdx? (u.rowMajor.symm (u.rowMajor j)) idx with
      | some i => fun i' => if i' = i then upd (u.rowMajor.symm (u.rowMajor j)) else r i'
      | none => r) p = upd j
    rw [Equiv.symm_apply_apply, hland]
    exact if_pos hj.symm
  · show (match d.resultIdx? (u.rowMajor.symm m) idx with
      | some i => fun i' => if i' = i then upd (u.rowMajor.symm m) else r i'
      | none => r) p = r p
    rw [hland]
    refine if_neg (fun h => hlater (u.rowMajor.symm m) ?_ h.symm)
    rw [Equiv.apply_symm_apply]
    exact hm

end Scatter

end Cert.ScatterFold
-- ==== Proof.ColumnDims.lean ====
/-
  The gather and the scatter of one column list, at the literal shapes, when every listed column is 1.

  The operand is [2, 4096, 2048]; the column list has 4096 entries; gathered values and updates are
  [2, 4096, 4096]: entry (b, s, k) belongs to row (b, s) and to the k-th listed column. With every listed column
  equal to 1, the gather reads column 1 of the row for every k, and update (b, s, k) lands on (b, s, 1) for
  every k.
-/
import Idealize.ShloMosaic.Lib.ValueIdx

namespace Cert.ColumnDims

open Idealize.ShloMosaic Idealize.ShloMosaic.ValueIdx

/-- The operand: rows (b, s), 2048 columns. -/
abbrev SO : Shape := ⟨3, ![2, 4096, 2048]⟩
/-- The column list, one column per entry. -/
abbrev SI : Shape := ⟨2, ![4096, 1]⟩
/-- Gathered values and updates: rows (b, s), one entry per listed column. -/
abbrev SU : Shape := ⟨3, ![2, 4096, 4096]⟩

/-- Where the k-th listed column stands in the list. -/
abbrev listPos (k : Fin 4096) : SI.Idx := ix2 k (⟨0, Nat.one_pos⟩ : Fin 1)

/-- Column 1. -/
abbrev colOne : Fin 2048 := ⟨1, by decide⟩

/-! ## Which operand axes the column list names, and which the rows keep -/

theorem zero_not_col : (0 : Fin 3) ∉ ([2] : List (Fin 3)) := by decide
theorem one_not_col : (1 : Fin 3) ∉ ([2] : List (Fin 3)) := by decide
theorem zero_row : (0 : Fin 3) ∈ SO.kept [2] := by decide
theorem one_row : (1 : Fin 3) ∈ SO.kept [2] := by decide
theorem two_not_row : (2 : Fin 3) ∉ SO.kept [2] := by decide
theorem zero_row' : (0 : Fin 3) ∈ SO.kept ([2] ++ []) := by decide
theorem one_row' : (1 : Fin 3) ∈ SO.kept ([2] ++ []) := by decide

/-! ## The scatter's landing positions -/

/-- The scatter's dimension numbers: the updates' first two axes are the operand's, the third runs over the list,
    whose entry names the operand's column. -/
abbrev setDims (wf : ScatterDims.WF SO SI SU [0, 1] [2] [2] 1) : ScatterDims SO SI SU where
  updateWindowDims := [0, 1]
  insertedWindowDims := [2]
  scatterDimsToOperandDims := [2]
  indexVectorDim := 1
  wf := wf

section Set
variable (wf : ScatterDims.WF SO SI SU [0, 1] [2] [2] 1) {w : Nat} (j : SU.Idx) (idx : IVec SI w)

theorem start_zero : (setDims wf).start j idx (0 : Fin 3) = 0 := by
  unfold ScatterDims.start
  rw [dif_neg (show (0 : Fin 3) ∉ (setDims wf).scatterDimsToOperandDims from zero_not_col)]
theorem start_one : (setDims wf).start j idx (1 : Fin 3) = 0 := by
  unfold ScatterDims.start
  rw [dif_neg (show (1 : Fin 3) ∉ (setDims wf).scatterDimsToOperandDims from one_not_col)]
theorem start_two : (setDims wf).start j idx (2 : Fin 3) = (idx (listPos (j 2))).toInt := by
  unfold ScatterDims.start
  rw [dif_pos (show (2 : Fin 3) ∈ (setDims wf).scatterDimsToOperandDims from List.mem_singleton.mpr rfl)]
  have hsi : (setDims wf).siIdx j ⟨List.idxOf (2 : Fin 3) (setDims wf).scatterDimsToOperandDims,
      List.idxOf_lt_length_iff.2 (List.mem_singleton.mpr rfl)⟩ = listPos (j 2) := by
    funext b; refine Fin.ext ?_
    match b with
    | ⟨0, _⟩ => rfl
    | ⟨1, _⟩ => rfl
  rw [hsi]

theorem window_zero : (setDims wf).window j (0 : Fin 3) = (j 0).val := by
  unfold ScatterDims.window
  rw [dif_pos (show (0 : Fin 3) ∈ (setDims wf).sKept from zero_row)]; rfl
theorem window_one : (setDims wf).window j (1 : Fin 3) = (j 1).val := by
  unfold ScatterDims.window
  rw [dif_pos (show (1 : Fin 3) ∈ (setDims wf).sKept from one_row)]; rfl
theorem window_two : (setDims wf).window j (2 : Fin 3) = 0 := by
  unfold ScatterDims.window
  rw [dif_neg (show (2 : Fin 3) ∉ (setDims wf).sKept from two_not_row)]

/-- With every listed column 1, update (b, s, k) lands on (b, s, 1). -/
theorem land_ones (idx : IVec SI 32) (hidx : ∀ k, idx k = 1#32) :
    (setDims wf).resultIdx? j idx = some (ix3 (j 0) (j 1) colOne) := by
  have h0 := (j 0).isLt
  have h1 := (j 1).isLt
  have e2 : (setDims wf).start j idx (2 : Fin 3) = 1 := by rw [start_two, hidx]; rfl
  have h : ∀ a, 0 ≤ (setDims wf).start j idx a + (setDims wf).window j a ∧
      (setDims wf).start j idx a + (setDims wf).window j a < SO.size a := by
    intro a
    match a with
    | ⟨0, _⟩ =>
      show 0 ≤ (setDims wf).start j idx (0 : Fin 3) + ((setDims wf).window j (0 : Fin 3) : Int) ∧
        (setDims wf).start j idx (0 : Fin 3) + ((setDims wf).window j (0 : Fin 3) : Int) < (2 : Nat)
      rw [start_zero, window_zero]; show (0 : Int) ≤ 0 + ((j 0).val : Int) ∧ (0 : Int) + ((j 0).val : Int) < (2 : Nat)
      have : (j 0).val < 2 := h0
      omega
    | ⟨1, _⟩ =>
      show 0 ≤ (setDims wf).start j idx (1 : Fin 3) + ((setDims wf).window j (1 : Fin 3) : Int) ∧
        (setDims wf).start j idx (1 : Fin 3) + ((setDims wf).window j (1 : Fin 3) : Int) < (4096 : Nat)
      rw [start_one, window_one]
      have : (j 1).val < 4096 := h1
      omega
    | ⟨2, _⟩ =>
      show 0 ≤ (setDims wf).start j idx (2 : Fin 3) + ((setDims wf).window j (2 : Fin 3) : Int) ∧
        (setDims wf).start j idx (2 : Fin 3) + ((setDims wf).window j (2 : Fin 3) : Int) < (2048 : Nat)
      rw [e2, window_two]
      omega
  unfold ScatterDims.resultIdx?
  rw [dif_pos h]
  congr 1
  funext a
  refine Fin.ext ?_
  match a with
  | ⟨0, _⟩ =>
    show ((setDims wf).start j idx (0 : Fin 3) + ((setDims wf).window j (0 : Fin 3) : Int)).toNat = (j 0).val
    rw [start_zero, window_zero]; omega
  | ⟨1, _⟩ =>
    show ((setDims wf).start j idx (1 : Fin 3) + ((setDims wf).window j (1 : Fin 3) : Int)).toNat = (j 1).val
    rw [start_one, window_one]; omega
  | ⟨2, _⟩ =>
    show ((setDims wf).start j idx (2 : Fin 3) + ((setDims wf).window j (2 : Fin 3) : Int)).toNat = 1
    rw [e2, window_two]; rfl

end Set

/-! ## The gather -/

/-- The gather's dimension numbers: whole rows, one column each, the column the list's entry names. -/
abbrev takeDims (wf : GatherDims.WF SO SI SU [0, 1] [2] [] [2] [] 1 ![2, 4096, 1]) : GatherDims SO SI SU where
  offsetDims := [0, 1]
  collapsedSliceDims := [2]
  operandBatchingDims := []
  startIndicesBatchingDims := []
  startIndexMap := [2]
  indexVectorDim := 1
  sliceSizes := ![2, 4096, 1]
  wf := wf

section Take
variable {α : Type} (wf : GatherDims.WF SO SI SU [0, 1] [2] [] [2] [] 1 ![2, 4096, 1])

/-- With every listed column 1, gathered entry (b, s, k) is the operand's (b, s, 1). -/
theorem take_ones (x : SO.Idx → α) (idx : IVec SI 32) (hidx : ∀ k, idx k = 1#32) (j : SU.Idx) :
    Host.gather (takeDims wf) x idx j = x (ix3 (j 0) (j 1) colOne) := by
  unfold Host.gather
  congr 1
  funext a
  refine Fin.ext ?_
  show (takeDims wf).start j idx a + (takeDims wf).batchCoord j a + (takeDims wf).offCoord j a = _
  rw [GatherDims.batchCoord_eq_zero _ _ _ List.not_mem_nil, Nat.add_zero]
  match a with
  | ⟨0, _⟩ =>
    show (takeDims wf).start j idx (0 : Fin 3) + (takeDims wf).offCoord j (0 : Fin 3) = (j 0).val
    have e : (takeDims wf).start j idx (0 : Fin 3) = 0 := by
      unfold GatherDims.start
      rw [dif_neg (show (0 : Fin 3) ∉ (takeDims wf).startIndexMap from zero_not_col)]
    have o : (takeDims wf).offCoord j (0 : Fin 3) = (j 0).val := by
      unfold GatherDims.offCoord
      rw [dif_pos (show (0 : Fin 3) ∈ (takeDims wf).sKept from zero_row')]; rfl
    rw [e, o, Nat.zero_add]
  | ⟨1, _⟩ =>
    show (takeDims wf).start j idx (1 : Fin 3) + (takeDims wf).offCoord j (1 : Fin 3) = (j 1).val
    have e : (takeDims wf).start j idx (1 : Fin 3) = 0 := by
      unfold GatherDims.start
      rw [dif_neg (show (1 : Fin 3) ∉ (takeDims wf).startIndexMap from one_not_col)]
    have o : (takeDims wf).offCoord j (1 : Fin 3) = (j 1).val := by
      unfold GatherDims.offCoord
      rw [dif_pos (show (1 : Fin 3) ∈ (takeDims wf).sKept from one_row')]; rfl
    rw [e, o, Nat.zero_add]
  | ⟨2, _⟩ =>
    show (takeDims wf).start j idx (2 : Fin 3) + (takeDims wf).offCoord j (2 : Fin 3) = 1
    have o : (takeDims wf).offCoord j (2 : Fin 3) = 0 :=
      GatherDims.offCoord_eq_zero _ _ _ (fun h => ((GatherDims.mem_sKept _ _).mp h).1 (List.mem_singleton.mpr rfl))
    have e : (takeDims wf).start j idx (2 : Fin 3) = 1 := by
      unfold GatherDims.start
      rw [dif_pos (show (2 : Fin 3) ∈ (takeDims wf).startIndexMap from List.mem_singleton.mpr rfl), hidx]
      rfl
    rw [e, o]

end Take

end Cert.ColumnDims
-- ==== Proof.ColumnSet.lean ====
/-
  The scatter of one column list into rows of 2048 columns, every listed column 1, read at any position.

  All 4096 updates of row (b, s) land on (b, s, 1), in ascending order of their place k in the list, so the entry
  there ends as update (b, s, 4095), the last; every other entry is the operand's.
-/
import proofs.«213798_g80290118632062_cont_sun_m_155_14_alg».proof.Proof.ScatterFold
import proofs.«213798_g80290118632062_cont_sun_m_155_14_alg».proof.Proof.ColumnDims

namespace Cert.ColumnSet

open Idealize.ShloMosaic Idealize.ShloMosaic.ValueIdx Cert.ColumnDims Cert.ScatterFold

/-- The last place in the column list. -/
abbrev lastK : Fin 4096 := ⟨4095, by decide⟩

variable {α : Type} (wf : ScatterDims.WF SO SI SU [0, 1] [2] [2] 1)

/-- Where update `j` lands when every listed column is 1. -/
abbrev land (j : SU.Idx) : SO.Idx := ix3 (j 0) (j 1) colOne

/-- The last update of row (b, s) lands on column 1 of that row. -/
theorem land_last (p : SO.Idx) (hp : (p 2).val = 1) : land (ix3 (p 0) (p 1) lastK) = p := by
  funext a
  match a with
  | ⟨0, _⟩ => rfl
  | ⟨1, _⟩ => rfl
  | ⟨2, _⟩ => exact Fin.ext hp.symm

/-- No update after the last of row (b, s), in row-major order, lands in that row. -/
theorem later_elsewhere (p : SO.Idx) (j' : SU.Idx)
    (hlt : SU.rowMajor (ix3 (p 0) (p 1) lastK) < SU.rowMajor j') : land j' ≠ p := by
  intro h
  have e0 : (j' 0).val = (p 0).val := congrArg Fin.val (congrFun h (0 : Fin 3))
  have e1 : (j' 1).val = (p 1).val := congrArg Fin.val (congrFun h (1 : Fin 3))
  have h2 : (j' 2).val < 4096 := (j' 2).isLt
  rw [Fin.lt_def, Shape.rowMajor_val_three, Shape.rowMajor_val_three] at hlt
  have hlt' : ((p 0).val * 4096 + (p 1).val) * 4096 + 4095 < ((j' 0).val * 4096 + (j' 1).val) * 4096 + (j' 2).val := hlt
  rw [e0, e1] at hlt'
  omega

/-- THE SCATTER READ AT `p`: on column 1 the row's last update, elsewhere the operand. -/
theorem set_ones (x : SO.Idx → α) (idx : IVec SI 32) (hidx : ∀ k, idx k = 1#32) (upd : SU.Idx → α) (p : SO.Idx) :
    Host.scatter (setDims wf) (fun _ b => b) x idx upd p
      = if (p 2).val = 1 then upd (ix3 (p 0) (p 1) lastK) else x p := by
  by_cases hp : (p 2).val = 1
  · rw [if_pos hp]
    exact scatter_set_last (setDims wf) x idx upd land (fun j => land_ones wf j idx hidx) p (ix3 (p 0) (p 1) lastK)
      (land_last p hp) (fun j' hlt => later_elsewhere p j' hlt)
  · rw [if_neg hp]
    refine scatter_set_untouched (setDims wf) x idx upd land (fun j => land_ones wf j idx hidx) p (fun j h => hp ?_)
    exact (congrArg Fin.val (congrFun h (2 : Fin 3))).symm

end Cert.ColumnSet
-- ==== Proof.RefValue.lean ====
/-
  The reference's result as one function of its arguments, when every listed column is 1.

  The reference lays x[b, h, s, d] out as rows (b, s) of 2048 columns, column 128 h + d; gathers, for each of the
  4096 listed columns, that column of every row; multiplies the k-th gathered column by smooth[k]; writes the
  products back at the listed columns, in order; and undoes the layout. With every listed column 1, each gathered
  column is column 1, every product of row (b, s) is written to (b, s, 1), and the last, x[b, 0, s, 1] · smooth[4095],
  stays. So the result is x[b, h, s, d] · smooth[4095] where 128 h + d = 1 and x[b, h, s, d] elsewhere: the
  specification's `result` with a table of ones.
-/
import proofs.«213798_g80290118632062_cont_sun_m_155_14_alg».proof.Proof.Gen.ReferenceIdeal.Run
import proofs.«213798_g80290118632062_cont_sun_m_155_14_alg».proof.Proof.Gen.ReferenceIdeal.Read
import proofs.«213798_g80290118632062_cont_sun_m_155_14_alg».proof.Proof.Spec
import proofs.«213798_g80290118632062_cont_sun_m_155_14_alg».proof.Proof.ColumnSet

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read
open Cert.ColumnDims Cert.ColumnSet

/-! ## The column list -/

/-- A negative column counts from the end (`c + 2048`); column 1 is not negative and stays. -/
theorem wrap_one : Scalar.select (IntOp.cmpi .slt 1#32 0#32) (IntOp.addi 1#32 2048#32) 1#32 = 1#32 := by decide

/-- The list the gather reads is all ones. -/
theorem gather_list (x2 : (⟨S4096, .i32⟩ : BufTy).Contents (Elt Ideal)) (h2 : ∀ k, x2 k = 1#32) (k : S4096x1.Idx) :
    val_main_v7 (F := Ideal) x2 k = 1#32 := by
  rw [val_main_v7_apply, val_main_v6_apply, val_main_v3_apply, val_main_v5_apply, val_main_v2_apply,
    val_main_v4_apply, val_main_c_apply, val_main_c_0_apply, h2]
  exact wrap_one

/-- The list the scatter reads is all ones. -/
theorem scatter_list (x2 : (⟨S4096, .i32⟩ : BufTy).Contents (Elt Ideal)) (h2 : ∀ k, x2 k = 1#32) (k : S4096x1.Idx) :
    val_main_v18 (F := Ideal) x2 k = 1#32 := by
  rw [val_main_v18_apply, val_main_v17_apply, val_main_v14_apply, val_main_v16_apply, val_main_v13_apply,
    val_main_v15_apply, val_main_c_1_apply, val_main_c_2_apply, h2]
  exact wrap_one

/-! ## Gathered columns, and the products -/

/-- Every gathered column is column 1 of its row. -/
theorem gathered (x0 : (⟨S2x16x4096x128, .f32⟩ : BufTy).Contents (Elt Ideal)) (x2 : (⟨S4096, .i32⟩ : BufTy).Contents (Elt Ideal)) (h2 : ∀ k, x2 k = 1#32) (j : S2x4096x4096.Idx) :
    val_main_v8 (F := Ideal) x0 x2 j = val_main_v1 (F := Ideal) x0 (ix3 (j 0) (j 1) colOne) := by
  unfold val_main_v8
  exact take_ones Cert.ReferenceIdeal.Gen.gather_S2x4096x2048_S4096x1_S2x4096x4096_01_2_n_n_2_1_240961_wf (val_main_v1 (F := Ideal) x0) (val_main_v7 (F := Ideal) x2) (gather_list x2 h2) j

/-- The factor of product (b, s, k) is smooth[k]. -/
theorem factor (x1 : (⟨S4096, .bf16⟩ : BufTy).Contents (Elt Ideal)) (j : S2x4096x4096.Idx) :
    val_main_v11 (F := Ideal) x1 j = x1 (ix1 (j 2)) := by
  rw [val_main_v11_apply, val_main_v10_apply, val_main_v9_apply]
  show x1 _ = x1 _
  congr 1
  funext a
  match a with
  | ⟨0, _⟩ => rfl

/-- Product (b, s, k) is column 1 of row (b, s) times smooth[k]. -/
theorem product (x0 : (⟨S2x16x4096x128, .f32⟩ : BufTy).Contents (Elt Ideal)) (x1 : (⟨S4096, .bf16⟩ : BufTy).Contents (Elt Ideal)) (x2 : (⟨S4096, .i32⟩ : BufTy).Contents (Elt Ideal)) (h2 : ∀ k, x2 k = 1#32) (j : S2x4096x4096.Idx) :
    val_main_v12 (F := Ideal) x0 x1 x2 j
      = (val_main_v1 (F := Ideal) x0 (ix3 (j 0) (j 1) colOne) * x1 (ix1 (j 2)) : EReal) := by
  rw [val_main_v12_apply, gathered x0 x2 h2, factor]
  rfl

/-! ## The rows after the products are written back -/

/-- Column 1 of every row is scaled by the last entry of smooth; every other entry is unchanged. -/
theorem written (x0 : (⟨S2x16x4096x128, .f32⟩ : BufTy).Contents (Elt Ideal)) (x1 : (⟨S4096, .bf16⟩ : BufTy).Contents (Elt Ideal)) (x2 : (⟨S4096, .i32⟩ : BufTy).Contents (Elt Ideal)) (h2 : ∀ k, x2 k = 1#32) (p : S2x4096x2048.Idx) :
    val_main_v19 (F := Ideal) x0 x1 x2 p
      = if (p 2).val = 1 then (val_main_v1 (F := Ideal) x0 p * x1 Cert.Spec.lastPos : EReal)
        else val_main_v1 (F := Ideal) x0 p := by
  unfold val_main_v19
  refine (set_ones Cert.ReferenceIdeal.Gen.scatter_S2x4096x2048_S4096x1_S2x4096x4096_01_2_2_1_wf (val_main_v1 (F := Ideal) x0) (val_main_v18 (F := Ideal) x2) (scatter_list x2 h2)
    (val_main_v12 (F := Ideal) x0 x1 x2) p).trans ?_
  by_cases hp : (p 2).val = 1
  · rw [if_pos hp, if_pos hp, product x0 x1 x2 h2]
    show (val_main_v1 (F := Ideal) x0 (land (ix3 (p 0) (p 1) lastK)) * x1 (ix1 lastK) : EReal) = _
    rw [land_last p hp]
  · rw [if_neg hp, if_neg hp]

/-! ## The layout and its inverse -/

/-- Entry [b, h, s, d] of the result is read from row (b, s), column 128 h + d … -/
theorem column_of (i : S2x16x4096x128.Idx) :
    ((idx_main_v20 (idx_main_v21 i)) 2).val = 128 * (i 1).val + (i 3).val := by
  have h0 : (i 0).val < 2 := (i 0).isLt
  have h1 : (i 1).val < 16 := (i 1).isLt
  have h2 : (i 2).val < 4096 := (i 2).isLt
  have h3 : (i 3).val < 128 := (i 3).isLt
  show ((((i 0).val * 4096 + (i 2).val) * 16 + (i 1).val) * 128 + (i 3).val) % 2048 = 128 * (i 1).val + (i 3).val
  omega

/-- … and that entry of the laid-out rows is x[b, h, s, d]. -/
theorem rows_at (x0 : (⟨S2x16x4096x128, .f32⟩ : BufTy).Contents (Elt Ideal)) (i : S2x16x4096x128.Idx) :
    val_main_v1 (F := Ideal) x0 (idx_main_v20 (idx_main_v21 i)) = x0 i := by
  rw [val_main_v1_apply, val_main_v0_apply]
  congr 1
  funext a
  refine Fin.ext ?_
  have h0 : (i 0).val < 2 := (i 0).isLt
  have h1 : (i 1).val < 16 := (i 1).isLt
  have h2 : (i 2).val < 4096 := (i 2).isLt
  have h3 : (i 3).val < 128 := (i 3).isLt
  match a with
  | ⟨0, _⟩ => dsimp only; show _ = (i 0).val; omega
  | ⟨1, _⟩ => dsimp only; show _ = (i 1).val; omega
  | ⟨2, _⟩ => dsimp only; show _ = (i 2).val; omega
  | ⟨3, _⟩ => dsimp only; show _ = (i 3).val; omega

/-! ## The result -/

/-- The reference's result is the specification's, with a table of ones. -/
theorem result_eq (x0 : (⟨S2x16x4096x128, .f32⟩ : BufTy).Contents (Elt Ideal)) (x1 : (⟨S4096, .bf16⟩ : BufTy).Contents (Elt Ideal)) (x2 : (⟨S4096, .i32⟩ : BufTy).Contents (Elt Ideal)) (h2 : ∀ k, x2 k = 1#32) :
    val_main_v21 (F := Ideal) x0 x1 x2 = Cert.Spec.result (F := Ideal) x0 (fun _ => (1 : EReal)) x1 := by
  funext i
  rw [val_main_v21_apply, val_main_v20_apply, written x0 x1 x2 h2, rows_at x0 i, column_of i]
  unfold Cert.Spec.result Cert.Spec.scaled Cert.Spec.heads Cert.Spec.table
  show _ = (x0 i * (if 128 * (i 1).val + (i 3).val = 1 then x1 Cert.Spec.lastPos else 1) : EReal)
  by_cases h : 128 * (i 1).val + (i 3).val = 1
  · rw [if_pos h, if_pos h]
  · rw [if_neg h, if_neg h, mul_one]

/-- Every weakly fair execution of the reference, from a memory whose column list is all ones, terminates with its
    result the specification's (a table of ones, the scattered values the second argument) and its arguments
    unchanged. -/
theorem run_spec (m' : (ℓ : Loc nD τ sig) → Buf (Elt Ideal) ℓ) (ρ' : Dev nD → PrngReg)
    (hidx : ∀ (c : Dev nD) j, m' ((c.tc : Thread nD τ).loc main_arg2) j = 1#32) :
    θ_run (Cert.ReferenceIdeal.defs (F := Ideal)) (onTc (τ := τ) (main (F := Ideal))) ⟨m', fun _ => 0, ρ'⟩
      (fun r => ∀ c : Dev nD,
        r.2.mem ((c.tc : Thread nD τ).loc main_v21)
          = Cert.Spec.result (F := Ideal) (m' ((c.tc : Thread nD τ).loc main_arg0)) (fun _ => (1 : EReal))
              (m' ((c.tc : Thread nD τ).loc main_arg1))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)) :=
  (θ_run Cert.ReferenceIdeal.defs _ _).mono
    (fun _ h c => ⟨(h c).1.trans ((val_main_v21_eq _ _ _).trans (result_eq _ _ _ (hidx c))), (h c).2⟩)
    (Cert.ReferenceIdeal.Value.run (F := Ideal) m' ρ')

end Cert.ReferenceIdeal.RefValue

end
-- ==== Proof.IdealBridge.lean ====
/-
  The kernel's two host results at the ideal instance.

  The table's fill is the f32 word 0x3F800000 broadcast to 2048 entries, and that word is the number one; widening
  `smooth` to f32 changes no value, every float being an extended real. So the specification's result over the
  kernel's own fill and widened `smooth` is its result over a table of ones and `smooth` itself.
-/
import proofs.«213798_g80290118632062_cont_sun_m_155_14_alg».proof.Proof.KernelIdealCommon
import Idealize.ShloMosaic.Lib.IdealHost

noncomputable section

namespace Cert.Proof.IdealBridge

open Idealize.ShloMosaic Cert.Proof.KernelIdeal Cert.KernelIdeal

/-- Every entry of the fill is one. -/
theorem fillV_ideal : (fillV (F := Ideal) : Cert.Spec.S2k.Idx → EReal) = fun _ => (1 : EReal) := by
  funext i
  show Ideal.ofBits .f32 0x3F800000#32 = 1
  exact Ideal.ofBits_one_f32

/-- The widened `smooth` is `smooth`. -/
theorem smV_ideal (m : (ℓ : Loc nD τ sig) → Buf (Elt Ideal) ℓ) (d : Dev nD) :
    (smV (F := Ideal) m d : Cert.Spec.S4k.Idx → EReal) = m (sbLoc d) := rfl

/-- The specification's result over the kernel's fill and widened `smooth` is its result over ones and `smooth`. -/
theorem result_ideal (m : (ℓ : Loc nD τ sig) → Buf (Elt Ideal) ℓ) (d : Dev nD) :
    Cert.Spec.result (F := Ideal) (m (xLoc d)) (fillV (F := Ideal)) (smV m d)
      = Cert.Spec.result (F := Ideal) (m (xLoc d)) (fun _ => (1 : EReal)) (m (sbLoc d)) := by
  rw [fillV_ideal, smV_ideal]

end Cert.Proof.IdealBridge

end
-- ==== Proof.PreDecode.lean ====
/-
  What the precondition says of the column list.

  The precondition is the conjunction of three bits: every x is finite, every smooth is finite, and every listed
  column c satisfies 1 ≤ c and c ≤ 1 as signed 32-bit integers. The third bit is an and-reduction over the list,
  so when the conjunction is 1 each column passes both comparisons, and a word between 1 and 1 is 1.
-/
import proofs.«213798_g80290118632062_cont_sun_m_155_14_alg».proof.Pre_input_domain
import proofs.«213798_g80290118632062_cont_sun_m_155_14_alg».proof.Proof.Gen.Pre_input_domain
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx Cert.Pre_input_domain

variable {F : FTy → Type} [FloatOps F]

/-- The scalar shape has one index. -/
instance : Subsingleton S_.Idx := ⟨fun _ _ => funext fun d => d.elim0⟩

/-- A 32-bit word that is at least 1 and at most 1, both read signed, is 1. -/
theorem word_one (v : BitVec 32) (hge : IntOp.cmpi .sge v 1#32 = 1#1) (hle : IntOp.cmpi .sle v 1#32 = 1#1) :
    v = 1#32 :=
  BitVec.eq_of_toInt_eq (le_antisymm (IntOp.cmpi_sle.1 hle) (IntOp.cmpi_sge.1 hge))

/-- Under the precondition every listed column is 1. -/
theorem idx_ones (x : FVec F S2x16x4096x128 .f32) (sb : FVec F S4096 .bf16) (idx : IVec S4096 32)
    (h : Cert.Pre_input_domain.fn (F := F) x sb idx = fun _ => 1#1) : ∀ j, idx j = 1#32 := by
  intro j
  have h0 := congrFun h ix0
  unfold Cert.Pre_input_domain.fn at h0
  dsimp only at h0
  obtain ⟨_, hall⟩ := IntOp.andi_eq_one.1 h0
  have hj := Host.reduce_andi_all _ _ _ _ ix0 hall j
  obtain ⟨hge, hle⟩ := IntOp.andi_eq_one.1 hj
  exact word_one (idx j) hge hle

end Cert.PreDecode

end
-- ==== Proof.lean ====
/-
  The proof of `Cert.Claim`: the kernel and its reference compute the same array.

  The precondition says every index is 1. The reference then gathers column 1 of `x` (laid out as [batch, position,
  head·128 + lane]) 4096 times, scales copy j by `smooth[j]`, and scatters all 4096 back onto column 1 in ascending
  order, so column 1 ends as `x · smooth[4095]` and every other column is untouched. The kernel scatters the 4096
  values of `smooth` onto slot 1 of a table of 2048 ones, sixteen lanes at a time in ascending order with the highest
  lane winning, so slot 1 ends at `smooth[4095]` and every other slot at 1; it then scales `x[b, h, s, d]` by slot
  `128 h + d`. Over the extended reals `x · 1 = x`, so the two results agree entry by entry (`Spec.result`).
  Both printed kernel programs (word level and idealized) are run by one text read at two instances; each frame is
  that run with the result dropped.
-/
import proofs.«213798_g80290118632062_cont_sun_m_155_14_alg».proof.Defs
import proofs.«213798_g80290118632062_cont_sun_m_155_14_alg».proof.Proof.Gen.Kernel
import proofs.«213798_g80290118632062_cont_sun_m_155_14_alg».proof.Proof.Gen.Kernel.Skeleton
import proofs.«213798_g80290118632062_cont_sun_m_155_14_alg».proof.Proof.Gen.Kernel.Launch
import proofs.«213798_g80290118632062_cont_sun_m_155_14_alg».proof.Proof.Gen.Kernel.Points
import proofs.«213798_g80290118632062_cont_sun_m_155_14_alg».proof.Proof.Gen.KernelIdeal
import proofs.«213798_g80290118632062_cont_sun_m_155_14_alg».proof.Proof.Gen.KernelIdeal.Skeleton
import proofs.«213798_g80290118632062_cont_sun_m_155_14_alg».proof.Proof.Gen.KernelIdeal.Launch
import proofs.«213798_g80290118632062_cont_sun_m_155_14_alg».proof.Proof.Gen.KernelIdeal.Points
import proofs.«213798_g80290118632062_cont_sun_m_155_14_alg».proof.Proof.Gen.ReferenceIdeal
import proofs.«213798_g80290118632062_cont_sun_m_155_14_alg».proof.Proof.Gen.Pre_input_domain
import proofs.«213798_g80290118632062_cont_sun_m_155_14_alg».proof.Proof.KernelLaunch
import proofs.«213798_g80290118632062_cont_sun_m_155_14_alg».proof.Proof.KernelIdealLaunch
import proofs.«213798_g80290118632062_cont_sun_m_155_14_alg».proof.Proof.RefValue
import proofs.«213798_g80290118632062_cont_sun_m_155_14_alg».proof.Proof.IdealBridge
import proofs.«213798_g80290118632062_cont_sun_m_155_14_alg».proof.Proof.PreDecode
import Idealize.ShloMosaic.Adequacy
import Idealize.ShloMosaic.Init

noncomputable section

namespace Cert.Proof

open Idealize.ShloMosaic Idealize.SL.Sem

/-- The precondition makes every index word 1, at either instance. -/
theorem ones_word (m : (ℓ : Loc Cert.Kernel.nD Cert.Kernel.τ Cert.Kernel.sig) → Buf (Elt Bits) ℓ) (h : Cert.Pre_Kernel m) :
    Cert.Proof.Kernel.PreOK m := fun d j => Cert.PreDecode.idx_ones _ _ _ (h d) j
theorem ones_ideal (m : (ℓ : Loc Cert.KernelIdeal.nD Cert.KernelIdeal.τ Cert.KernelIdeal.sig) → Buf (Elt Ideal) ℓ) (h : Cert.Pre_KernelIdeal m) :
    Cert.Proof.KernelIdeal.PreOK m := fun d j => Cert.PreDecode.idx_ones _ _ _ (h d) j

theorem frame_word : Cert.frame_Kernel := fun m ρ hpre =>
  (θ_run Cert.Kernel.defs _ _).mono (fun _ h c => ⟨(h c).2.1, (h c).2.2.1, (h c).2.2.2⟩)
    (Cert.Proof.Kernel.run_main (F := Bits) m ρ (ones_word m hpre))

theorem frame_ideal : Cert.frame_KernelIdeal := fun m ρ hpre =>
  (θ_run Cert.KernelIdeal.defs _ _).mono (fun _ h c => ⟨(h c).2.1, (h c).2.2.1, (h c).2.2.2⟩)
    (Cert.Proof.KernelIdeal.run_main (F := Ideal) m ρ (ones_ideal m hpre))

theorem frame_ref : Cert.frame_ReferenceIdeal := fun m ρ hpre =>
  (θ_run Cert.ReferenceIdeal.defs _ _).mono (fun _ h c => (h c).2)
    (Cert.ReferenceIdeal.RefValue.run_spec m ρ fun c j => Cert.PreDecode.idx_ones _ _ _ (hpre c) j)

/-- Both runs end at `Spec.result` of `x`, ones and `smooth`: the kernel's through the table of ones being the constant 1
    and the widening the identity over the extended reals, the reference's from arguments that agree with the kernel's. -/
theorem algebraic : Cert.algebraic_KernelIdeal_ReferenceIdeal := by
  intro m ρ m' ρ' hpre hagree
  refine ⟨fun c => Cert.Spec.result (F := Ideal) (m (Cert.Proof.KernelIdeal.xLoc c)) (fun _ => (1 : EReal)) (m (Cert.Proof.KernelIdeal.sbLoc c)), ?_, ?_⟩
  · exact (θ_run Cert.KernelIdeal.defs _ _).mono
      (fun _ h c => ⟨(h c).1.trans (Cert.Proof.IdealBridge.result_ideal m c), (h c).2.1, (h c).2.2.1, (h c).2.2.2⟩)
      (Cert.Proof.KernelIdeal.run_main (F := Ideal) m ρ (ones_ideal m hpre))
  · refine (θ_run Cert.ReferenceIdeal.defs _ _).mono (fun _ h c => ⟨?_, (h c).2.1, (h c).2.2.1, (h c).2.2.2⟩)
      (Cert.ReferenceIdeal.RefValue.run_spec m' ρ' fun c j => by rw [(hagree c).2.2]; exact ones_ideal m hpre c j)
    rw [(h c).1, (hagree c).1, (hagree c).2.1]

theorem claim : Cert.Claim := ⟨Cert.Kernel.Gen.facts, Cert.KernelIdeal.Gen.facts, Cert.ReferenceIdeal.Gen.facts, Cert.Pre_input_domain.Gen.facts,
  frame_word, frame_ideal, frame_ref, trivial, algebraic⟩

end Cert.Proof

end
